-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128 : Shape := ⟨1, ![128]⟩
abbrev S8192x128 : Shape := ⟨2, ![8192, 128]⟩
abbrev S8192 : Shape := ⟨1, ![8192]⟩
abbrev S_ : Shape := ⟨0, ![]⟩

class Facts : Prop where
  bcast_S_S128 : S_.BroadcastsInDim S128 (![] : Fin 0 → Fin S128.rank)
  reducesTo_S128_S_d0 : S128.ReducesTo [0] S_
  h_S_ : 0 < S_.numel
  bcast_S_S8192x128 : S_.BroadcastsInDim S8192x128 (![] : Fin 0 → Fin S8192x128.rank)
  reducesTo_S8192x128_S_d0_1 : S8192x128.ReducesTo [0, 1] S_

variable [Facts]

def fn {F : FTy → Type} [FloatOps F] (main_arg0 : FVec F S128 .f32) (main_arg1 : FVec F S8192x128 .f32) (main_arg2 : IVec S8192 1) : IVec S_ 1 :=
  let main_v0 : FVec F S128 .f32 := Host.absf main_arg0
  let main_cst : FVec F S_ .f32 := constant S_ .f32 0x7F800000#32
  let main_v1 : FVec F S128 .f32 := broadcastInDim S128 ![] bcast_S_S128 main_cst
  let main_v2 : IVec S128 1 := cmpf .olt main_v0 main_v1
  let main_c : IVec S_ 1 := constantI S_ 1 1#1
  let main_v3 : IVec S_ 1 := (fun x v => Host.reduce IntOp.andi x v reducesTo_S128_S_d0 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  main_v8
-- ==== Kernel.lean ====
abbrev S128 : Shape := ⟨1, ![128]⟩
abbrev S8192x128 : Shape := ⟨2, ![8192, 128]⟩
abbrev S8192 : Shape := ⟨1, ![8192]⟩
abbrev S1x128 : Shape := ⟨2, ![1, 128]⟩
abbrev S_ : Shape := ⟨0, ![]⟩
abbrev S8192x1 : Shape := ⟨2, ![8192, 1]⟩
abbrev S512x128 : Shape := ⟨2, ![512, 128]⟩
abbrev S1024x128 : Shape := ⟨2, ![1024, 128]⟩
abbrev S512x1 : Shape := ⟨2, ![512, 1]⟩
abbrev S128x1024 : Shape := ⟨2, ![128, 1024]⟩
abbrev S512x1024 : Shape := ⟨2, ![512, 1024]⟩
abbrev S1x1024 : Shape := ⟨2, ![1, 1024]⟩
abbrev S512 : Shape := ⟨1, ![512]⟩
abbrev S1 : Shape := ⟨1, ![1]⟩

abbrev nBuf : Space → Nat
  | .hbm => 70
  | .vmem => 11
  | .smem => 0
  | _ => 0

abbrev bufTy : (tb : Table) → Fin (tcTables nBuf tb) → BufTy
  | .hbm, ⟨0, _⟩ => ⟨S128, .f32⟩
  | .hbm, ⟨1, _⟩ => ⟨S8192x128, .f32⟩
  | .hbm, ⟨2, _⟩ => ⟨S8192, .i1⟩
  | .hbm, ⟨3, _⟩ => ⟨S1x128, .f32⟩
  | .hbm, ⟨4, _⟩ => ⟨S8192x128, .f32⟩
  | .hbm, ⟨5, _⟩ => ⟨S8192x128, .f32⟩
  | .hbm, ⟨6, _⟩ => ⟨S_, .f32⟩
  | .hbm, ⟨7, _⟩ => ⟨S8192x128, .f32⟩
  | .hbm, ⟨8, _⟩ => ⟨S8192x128, .f32⟩
  | .hbm, ⟨9, _⟩ => ⟨S8192x128, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x128, .f32⟩
  | .hbm, ⟨18, _⟩ => ⟨S8192x128, .f32⟩
  | .hbm, ⟨19, _⟩ => ⟨S8192x128, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x128, .f32⟩
  | .hbm, ⟨28, _⟩ => ⟨S8192x128, .f32⟩
  | .hbm, ⟨29, _⟩ => ⟨S8192x128, .bf16⟩
  | .hbm, ⟨30, _⟩ => ⟨S8192x128, .bf16⟩
  | .hbm, ⟨31, _⟩ => ⟨S8192, .f32⟩
  | .hbm, ⟨32, _⟩ => ⟨S8192x1, .f32⟩
  | .hbm, ⟨33, _⟩ => ⟨S8192x1, .f32⟩
  | .hbm, ⟨34, _⟩ => ⟨S8192, .f32⟩
  | .hbm, ⟨35, _⟩ => ⟨S_, .f32⟩
  | .hbm, ⟨36, _⟩ => ⟨S_, .f32⟩
  | .hbm, ⟨37, _⟩ => ⟨S8192, .f32⟩
  | .hbm, ⟨38, _⟩ => ⟨S8192, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S1, .f32⟩
  | .hbm, ⟨44, _⟩ => ⟨S8192, .f32⟩
  | .hbm, ⟨45, _⟩ => ⟨S8192, .f32⟩
  | .hbm, ⟨46, _⟩ => ⟨S8192, .f32⟩
  | .hbm, ⟨47, _⟩ => ⟨S_, .f32⟩
  | .hbm, ⟨48, _⟩ => ⟨S_, .f32⟩
  | .hbm, ⟨49, _⟩ => ⟨S1, .f32⟩
  | .hbm, ⟨50, _⟩ => ⟨S8192, .f32⟩
  | .hbm, ⟨51, _⟩ => ⟨S8192, .f32⟩
  | .hbm, ⟨52, _⟩ => ⟨S8192x1, .f32⟩
  | .hbm, ⟨53, _⟩ => ⟨S8192x128, .f32⟩
  | .hbm, ⟨54, _⟩ => ⟨S8192x128, .f32⟩
  | .hbm, ⟨55, _⟩ => ⟨S_, .f32⟩
  | .hbm, ⟨56, _⟩ => ⟨S128, .f32⟩
  | .hbm, ⟨57, _⟩ => ⟨S128, .f32⟩
  | .hbm, ⟨58, _⟩ => ⟨S_, .f32⟩
  | .hbm, ⟨59, _⟩ => ⟨S_, .f32⟩
  | .hbm, ⟨60, _⟩ => ⟨S1, .f32⟩
  | .hbm, ⟨61, _⟩ => ⟨S1, .f32⟩
  | .hbm, ⟨62, _⟩ => ⟨S_, .f32⟩
  | .hbm, ⟨63, _⟩ => ⟨S1, .f32⟩
  | .hbm, ⟨64, _⟩ => ⟨S1, .f32⟩
  | .hbm, ⟨65, _⟩ => ⟨S128, .f32⟩
  | .hbm, ⟨66, _⟩ => ⟨S128, .f32⟩
  | .hbm, ⟨67, _⟩ => ⟨S_, .i1⟩
  | .hbm, ⟨68, _⟩ => ⟨S_, .i1⟩
  | .hbm, ⟨69, _⟩ => ⟨S128, .f32⟩
  | .local _ .vmem, ⟨0, _⟩ => ⟨S512x128, .bf16⟩
  | .local _ .vmem, ⟨1, _⟩ => ⟨S512x128, .bf16⟩
  | .local _ .vmem, ⟨2, _⟩ => ⟨S512x128, .bf16⟩
  | .local _ .vmem, ⟨3, _⟩ => ⟨S512x128, .bf16⟩
  | .local _ .vmem, ⟨4, _⟩ => ⟨S1024x128, .bf16⟩
  | .local _ .vmem, ⟨5, _⟩ => ⟨S1024x128, .bf16⟩
  | .local _ .vmem, ⟨6, _⟩ => ⟨S512x1, .f32⟩
  | .local _ .vmem, ⟨7, _⟩ => ⟨S512x1, .f32⟩
  | .local _ .vmem, ⟨8, _⟩ => ⟨S512x1, .f32⟩
  | .local _ .vmem, ⟨9, _⟩ => ⟨S512x1, .f32⟩
  | .local _ .vmem, ⟨10, _⟩ => ⟨S512x1, .f32⟩
  | _, _ => ⟨S128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_cst : Ref sig .tc := ⟨.hbm, 10, rfl⟩
abbrev main_call0_v1 : Ref sig .tc := ⟨.hbm, 11, rfl⟩
abbrev main_call0_v2 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_call1_v0 : Ref sig .tc := ⟨.hbm, 19, rfl⟩
abbrev main_call1_cst : Ref sig .tc := ⟨.hbm, 20, rfl⟩
abbrev main_call1_v1 : Ref sig .tc := ⟨.hbm, 21, rfl⟩
abbrev main_call1_v2 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_call2_v0 : Ref sig .tc := ⟨.hbm, 36, rfl⟩
abbrev main_call2_v1 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_cst_4 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_5 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_6 : Ref sig .tc := ⟨.hbm, 55, rfl⟩
abbrev main_v35 : Ref sig .tc := ⟨.hbm, 56, rfl⟩
abbrev main_call3_v0 : Ref sig .tc := ⟨.hbm, 57, rfl⟩
abbrev main_call3_cst : Ref sig .tc := ⟨.hbm, 58, rfl⟩
abbrev main_call3_v1 : Ref sig .tc := ⟨.hbm, 59, rfl⟩
abbrev main_call3_v2 : Ref sig .tc := ⟨.hbm, 60, rfl⟩
abbrev main_v36 : Ref sig .tc := ⟨.hbm, 61, rfl⟩
abbrev main_cst_7 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_c : Ref sig .tc := ⟨.hbm, 67, rfl⟩
abbrev main_v41 : Ref sig .tc := ⟨.hbm, 68, rfl⟩
abbrev main_v42 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v36 : BitVec 1 := Scalar.cmpi .eq arg1 c7_i32
  let v37 : BitVec 32 := Scalar.extui v36
  let c0_i32_14 : BitVec 32 := 0#32
  let v38 : BitVec 1 := Scalar.cmpi .ne v37 c0_i32_14
  v38

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  bitsLt_bf16_f32 : FTy.bits .bf16 < FTy.bits .f32
  shapeCasts_S8192_S8192x1 : S8192.ShapeCasts S8192x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  transposes_S1024x128_p1_0_S128x1024 : S1024x128.Transposes [1, 0] S128x1024
  iota_S512x1_d0_w32 : S512x1.Iotas .tc 32 [0]
  iota_S1x1024_d1_w32 : S1x1024.Iotas .tc 32 [1]
  broadcasts_S512x1_S512x1024 : S512x1.Broadcasts S512x1024
  broadcasts_S1x1024_S512x1024 : S1x1024.Broadcasts S512x1024
  reduces_S512x1024_S512 : S512x1024.Reduces [1] S512
  shapeCasts_S512_S512x1 : S512.ShapeCasts S512x1
  shapeCasts_S8192x1_S8192 : S8192x1.ShapeCasts S8192
  bcast_S_S8192 : S_.BroadcastsInDim S8192 (![] : Fin 0 → Fin S8192.rank)
  reducesTo_S8192_S_d0 : S8192.ReducesTo [0] S_
  bcast_S_S1 : S_.BroadcastsInDim S1 (![] : Fin 0 → Fin S1.rank)
  bcast_S1_S8192_0 : S1.BroadcastsInDim S8192 (![0] : Fin 1 → Fin S8192.rank)
  reducesTo_S8192x128_S128_d0 : S8192x128.ReducesTo [0] S128
  reducesTo_S128_S_d0 : S128.ReducesTo [0] S_
  bcast_S1_S128_0 : S1.BroadcastsInDim S128 (![0] : Fin 1 → Fin S128.rank)
  bcast_S_S128 : S_.BroadcastsInDim S128 (![] : Fin 0 → Fin S128.rank)
  dot_S512x128_S128x1024_S512x1024_1_0_0_1_n_n_wf : DotDims.WF S512x128 S128x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S8192x128.size a
  hwx0_0 : ∀ i : grid0.Coords, EltTy.bits .bf16 = 32 ∨ (Rect.block (s := S8192x128) S512x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S8192x128.size a
  hwx0_1 : ∀ i : grid0.Coords, EltTy.bits .bf16 = 32 ∨ (Rect.block (s := S8192x128) S512x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S8192x128.size a
  hwx0_2 : ∀ i : grid0.Coords, EltTy.bits .bf16 = 32 ∨ (Rect.block (s := S8192x128) S1024x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S8192x1.size a
  hwx0_3 : ∀ i : grid0.Coords, EltTy.bits .f32 = 32 ∨ (Rect.block (s := S8192x1) S512x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S8192x1.size a
  hwx0_4 : ∀ i : grid0.Coords, EltTy.bits .f32 = 32 ∨ (Rect.block (s := S8192x1) S512x1.size (cc0_transform_4 i) (hinb0_4 i)).WholeWords (EltTy.packing .f32)

variable [Facts₀]

def dot_S512x128_S128x1024_S512x1024_1_0_0_1_n_n : DotDims S512x128 S128x1024 S512x1024 where
  lhsContracting := [1]
  rhsContracting := [0]
  lhsNonContracting := [0]
  rhsNonContracting := [1]
  lhsBatch := []
  rhsBatch := []
  wf := dot_S512x128_S128x1024_S512x1024_1_0_0_1_n_n_wf

abbrev win0_0 : Pipeline.Window sig grid0 :=
  Pipeline.Window.ofSpec (Memref.whole main_v15) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S512x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v19) S512x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S128 : Shape := ⟨1, ![128]⟩
abbrev S8192x128 : Shape := ⟨2, ![8192, 128]⟩
abbrev S8192 : Shape := ⟨1, ![8192]⟩
abbrev S1x128 : Shape := ⟨2, ![1, 128]⟩
abbrev S_ : Shape := ⟨0, ![]⟩
abbrev S8192x1 : Shape := ⟨2, ![8192, 1]⟩
abbrev S128x8192 : Shape := ⟨2, ![128, 8192]⟩
abbrev S8192x8192 : Shape := ⟨2, ![8192, 8192]⟩
abbrev S1 : Shape := ⟨1, ![1]⟩

abbrev nBuf : Space → Nat
  | .hbm => 87
  | .vmem => 0
  | .smem => 0
  | _ => 0

abbrev bufTy : (tb : Table) → Fin (tcTables nBuf tb) → BufTy
  | .hbm, ⟨0, _⟩ => ⟨S128, .f32⟩
  | .hbm, ⟨1, _⟩ => ⟨S8192x128, .f32⟩
  | .hbm, ⟨2, _⟩ => ⟨S8192, .i1⟩
  | .hbm, ⟨3, _⟩ => ⟨S1x128, .f32⟩
  | .hbm, ⟨4, _⟩ => ⟨S8192x128, .f32⟩
  | .hbm, ⟨5, _⟩ => ⟨S8192x128, .f32⟩
  | .hbm, ⟨6, _⟩ => ⟨S_, .f32⟩
  | .hbm, ⟨7, _⟩ => ⟨S8192x128, .f32⟩
  | .hbm, ⟨8, _⟩ => ⟨S8192x128, .f32⟩
  | .hbm, ⟨9, _⟩ => ⟨S8192x128, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x128, .f32⟩
  | .hbm, ⟨18, _⟩ => ⟨S8192x128, .f32⟩
  | .hbm, ⟨19, _⟩ => ⟨S8192x128, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x128, .f32⟩
  | .hbm, ⟨28, _⟩ => ⟨S8192x128, .f32⟩
  | .hbm, ⟨29, _⟩ => ⟨S128x8192, .f32⟩
  | .hbm, ⟨30, _⟩ => ⟨S8192x8192, .f32⟩
  | .hbm, ⟨31, _⟩ => ⟨S128x8192, .f32⟩
  | .hbm, ⟨32, _⟩ => ⟨S8192x8192, .f32⟩
  | .hbm, ⟨33, _⟩ => ⟨S_, .f32⟩
  | .hbm, ⟨34, _⟩ => ⟨S8192x8192, .f32⟩
  | .hbm, ⟨35, _⟩ => ⟨S8192x8192, .f32⟩
  | .hbm, ⟨36, _⟩ => ⟨S8192x8192, .f32⟩
  | .hbm, ⟨37, _⟩ => ⟨S8192x8192, .i32⟩
  | .hbm, ⟨38, _⟩ => ⟨S8192x8192, .i32⟩
  | .hbm, ⟨39, _⟩ => ⟨S_, .i32⟩
  | .hbm, ⟨40, _⟩ => ⟨S8192x8192, .i32⟩
  | .hbm, ⟨41, _⟩ => ⟨S8192x8192, .i32⟩
  | .hbm, ⟨42, _⟩ => ⟨S8192x8192, .i1⟩
  | .hbm, ⟨43, _⟩ => ⟨S8192x8192, .f32⟩
  | .hbm, ⟨44, _⟩ => ⟨S_, .f32⟩
  | .hbm, ⟨45, _⟩ => ⟨S8192x8192, .f32⟩
  | .hbm, ⟨46, _⟩ => ⟨S8192x8192, .f32⟩
  | .hbm, ⟨47, _⟩ => ⟨S8192x8192, .f32⟩
  | .hbm, ⟨48, _⟩ => ⟨S_, .f32⟩
  | .hbm, ⟨49, _⟩ => ⟨S8192, .f32⟩
  | .hbm, ⟨50, _⟩ => ⟨S8192, .f32⟩
  | .hbm, ⟨51, _⟩ => ⟨S8192, .f32⟩
  | .hbm, ⟨52, _⟩ => ⟨S_, .f32⟩
  | .hbm, ⟨53, _⟩ => ⟨S_, .f32⟩
  | .hbm, ⟨54, _⟩ => ⟨S8192, .f32⟩
  | .hbm, ⟨55, _⟩ => ⟨S8192, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S1, .f32⟩
  | .hbm, ⟨61, _⟩ => ⟨S8192, .f32⟩
  | .hbm, ⟨62, _⟩ => ⟨S8192, .f32⟩
  | .hbm, ⟨63, _⟩ => ⟨S8192, .f32⟩
  | .hbm, ⟨64, _⟩ => ⟨S_, .f32⟩
  | .hbm, ⟨65, _⟩ => ⟨S_, .f32⟩
  | .hbm, ⟨66, _⟩ => ⟨S1, .f32⟩
  | .hbm, ⟨67, _⟩ => ⟨S8192, .f32⟩
  | .hbm, ⟨68, _⟩ => ⟨S8192, .f32⟩
  | .hbm, ⟨69, _⟩ => ⟨S8192x1, .f32⟩
  | .hbm, ⟨70, _⟩ => ⟨S8192x128, .f32⟩
  | .hbm, ⟨71, _⟩ => ⟨S8192x128, .f32⟩
  | .hbm, ⟨72, _⟩ => ⟨S_, .f32⟩
  | .hbm, ⟨73, _⟩ => ⟨S128, .f32⟩
  | .hbm, ⟨74, _⟩ => ⟨S128, .f32⟩
  | .hbm, ⟨75, _⟩ => ⟨S_, .f32⟩
  | .hbm, ⟨76, _⟩ => ⟨S_, .f32⟩
  | .hbm, ⟨77, _⟩ => ⟨S1, .f32⟩
  | .hbm, ⟨78, _⟩ => ⟨S1, .f32⟩
  | .hbm, ⟨79, _⟩ => ⟨S_, .f32⟩
  | .hbm, ⟨80, _⟩ => ⟨S1, .f32⟩
  | .hbm, ⟨81, _⟩ => ⟨S1, .f32⟩
  | .hbm, ⟨82, _⟩ => ⟨S128, .f32⟩
  | .hbm, ⟨83, _⟩ => ⟨S128, .f32⟩
  | .hbm, ⟨84, _⟩ => ⟨S_, .i1⟩
  | .hbm, ⟨85, _⟩ => ⟨S_, .i1⟩
  | .hbm, ⟨86, _⟩ => ⟨S128, .f32⟩
  | _, _ => ⟨S128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_cst : Ref sig .tc := ⟨.hbm, 10, rfl⟩
abbrev main_call0_v1 : Ref sig .tc := ⟨.hbm, 11, rfl⟩
abbrev main_call0_v2 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_call1_v0 : Ref sig .tc := ⟨.hbm, 19, rfl⟩
abbrev main_call1_cst : Ref sig .tc := ⟨.hbm, 20, rfl⟩
abbrev main_call1_v1 : Ref sig .tc := ⟨.hbm, 21, rfl⟩
abbrev main_call1_v2 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_3 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_4 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_5 : Ref sig .tc := ⟨.hbm, 52, rfl⟩
abbrev main_call2_v0 : Ref sig .tc := ⟨.hbm, 53, rfl⟩
abbrev main_call2_v1 : Ref sig .tc := ⟨.hbm, 54, rfl⟩
abbrev main_v34 : Ref sig .tc := ⟨.hbm, 55, rfl⟩
abbrev main_cst_6 : Ref sig .tc := ⟨.hbm, 56, rfl⟩
abbrev main_v35 : Ref sig .tc := ⟨.hbm, 57, rfl⟩
abbrev main_cst_7 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_9 : Ref sig .tc := ⟨.hbm, 72, rfl⟩
abbrev main_v48 : Ref sig .tc := ⟨.hbm, 73, rfl⟩
abbrev main_call3_v0 : Ref sig .tc := ⟨.hbm, 74, rfl⟩
abbrev main_call3_cst : Ref sig .tc := ⟨.hbm, 75, rfl⟩
abbrev main_call3_v1 : Ref sig .tc := ⟨.hbm, 76, rfl⟩
abbrev main_call3_v2 : Ref sig .tc := ⟨.hbm, 77, rfl⟩
abbrev main_v49 : Ref sig .tc := ⟨.hbm, 78, rfl⟩
abbrev main_cst_10 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_c_11 : Ref sig .tc := ⟨.hbm, 84, rfl⟩
abbrev main_v54 : Ref sig .tc := ⟨.hbm, 85, rfl⟩
abbrev main_v55 : Ref sig .tc := ⟨.hbm, 86, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  transposes_S8192x128_S128x8192_1_0 : S8192x128.Transposes [1, 0] S128x8192
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  bcast_S_S1 : S_.BroadcastsInDim S1 (![] : Fin 0 → Fin S1.rank)
  bcast_S1_S8192_0 : S1.BroadcastsInDim S8192 (![0] : Fin 1 → Fin S8192.rank)
  reducesTo_S8192x128_S128_d0 : S8192x128.ReducesTo [0] S128
  reducesTo_S128_S_d0 : S128.ReducesTo [0] S_
  bcast_S1_S128_0 : S1.BroadcastsInDim S128 (![0] : Fin 1 → Fin S128.rank)
  bcast_S_S128 : S_.BroadcastsInDim S128 (![] : Fin 0 → Fin S128.rank)
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.K.Shared.lean ====
/-
  The kernel's region: what every module of its frame proof is stated over.

  The program is host lines, ONE pipelined region over a 16 x 8 grid, host lines. At grid point (i, j) the body
  reads rows [512 i, 512 i + 512) of the two normalised tables, rows [1024 j, 1024 j + 1024) of the second table
  again (a second window on the SAME array), the rows' mask column, and keeps a 512 x 1 running sum in a scratch
  buffer: zeroed where j = 0, added to at every point, multiplied by the mask column and stored to the output
  block where j = 7. So a point is in one of three cases, decided by j alone: j = 0, 0 < j < 7, j = 7.
-/
import proofs.«118702_j65704409694815_1_alg».proof.Proof.Gen.Kernel.Launch
import proofs.«118702_j65704409694815_1_alg».proof.Proof.Gen.Kernel.Skeleton
import proofs.«118702_j65704409694815_1_alg».proof.Proof.Gen.Kernel.Points
import Idealize.ShloMosaic.Lib.Pipeline.FrameBody
import Idealize.ShloMosaic.Lib.Pipeline.FrameSuffix
import Idealize.ShloMosaic.Lib.Tactic

set_option maxRecDepth 16384

noncomputable section

namespace Cert.Kernel.Scores

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

/-- The host lines before the region, stretch by stretch: the two normalisations, the casts and the mask column. -/
abbrev preOps : List (List (HloOp τ sig (Elt F))) := [hostOps0, hostOps0_1, hostOps0_2, hostOps0_3, hostOps0_4]
/-- The host lines after it: the masked softmax over the scores, the weighted row sum, its normalisation, the fallback. -/
abbrev postOps : List (List (HloOp τ sig (Elt F))) := [hostOps1, hostOps1_1, hostOps1_2, hostOps1_3, hostOps1_4, hostOps1_5]

/-- Core `c`'s buffer contents when the region is entered: the launch memory after the lines before it. -/
abbrev V0 (c : Dev nD) : Valuation τ sig (Elt F) := StableHlo.after (List.flatten preOps) (fun b => m (c, b))
/-- The same read at a TensorCore reference. -/
abbrev V (c : Dev nD) (b : Ref sig .tc) : Buf (Elt F) ((c : Thread nD τ).loc b) := V0 m c (Proc.devRef .tc b)

theorem preOps_sub : (preOps : List (List (HloOp τ sig (Elt F)))).Forall fun ops => ops.Forall fun op => op.bufs ⊆ StableHlo.tcRefs τ sig :=
  ⟨hostOps0_sub, hostOps0_1_sub, hostOps0_2_sub, hostOps0_3_sub, hostOps0_4_sub⟩

theorem preOps_fresh : (preOps : List (List (HloOp τ sig (Elt F)))).Forall fun ops => ops.Forall fun op => op.fresh = ∅ := by
  simp only [List.Forall]; repeat' constructor

theorem postOps_sub : (postOps : List (List (HloOp τ sig (Elt F)))).Forall fun ops => ops.Forall fun op => op.bufs ⊆ StableHlo.tcRefs τ sig :=
  ⟨hostOps1_sub, hostOps1_1_sub, hostOps1_2_sub, hostOps1_3_sub, hostOps1_4_sub, hostOps1_5_sub⟩

theorem postOps_fresh : (postOps : List (List (HloOp τ sig (Elt F)))).Forall fun ops => ops.Forall fun op => op.fresh = ∅ := by
  simp only [List.Forall]; repeat' constructor

/-- @main is the lines before the region, the region, the lines after it: holding the region boundary and the
    unscoped buffers at the launch contents it reduces to the region, continued by the later lines, at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (postOps.map StableHlo.seq)) :=
  Pipeline.hmain_around cfgs 0 defs₀ 𝒱₀ m main preOps postOps preOps_sub preOps_fresh main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's two conditions, in closed form over the grid -/

/-- "j = 0": the reset's condition, as the body computes it from the point. -/
abbrev isFirst (i : grid0.Coords) : Prop := (Scalar.cmpi .ne (Scalar.extui (Scalar.cmpi .eq (BitVec.ofNat 32 (i 1).val) 0#32)) 0#32) = 1#1
/-- "j = 7": the final store's condition. -/
abbrev isLast (i : grid0.Coords) : Prop := k0_cond2 i = 1#1

/-- The points run j fastest, so j = 0 is t ≡ 0 (mod 8) -/
theorem isFirst_iff : ∀ t : Fin cfg0.N, isFirst (grid0.coords t) ↔ t.val % 8 = 0 :=
  (by decide +kernel : ∀ t : Fin grid0.N, isFirst (grid0.coords t) ↔ t.val % 8 = 0)
/-- and j = 7 is t ≡ 7 (mod 8). -/
theorem isLast_iff : ∀ t : Fin cfg0.N, isLast (grid0.coords t) ↔ t.val % 8 = 7 :=
  (by decide +kernel : ∀ t : Fin grid0.N, isLast (grid0.coords t) ↔ t.val % 8 = 7)

/-! ## Where a window is idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- Away from j = 7 the body stores nothing into the output block, and the pipeline does not write it back. -/
theorem idle4 : ∀ t : Fin cfg0.N, ¬isLast (grid0.coords t) → cfg0.idle 4 (grid0.coords t) = true := by decide +kernel
theorem noFlush4 : ∀ t : Fin cfg0.N, ¬isLast (grid0.coords t) → (cfg0.win 4).flush t = false := by decide +kernel
/-- At j = 7 it stores the whole block. -/
theorem live4 : ∀ t : Fin cfg0.N, isLast (grid0.coords t) → cfg0.idle 4 (grid0.coords t) = false := by decide +kernel

/-! ## The memrefs the body is called with -/

abbrev ms0 (t : Fin cfg0.N) : Memref sig .tc .vmem S512x128 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x128 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x1 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x1 .f32 := win0_4.stage (cfg0.slots t 4)
abbrev hs4 (t : Fin cfg0.N) : (ms4 t).IsWhole := hstage0_4 ((cfg0.slots t 4).cast nbuf0_4)
/-- The running sum's scratch buffer, -/
abbrev accM : Memref sig .tc .vmem S512x1 .f32 := Memref.whole cc0_scratch0
/-- as a view: what it holds is stated through it; -/
abbrev accV : View sig .tc .vmem S512x1 .f32 := accM.view
/-- and one staging buffer of the output window, through which what the final store leaves is stated. -/
abbrev outV : View sig .tc .vmem S512x1 .f32 := (Memref.whole cc0_stg4_0 : Memref sig .tc .vmem S512x1 .f32).view

/-- What a body of this kind may use and need not describe, with the scratch spelt as a memref owned at some contents. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.Kernel.Scores

end
-- ==== Proof.K.RunFirst.lean ====
/-
  The body where j = 0 (and not 7): the running sum's buffer is zeroed, then this point's partial row sums are
  added into it; nothing is stored into the output block. The pieces the scratch buffer ends with are found by the
  run itself.
-/
import proofs.«118702_j65704409694815_1_alg».proof.Proof.K.Shared

set_option maxRecDepth 16384

noncomputable section

namespace Cert.Kernel.Scores

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with j = 0: on whole staging memrefs — the four input blocks at their contents, the output's buffer at
    contents `xi4` handed back untouched, the scratch at anything — the body runs to a continuation that holds the
    inputs as they were, the output's buffer as it was, and the scratch with the pieces `LS` written. -/
noncomputable def runFirst (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S1024x128 .bf16) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : isFirst i) (hc1 : ¬isLast i)
    (x0 : Vec F S512x128 .bf16) (x1 : Vec F S512x128 .bf16) (x2 : Vec F S1024x128 .bf16) (x3 : Vec F S512x1 .f32) :
    { LS : List (View.Piece (Elt F) S512x1 .f32) //
      ∀ (xi4 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS)) -∗ K ⟨⟩))
          ⊢ wp frame (wpE (defs₀ (F := F)) Variants.none c none) E (cc0__scores_kernel i arg2 harg2 arg3 harg3 arg4 harg4 arg5 harg5 arg6 harg6 arg7 harg7) K } := by
  refine ⟨?_, fun xi4 E K => ?run⟩
  case run =>
    simp only [cc0__scores_kernel_eq_skeleton]; unfold cc0__scores_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.Kernel.Scores

end
-- ==== Proof.K.RunMid.lean ====
/-
  The body where 0 < j < 7: this point's partial row sums are added into the running sums the point before left;
  nothing is stored into the output block.
-/
import proofs.«118702_j65704409694815_1_alg».proof.Proof.K.RunFirst

set_option maxRecDepth 16384

noncomputable section

namespace Cert.Kernel.Scores

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with 0 < j < 7: the inputs at their contents, the output's buffer at `xi4` handed back untouched,
    the scratch at the contents `xs` the point before left; the body runs to a continuation that holds the scratch
    with the pieces `LS` written. -/
noncomputable def runMid (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S1024x128 .bf16) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : ¬isFirst i) (hc1 : ¬isLast i)
    (x0 : Vec F S512x128 .bf16) (x1 : Vec F S512x128 .bf16) (x2 : Vec F S1024x128 .bf16) (x3 : Vec F S512x1 .f32) (xs : Vec F S512x1 .f32) :
    { LS : List (View.Piece (Elt F) S512x1 .f32) //
      ∀ (xi4 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS)) -∗ K ⟨⟩))
          ⊢ wp frame (wpE (defs₀ (F := F)) Variants.none c none) E (cc0__scores_kernel i arg2 harg2 arg3 harg3 arg4 harg4 arg5 harg5 arg6 harg6 arg7 harg7) K } := by
  refine ⟨?_, fun xi4 E K => ?run⟩
  case run =>
    simp only [cc0__scores_kernel_eq_skeleton]; unfold cc0__scores_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.Kernel.Scores

end
-- ==== Proof.K.RunLast.lean ====
/-
  The body where j = 7: the last partial row sums are added into the running sums, and the sums times the mask
  column are stored into the output block.
-/
import proofs.«118702_j65704409694815_1_alg».proof.Proof.K.RunMid

set_option maxRecDepth 16384

noncomputable section

namespace Cert.Kernel.Scores

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with j = 7: the inputs at their contents, the output's buffer at anything, the scratch at the
    contents `xs` the point before left; the body runs to a continuation that holds the output's buffer with the
    pieces `L4` written and the scratch with the pieces `LS` written. -/
noncomputable def runLast (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S1024x128 .bf16) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : ¬isFirst i) (hc1 : isLast i)
    (x0 : Vec F S512x128 .bf16) (x1 : Vec F S512x128 .bf16) (x2 : Vec F S1024x128 .bf16) (x3 : Vec F S512x1 .f32) (xs : Vec F S512x1 .f32) :
    Σ' (L4 : List (View.Piece (Elt F) S512x1 .f32)), { LS : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS)) -∗ K ⟨⟩))
          ⊢ wp frame (wpE (defs₀ (F := F)) Variants.none c none) E (cc0__scores_kernel i arg2 harg2 arg3 harg3 arg4 harg4 arg5 harg5 arg6 harg6 arg7 harg7) K } := by
  refine ⟨?_, ?_, fun E K => ?run⟩
  case run =>
    simp only [cc0__scores_kernel_eq_skeleton]; unfold cc0__scores_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2
    obtain rfl := harg5.eq_unread hf3; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

end Cert.Kernel.Scores

end
-- ==== Proof.K.Pieces.lean ====
/-
  What the pieces the three runs found read back as: the body's own arithmetic.

  In every case the scratch buffer ends holding the step `k0_pay3` of the point's three table blocks, applied to
  zeros where j = 0 (the reset's store lies under the step's, and the step reads the zeros back) and to the contents
  the body was handed otherwise; where j = 7 the output block ends holding that times the mask block (`k0_pay1`).
  Each store is through the whole 512 x 1 rectangle at offset zero, so the last one alone decides what is read.
-/
import proofs.«118702_j65704409694815_1_alg».proof.Proof.K.RunLast
import Idealize.ShloMosaic.Lib.Ring
import Idealize.ShloMosaic.Lib.Pipeline.Value

set_option maxRecDepth 16384

noncomputable section

namespace Cert.Kernel.Scores

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The stores' and loads' offsets are zero, shape by shape. -/
theorem off512x1 : (![0, 0] : Fin S512x1.rank → ℕ) = fun _ => 0 := by funext a; fin_cases a <;> rfl
theorem off512x128 : (![0, 0] : Fin S512x128.rank → ℕ) = fun _ => 0 := by funext a; fin_cases a <;> rfl
theorem off1024x128 : (![0, 0] : Fin S1024x128.rank → ℕ) = fun _ => 0 := by funext a; fin_cases a <;> rfl

section First
variable (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S1024x128 .bf16) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : isFirst i) (hc1 : ¬isLast i) (x0 : Vec F S512x128 .bf16) (x1 : Vec F S512x128 .bf16) (x2 : Vec F S1024x128 .bf16) (x3 : Vec F S512x1 .f32)

/-- Where j = 0 the scratch's pieces tile it. -/
theorem cover_first (y : S512x1.Idx) : ∃ pc ∈ (runFirst (F := F) c i arg2 harg2 arg3 harg3 arg4 harg4 arg5 harg5 arg6 harg6 arg7 harg7 hc0 hc1 x0 x1 x2 x3).1, y ∈ pc.1.set :=
  View.cover_of_tiledL (runFirst (F := F) c i arg2 harg2 arg3 harg3 arg4 harg4 arg5 harg5 arg6 harg6 arg7 harg7 hc0 hc1 x0 x1 x2 x3).1 S512x1.size (by sl_kernel_rfl) y

/-- Where j = 0 the scratch ends at the step applied to zeros. -/
theorem read_first (f : arg7.view.ty.Contents (Elt F)) :
    arg7.view.read (Elt F) (arg7.view.writes (Elt F) f (runFirst (F := F) c i arg2 harg2 arg3 harg3 arg4 harg4 arg5 harg5 arg6 harg6 arg7 harg7 hc0 hc1 x0 x1 x2 x3).1)
      = k0_pay3 i x0 x1 x2 (k0_pay2 (F := F)) := by
  rw [View.read_writes_eq_canon _ _ _ (cover_first c i arg2 harg2 arg3 harg3 arg4 harg4 arg5 harg5 arg6 harg6 arg7 harg7 hc0 hc1 x0 x1 x2 x3)]
  unfold runFirst
  dsimp only
  sl_unfold_words
  refine (View.canon_cons_unit_zero (S := S512x1) off512x1 _ _ _).trans ?_
  simp only [View.readAt_eq_ld, Memref.IsWhole.read_unread, View.readCov_unit_zero (S := S512x1) _ off512x1,
    View.ld_unit_zero (S := S512x128) off512x128, View.ld_unit_zero (S := S1024x128) off1024x128]

end First

section Mid
variable (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S1024x128 .bf16) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : ¬isFirst i) (hc1 : ¬isLast i) (x0 : Vec F S512x128 .bf16) (x1 : Vec F S512x128 .bf16) (x2 : Vec F S1024x128 .bf16) (x3 : Vec F S512x1 .f32) (xs : Vec F S512x1 .f32)

theorem cover_mid (y : S512x1.Idx) : ∃ pc ∈ (runMid (F := F) c i arg2 harg2 arg3 harg3 arg4 harg4 arg5 harg5 arg6 harg6 arg7 harg7 hc0 hc1 x0 x1 x2 x3 xs).1, y ∈ pc.1.set :=
  View.cover_of_tiledL (runMid (F := F) c i arg2 harg2 arg3 harg3 arg4 harg4 arg5 harg5 arg6 harg6 arg7 harg7 hc0 hc1 x0 x1 x2 x3 xs).1 S512x1.size (by sl_kernel_rfl) y

/-- Where 0 < j < 7 the scratch ends at the step applied to what it was handed. -/
theorem read_mid (f : arg7.view.ty.Contents (Elt F)) :
    arg7.view.read (Elt F) (arg7.view.writes (Elt F) f (runMid (F := F) c i arg2 harg2 arg3 harg3 arg4 harg4 arg5 harg5 arg6 harg6 arg7 harg7 hc0 hc1 x0 x1 x2 x3 xs).1)
      = k0_pay3 i x0 x1 x2 xs := by
  rw [View.read_writes_eq_canon _ _ _ (cover_mid c i arg2 harg2 arg3 harg3 arg4 harg4 arg5 harg5 arg6 harg6 arg7 harg7 hc0 hc1 x0 x1 x2 x3 xs)]
  unfold runMid
  dsimp only
  sl_unfold_words
  refine (View.canon_unit_zero (S := S512x1) off512x1 _ _).trans ?_
  simp only [View.readAt_eq_ld, Memref.IsWhole.read_unread, View.readCov_unit_zero (S := S512x1) _ off512x1,
    View.ld_unit_zero (S := S512x1) off512x1, View.ld_unit_zero (S := S512x128) off512x128, View.ld_unit_zero (S := S1024x128) off1024x128]

end Mid

section Last
variable (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S1024x128 .bf16) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : ¬isFirst i) (hc1 : isLast i) (x0 : Vec F S512x128 .bf16) (x1 : Vec F S512x128 .bf16) (x2 : Vec F S1024x128 .bf16) (x3 : Vec F S512x1 .f32) (xs : Vec F S512x1 .f32)

theorem cover_last_acc (y : S512x1.Idx) : ∃ pc ∈ (runLast (F := F) c i arg2 harg2 arg3 harg3 arg4 harg4 arg5 harg5 arg6 harg6 arg7 harg7 hc0 hc1 x0 x1 x2 x3 xs).2.1, y ∈ pc.1.set :=
  View.cover_of_tiledL (runLast (F := F) c i arg2 harg2 arg3 harg3 arg4 harg4 arg5 harg5 arg6 harg6 arg7 harg7 hc0 hc1 x0 x1 x2 x3 xs).2.1 S512x1.size (by sl_kernel_rfl) y

theorem cover_last_out (y : S512x1.Idx) : ∃ pc ∈ (runLast (F := F) c i arg2 harg2 arg3 harg3 arg4 harg4 arg5 harg5 arg6 harg6 arg7 harg7 hc0 hc1 x0 x1 x2 x3 xs).1, y ∈ pc.1.set :=
  View.cover_of_tiledL (runLast (F := F) c i arg2 harg2 arg3 harg3 arg4 harg4 arg5 harg5 arg6 harg6 arg7 harg7 hc0 hc1 x0 x1 x2 x3 xs).1 S512x1.size (by sl_kernel_rfl) y

/-- Where j = 7 the scratch ends at the step applied to what it was handed, -/
theorem read_last_acc (f : arg7.view.ty.Contents (Elt F)) :
    arg7.view.read (Elt F) (arg7.view.writes (Elt F) f (runLast (F := F) c i arg2 harg2 arg3 harg3 arg4 harg4 arg5 harg5 arg6 harg6 arg7 harg7 hc0 hc1 x0 x1 x2 x3 xs).2.1)
      = k0_pay3 i x0 x1 x2 xs := by
  rw [View.read_writes_eq_canon _ _ _ (cover_last_acc c i arg2 harg2 arg3 harg3 arg4 harg4 arg5 harg5 arg6 harg6 arg7 harg7 hc0 hc1 x0 x1 x2 x3 xs)]
  unfold runLast
  dsimp only
  sl_unfold_words
  refine (View.canon_unit_zero (S := S512x1) off512x1 _ _).trans ?_
  simp only [View.readAt_eq_ld, Memref.IsWhole.read_unread, View.readCov_unit_zero (S := S512x1) _ off512x1,
    View.ld_unit_zero (S := S512x1) off512x1, View.ld_unit_zero (S := S512x128) off512x128, View.ld_unit_zero (S := S1024x128) off1024x128]

/-- and the output block at that times the mask block. -/
theorem read_last_out (f : arg6.view.ty.Contents (Elt F)) :
    arg6.view.read (Elt F) (arg6.view.writes (Elt F) f (runLast (F := F) c i arg2 harg2 arg3 harg3 arg4 harg4 arg5 harg5 arg6 harg6 arg7 harg7 hc0 hc1 x0 x1 x2 x3 xs).1)
      = k0_pay1 (k0_pay3 i x0 x1 x2 xs) x3 := by
  rw [View.read_writes_eq_canon _ _ _ (cover_last_out c i arg2 harg2 arg3 harg3 arg4 harg4 arg5 harg5 arg6 harg6 arg7 harg7 hc0 hc1 x0 x1 x2 x3 xs)]
  unfold runLast
  dsimp only
  sl_unfold_words
  refine (View.canon_unit_zero (S := S512x1) off512x1 _ _).trans ?_
  simp only [View.readAt_eq_ld, Memref.IsWhole.read_unread, View.readCov_unit_zero (S := S512x1) _ off512x1,
    View.ld_unit_zero (S := S512x1) off512x1, View.ld_unit_zero (S := S512x128) off512x128, View.ld_unit_zero (S := S1024x128) off1024x128]

end Last

end Cert.Kernel.Scores

end
-- ==== Proof.K.Data.lean ====
/-
  What the region's buffers hold, point by point, in terms of the body's own arithmetic.

  At point t = 8 i + j the body finds four input blocks: rows [512 i, 512 i + 512) of the first normalised table
  (`rowsA`) and of the second (`rowsB`), rows [1024 j, 1024 j + 1024) of the second table again (`colsB`), and the
  mask column's rows [512 i, 512 i + 512) (`maskRows`). The scratch buffer after the point (`accAt`) is the step
  `k0_pay3` — the point's 512 partial row sums added to what it is given — applied to zeros (`k0_pay2`) where j = 0
  and to what the point before left otherwise; the output block (`outAt`) is that times the mask column (`k0_pay1`).
-/
import proofs.«118702_j65704409694815_1_alg».proof.Proof.K.Shared

set_option maxRecDepth 16384

noncomputable section

namespace Cert.Kernel.Scores

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The first normalised table (the question averaged with each document, unit rows) as the region finds it, -/
abbrev tableA (c : Dev nD) : Vec F S8192x128 .bf16 := V m c main_v15
/-- the second (the documents, unit rows), -/
abbrev tableB (c : Dev nD) : Vec F S8192x128 .bf16 := V m c main_v16
/-- and the mask as a column of zeros and ones. -/
abbrev maskCol (c : Dev nD) : Vec F S8192x1 .f32 := V m c main_v18

/-- Rows [512 i, 512 i + 512) of the first normalised table, at point `t = 8 i + j`. -/
abbrev rowsA (c : Dev nD) (t : Fin cfg0.N) : Vec F S512x128 .bf16 := iblk m c 0 t
/-- The same rows of the second normalised table. -/
abbrev rowsB (c : Dev nD) (t : Fin cfg0.N) : Vec F S512x128 .bf16 := iblk m c 1 t
/-- Rows [1024 j, 1024 j + 1024) of the second normalised table. -/
abbrev colsB (c : Dev nD) (t : Fin cfg0.N) : Vec F S1024x128 .bf16 := iblk m c 2 t
/-- Rows [512 i, 512 i + 512) of the mask column. -/
abbrev maskRows (c : Dev nD) (t : Fin cfg0.N) : Vec F S512x1 .f32 := iblk m c 3 t

/-- The running sums after point `n`: started from zeros where j = 0, else continued from the point before. -/
def accAt (c : Dev nD) : (n : ℕ) → n < cfg0.N → Vec F S512x1 .f32
  | 0, hn => k0_pay3 (grid0.coords ⟨0, hn⟩) (rowsA m c ⟨0, hn⟩) (rowsB m c ⟨0, hn⟩) (colsB m c ⟨0, hn⟩) (k0_pay2 (F := F))
  | n + 1, hn =>
    if (n + 1) % 8 = 0 then
      k0_pay3 (grid0.coords ⟨n + 1, hn⟩) (rowsA m c ⟨n + 1, hn⟩) (rowsB m c ⟨n + 1, hn⟩) (colsB m c ⟨n + 1, hn⟩) (k0_pay2 (F := F))
    else
      k0_pay3 (grid0.coords ⟨n + 1, hn⟩) (rowsA m c ⟨n + 1, hn⟩) (rowsB m c ⟨n + 1, hn⟩) (colsB m c ⟨n + 1, hn⟩) (accAt c n (Nat.lt_of_succ_lt hn))

/-- At a point with j = 0 the sums start from zeros. -/
theorem accAt_first (c : Dev nD) (t : Fin cfg0.N) (h0 : t.val % 8 = 0) :
    accAt m c t.val t.isLt = k0_pay3 (grid0.coords t) (rowsA m c t) (rowsB m c t) (colsB m c t) (k0_pay2 (F := F)) := by
  obtain ⟨n, hn⟩ := t
  cases n with
  | zero => rfl
  | succ n => exact if_pos h0

/-- At any other point they continue from the point before. -/
theorem accAt_next (c : Dev nD) (t : Fin cfg0.N) (h0 : ¬t.val % 8 = 0) :
    accAt m c t.val t.isLt = k0_pay3 (grid0.coords t) (rowsA m c t) (rowsB m c t) (colsB m c t)
      (accAt m c (t.val - 1) (Nat.lt_of_le_of_lt (Nat.sub_le _ _) t.isLt)) := by
  obtain ⟨n, hn⟩ := t
  cases n with
  | zero => exact absurd (Nat.zero_mod _) h0
  | succ n => exact if_neg h0

/-- What the final store puts in the output block at point `t` (it is only stored where j = 7): the running sums
    times the mask column. -/
def outAt (c : Dev nD) (t : Fin cfg0.N) : Vec F S512x1 .f32 := k0_pay1 (accAt m c t.val t.isLt) (maskRows m c t)

end Cert.Kernel.Scores

end
-- ==== Proof.K.Launch.lean ====
/-
  The launch of the one region, for any proof data of it: five windows on four arrays.

  The second normalised table is handed to the kernel through TWO windows (its rows [512 i, 512 i + 512) and its
  rows [1024 j, 1024 j + 1024)), so the windows' arrays are not distinct buffers. The launch deals each distinct
  buffer once, whole; the region wants one points-to per window. The shared table's full share is therefore split
  in two halves, one per window, at entry; at exit both halves still hold the entry contents (an input is never
  written back), so they join again and the host lines after the region run over all the unscoped buffers, as the
  lines before it did.
-/
import proofs.«118702_j65704409694815_1_alg».proof.Proof.K.Shared

set_option maxRecDepth 16384

noncomputable section

namespace Cert.Kernel.Scores

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline

variable (m : (ℓ : Loc nD τ sig) → Buf (Elt F) ℓ) (ρ : Dev nD → PrngReg)

/-! ## Four buffers behind five windows -/

/-- The distinct buffers behind the windows' arrays. -/
theorem arrImage : Finset.univ.image (arrRef spec0) = ([main_v15, main_v16, main_v18, main_v19] : List (Ref sig .tc)).toFinset := by decide

/-- Five propositions of which the middle pair is one proposition split in two: joined, they are four. -/
theorem join_pair (A B₁ B₂ B C D : sProp 𝕄) (hB : B ⊣⊢ iprop(B₁ ∗ B₂)) :
    (iprop(A ∗ B₁ ∗ B₂ ∗ C ∗ D) : sProp 𝕄) = iprop(A ∗ B ∗ C ∗ D) := by
  have h₁ : (iprop(A ∗ B₁ ∗ B₂ ∗ C ∗ D) : sProp 𝕄) ⊢ iprop(A ∗ B ∗ C ∗ D) := by
    iintro ⟨HA, H1, H2, HC, HD⟩
    isplitl [HA]; · iexact HA
    isplitl [H1 H2]
    · iapply hB.2
      isplitl [H1]; · iexact H1
      iexact H2
    isplitl [HC]; · iexact HC
    iexact HD
  have h₂ : (iprop(A ∗ B ∗ C ∗ D) : sProp 𝕄) ⊢ iprop(A ∗ B₁ ∗ B₂ ∗ C ∗ D) := by
    iintro ⟨HA, Hm, HC, HD⟩
    ihave Hm' := hB.1 $$ Hm
    icases Hm' with ⟨H1, H2⟩
    isplitl [HA]; · iexact HA
    isplitl [H1]; · iexact H1
    isplitl [H2]; · iexact H2
    isplitl [HC]; · iexact HC
    iexact HD
  exact equiv_iff.mp ⟨h₁, h₂⟩

section Arrays

variable {c : Dev nD} (dat : Dat τ (Elt F) Unit ℕ (UR sig nD τ) ℕ cfg0 c)

/-- How proof data hold the input arrays for this launch: outright, except the second table, half by each of the
    two windows that read it. -/
structure Halves : Prop where
  q0 : dat.q 0 = fullShare
  q1 : dat.q 1 = (fullShare : PosShare TreeShare).left
  q2 : dat.q 2 = (fullShare : PosShare TreeShare).right
  q3 : dat.q 3 = fullShare

variable {dat}

theorem Halves.share0 (h : Halves dat) : dat.share 0 = fullShare := by
  unfold Dat.share; rw [if_neg (by decide)]; exact h.q0
theorem Halves.share1 (h : Halves dat) : dat.share 1 = (fullShare : PosShare TreeShare).left := by
  unfold Dat.share; rw [if_neg (by decide)]; exact h.q1
theorem Halves.share2 (h : Halves dat) : dat.share 2 = (fullShare : PosShare TreeShare).right := by
  unfold Dat.share; rw [if_neg (by decide)]; exact h.q2
theorem Halves.share3 (h : Halves dat) : dat.share 3 = fullShare := by
  unfold Dat.share; rw [if_neg (by decide)]; exact h.q3
theorem share4 : dat.share 4 = fullShare := by
  unfold Dat.share; rw [if_pos (by decide)]

set_option maxHeartbeats 1000000 in
/-- The five windows' points-tos, at contents that agree on the shared table, are the four buffers' whole: the two
    halves of the shared table join (and split) along the share. -/
theorem Halves.arrays_eq (h : Halves dat) (Vx : (b : Ref sig .tc) → Buf (Elt F) ((c : Thread nD τ).loc b))
    (G : (w : Fin cfg0.W) → Buf (Elt F) ((cfg0.win w).arr.view.loc (c : Thread nD τ)))
    (hG : ∀ w, G w = Vx (arrRef spec0 w)) :
    (dat.arrays G : sProp 𝕄) = arrBufs spec0 c Vx := by
  obtain rfl : G = fun w => Vx (arrRef spec0 w) := funext hG
  unfold Dat.arrays arrBufs
  rw [bigSep_W0, Idealize.SL.BI.bigSep_eq_bigSepL_of_eq _ arrImage (by decide)]
  simp only [Idealize.SL.BI.bigSepL_cons_cons, Idealize.SL.BI.bigSepL_singleton]
  rw [(arr_whole0 0).set_eq_univ, (arr_whole0 1).set_eq_univ, (arr_whole0 3).set_eq_univ, (arr_whole0 4).set_eq_univ]
  rw [h.share0, h.share1, h.share2, h.share3, share4]
  exact join_pair _ _ _ _ _ _ (pointsTo_share (PosShare.mem_left_op_right fullShare))

end Arrays

/-! ## The buffers when the region is left -/

/-- Core `c`'s unscoped buffers when the region is left: the output array at `out`, every other buffer as the
    region found it. -/
def exitVal (c : Dev nD) (out : Buf (Elt F) ((c : Thread nD τ).loc main_v19)) : Valuation τ sig (Elt F) := fun b =>
  if h : Proc.devRef .tc main_v19 = b then cast (congrArg (fun b' : DevRef τ sig => b'.ty.Contents (Elt F)) h) out
  else V0 m c b

theorem exitVal_out (c : Dev nD) (out : Buf (Elt F) ((c : Thread nD τ).loc main_v19)) :
    exitVal m c out (Proc.devRef .tc main_v19) = out := by
  unfold exitVal; rw [dif_pos rfl]; rfl

theorem exitVal_ne (c : Dev nD) (out : Buf (Elt F) ((c : Thread nD τ).loc main_v19)) (b : Ref sig .tc) (hb : main_v19 ≠ b) :
    exitVal m c out (Proc.devRef .tc b) = V0 m c (Proc.devRef .tc b) := by
  unfold exitVal; rw [dif_neg]; intro e; exact hb (Proc.devRef_injective _ e)

/-- The buffers after the host lines that follow the region. -/
abbrev endVal (c : Dev nD) (out : Buf (Elt F) ((c : Thread nD τ).loc main_v19)) (b : Ref sig .tc) : Buf (Elt F) ((c : Thread nD τ).loc b) :=
  StableHlo.after postOps.flatten (exitVal m c out) (Proc.devRef .tc b)

/-- The lines after the region stay within the unscoped buffers, -/
theorem postOps_within : ∀ ops ∈ (postOps : List (List (HloOp τ sig (Elt F)))), ∀ op ∈ ops, op.bufs ⊆ ucRefs τ sig := by
  intro ops hops op hop
  exact Pipeline.sub_ucRefs op ((List.forall_iff_forall_mem.mp ((List.forall_iff_forall_mem.mp postOps_sub) ops hops)) op hop)
/-- allocate nothing, -/
theorem postOps_noFresh : ∀ ops ∈ (postOps : List (List (HloOp τ sig (Elt F)))), ∀ op ∈ ops, op.fresh = ∅ := by
  intro ops hops op hop
  exact (List.forall_iff_forall_mem.mp ((List.forall_iff_forall_mem.mp postOps_fresh) ops hops)) op hop
/-- and write none of the windows' arrays: each writes only its own result buffer. -/
theorem postOps_keep : ∀ op ∈ (postOps : List (List (HloOp τ sig (Elt F)))).flatten, ∀ w, Proc.devRef .tc (arrRef spec0 w) ∉ op.writes := by
  intro op hop
  simp only [postOps, hostOps1, hostOps1_1, hostOps1_2, hostOps1_3, hostOps1_4, hostOps1_5, List.flatten_cons, List.flatten_nil, List.append_nil,
    List.cons_append, List.nil_append, List.mem_cons, List.mem_nil_iff, _root_.or_false] at hop
  rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals intro (w : Fin 5); fin_cases w <;> simp only [StableHlo.nullary_writes, StableHlo.unary_writes, StableHlo.binary_writes, StableHlo.ternary_writes, StableHlo.reshape_writes, StableHlo.TRef.nullary, StableHlo.TRef.unary, StableHlo.TRef.binary, StableHlo.TRef.ternary, Finset.mem_singleton] <;> exact StableHlo.devRef_ne_of_ne (by decide)

/-! ## The run -/

/-- The output array when the region is left: what the proof data compute for window 4 after every write-back. -/
abbrev outArr {c : Dev nD} (dat : Dat τ (Elt F) Unit ℕ (UR sig nD τ) ℕ cfg0 c) : Buf (Elt F) ((c : Thread nD τ).loc main_v19) :=
  dat.arrAt (4 : Fin 5) cfg0.N

/-- What the run ends in: every window's array at what the proof data compute for it, every other unscoped buffer at
    what the lines after the region leave, from the region's exit. -/
def EndsAt (dats : (p : Fin 1) → (c : Dev nD) → Dat τ (Elt F) Unit ℕ (UR sig nD τ) ℕ (cfgs p) c) (r : PUnit × MemSt nD τ sig (Elt F)) : Prop :=
  ∀ c : Dev nD, (∀ w, r.2.mem (((cfgs 0).spec w).arr.view.loc (c : Thread nD τ)) = (dats 0 c).arrAt w (cfgs 0).N)
    ∧ ∀ b ∈ restRefs sig spec0, r.2.mem ((c : Thread nD τ).loc b) = endVal m c (outArr (dats 0 c)) b

set_option maxHeartbeats 1000000 in
set_option backward.isDefEq.respectTransparency.types false in
/-- For any proof data of the region that hold the shared table by halves, owe nothing, start from the arrays as
    the region finds them and keep the class's invariant at entry and exit: from any memory with zero counters every
    weakly fair execution of @main terminates, in `EndsAt`. -/
theorem run_of (dats : (p : Fin 1) → (c : Dev nD) → Dat τ (Elt F) Unit ℕ (UR sig nD τ) ℕ (cfgs p) c)
    (hbody : ∀ c, Pipeline.BodyObligationLoose (dats 0 c) (defs₀ (F := F)) Variants.none () Set.univ)
    (hq : ∀ c, Halves (dats 0 c)) (howed : ∀ c t, (dats 0 c).owed t = 0)
    (hA : ∀ c w, (dats 0 c).A w = V m c (arrRef spec0 w))
    (hin : ∀ c, ΦA spec0 c ⊢ (dats 0 c).Φ 0) (hout : ∀ c, (dats 0 c).Φ (Fin.last cfg0.N) ⊢ ΦA spec0 c) :
    θ_run defs (onTc (τ := τ) (main (F := F))) (s₀ m ρ) (EndsAt m dats) := by
  classical
  -- at exit every window's array holds what the exit valuation says: an input its entry contents, the output the last write-back
  have hexit : ∀ c w, (dats 0 c).arrAt w cfg0.N = exitVal m c (outArr (dats 0 c)) (Proc.devRef .tc (arrRef spec0 w)) := by
    intro c
    have h5 : ∀ w : Fin 5, (dats 0 c).arrAt w cfg0.N = exitVal m c (outArr (dats 0 c)) (Proc.devRef .tc (arrRef spec0 w)) := fun w =>
      match w with
      | ⟨0, _⟩ => ((dats 0 c).arrAt_in 0 rfl _).trans ((hA c 0).trans (exitVal_ne m c _ main_v15 (by decide)).symm)
      | ⟨1, _⟩ => ((dats 0 c).arrAt_in 1 rfl _).trans ((hA c 1).trans (exitVal_ne m c _ main_v16 (by decide)).symm)
      | ⟨2, _⟩ => ((dats 0 c).arrAt_in 2 rfl _).trans ((hA c 2).trans (exitVal_ne m c _ main_v16 (by decide)).symm)
      | ⟨3, _⟩ => ((dats 0 c).arrAt_in 3 rfl _).trans ((hA c 3).trans (exitVal_ne m c _ main_v18 (by decide)).symm)
      | ⟨4, _⟩ => (exitVal_out m c _).symm
    exact h5
  -- and the lines after the region leave them there
  have hend : ∀ c w, (dats 0 c).arrAt w cfg0.N = endVal m c (outArr (dats 0 c)) (arrRef spec0 w) := by
    intro c w
    rw [hexit c w]
    exact (StableHlo.after_of_forall_not_mem _ _ fun op hop => postOps_keep op hop w).symm
  exact Pipeline.θ_run_region_pf_tail (fun q => (cfgs q).toPCfg (Val := Elt F)) (fun q => (cfgs q).toPCfg_adm) dats () cellOf_inj 0 winFacts₀0
    (Pipeline.OwnSemFacts.none spec0) (Pipeline.PreFacts.none _) emb₁ defs₀ Variants.none m ρ main
    (fun _ => Pipeline.chain (postOps.map StableHlo.seq)) hbody block_pos0 arr_whole0 stage_whole0 howed
    (G := fun _ => iprop(emp)) (u₀ := initOf (cells (pin (fun q => (cfgs q).toPCfg (Val := Elt F)) fun q => (cfgs q).toPCfg_adm) cellOf_inj) (launchToks (pin (fun q => (cfgs q).toPCfg (Val := Elt F)) fun q => (cfgs q).toPCfg_adm) cellOf_inj))
    (hu₀ := by
      iintro Hu; imodintro
      isplitl [Hu]
      · iapply (show (ownU _ : sProp 𝕄) ⊢ BI.own (emb₁ (initOf (cells (pin (fun q => (cfgs q).toPCfg (Val := Elt F)) fun q => (cfgs q).toPCfg_adm) cellOf_inj) (launchToks (pin (fun q => (cfgs q).toPCfg (Val := Elt F)) fun q => (cfgs q).toPCfg_adm) cellOf_inj))) from .rfl)
        iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => Entails.of_eq ((hq c).arrays_eq (V m c) _ fun w => (rfl : (dats 0 c).arrAt w 0 = (dats 0 c).A w).trans (hA c w)).symm)
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) Pipeline.Prefetch.none spec0 c (V m c))
    (Z' := fun c => unscopedRestP (Ix := Unit) (Name := ℕ) (U := UR sig nD τ) (Lvl := ℕ) Pipeline.Prefetch.none spec0 c (endVal m c (outArr (dats 0 c))))
    (hX := fun c => by
      iintro ⟨HU, -, -, -, Hp, -⟩; imodintro
      isplitl [Hp]; · iexists _; iexact Hp
      iexact HU)
    (hin := fun c => (show _ ⊢ ΦA spec0 c by
      unfold ΦA; iintro ⟨Hp, -, Hr⟩
      isplitl [Hr] <;> iassumption).trans (hin c))
    (hout := fun c => (hout c).trans (by
      rw [Pipeline.ownSems0_none]; unfold ΦA
      iintro ⟨Hr, Hp⟩
      isplitl [Hp]; · iexact Hp
      isplitr; · iempintro
      iexact Hr))
    (htail := fun c Q' => by
      have hjoin : (arrBufs spec0 c (endVal m c (outArr (dats 0 c))) : sProp 𝕄)
          = arrBufs spec0 c (fun b => exitVal m c (outArr (dats 0 c)) (Proc.devRef .tc b)) :=
        ((hq c).arrays_eq (endVal m c (outArr (dats 0 c))) _ (hend c)).symm.trans
          ((hq c).arrays_eq (fun b => exitVal m c (outArr (dats 0 c)) (Proc.devRef .tc b)) _ (hexit c))
      rw [(hq c).arrays_eq (fun b => exitVal m c (outArr (dats 0 c)) (Proc.devRef .tc b)) _ (hexit c),
        Pipeline.unscopedRestP_none, Pipeline.unscopedRestP_none]
      iintro ⟨Hk, Hb, HA, HZ⟩
      -- the four buffers and the rest are all the unscoped buffers, at the exit valuation
      ihave HU := (show iprop(arrBufs spec0 c (fun b => exitVal m c (outArr (dats 0 c)) (Proc.devRef .tc b)) ∗ unscopedRest spec0 c (V m c))
          ⊢ (StableHlo.held (c : Thread nD τ) (ucRefs τ sig) (exitVal m c (outArr (dats 0 c))) : sProp 𝕄) from by
        rw [← Pipeline.unscopedBufs_held, Pipeline.unscopedBufs_split₀ cfgs 0 winFacts₀0.arr_unscoped]
        refine sep_mono .rfl (Entails.of_eq ?_)
        unfold unscopedRest
        exact bigSep_congr fun b hb => by
          beta_reduce
          rw [exitVal_ne m c _ b fun e => (Finset.mem_sdiff.mp hb).2 (Finset.mem_image.mpr ⟨4, Finset.mem_univ _, e⟩)]) $$ [HA HZ]
      · isplitl [HA] <;> iassumption
      rw [← List.append_nil (postOps.map StableHlo.seq)]
      iapply (Pipeline.wp_seqs_then (fun q => (cfgs q).toPCfg (Val := Elt F)) defs₀ Variants.none c (ucRefs τ sig) [] postOps postOps_within postOps_noFresh
        (exitVal m c (outArr (dats 0 c)))) $$ [Hb HU]
      · isplitl [Hb] <;> iassumption
      iintro Hb
      rw [Pipeline.chain_nil, wp_pure]
      imodintro
      iapply Hk
      icases Hb with ⟨-, H⟩
      iapply (show (StableHlo.held (c : Thread nD τ) (ucRefs τ sig) (StableHlo.after postOps.flatten (exitVal m c (outArr (dats 0 c)))) : sProp 𝕄)
          ⊢ iprop(arrBufs spec0 c (fun b => exitVal m c (outArr (dats 0 c)) (Proc.devRef .tc b)) ∗ unscopedRest spec0 c (endVal m c (outArr (dats 0 c)))) from by
        rw [← hjoin, ← Pipeline.unscopedBufs_held, Pipeline.unscopedBufs_split₀ cfgs 0 winFacts₀0.arr_unscoped])
      iexact H)
    (QY := fun c s => ∀ b ∈ Pipeline.restRefsP sig Pipeline.Prefetch.none spec0, s.mem ((c : Thread nD τ).loc b) = endVal m c (outArr (dats 0 c)) b)
    (hY := fun c s' => by
      iintro ⟨-, HU, HSI⟩
      unfold unscopedRestP
      imodintro
      iapply (pointsTo_read_all (Pipeline.restRefsP sig Pipeline.Prefetch.none spec0) (fun b => (c : Thread nD τ).loc b) (endVal m c (outArr (dats 0 c))) s')
      isplitl [HU] <;> iassumption)
    (hQ := fun s h c => ⟨(h c).1, Pipeline.rest_of_restP Pipeline.Prefetch.none spec0 (fun k => k.elim0) c (endVal m c (outArr (dats 0 c))) s
      (fun k => k.elim0) (fun k => k.elim0) (h c).2.2⟩)

end Cert.Kernel.Scores

end
-- ==== Proof.K.Frame.lean ====
/-
  The region's proof data, the body obligation, the run and the frame.

  Before point 0 the region's invariant is the class's (the scratch at anything); before any later point it holds the
  scratch at the running sums the point before left (`accAt`). After the body each input window's buffer holds its
  block, and the output window's holds `outAt` (consulted only where j = 7, the one point of a row block that
  stores it and writes it back). The second table is read through two windows, so it is held half by each.
-/
import proofs.«118702_j65704409694815_1_alg».proof.Proof.K.Pieces
import proofs.«118702_j65704409694815_1_alg».proof.Proof.K.Data
import proofs.«118702_j65704409694815_1_alg».proof.Proof.K.Launch

set_option maxRecDepth 16384

noncomputable section

namespace Cert.Kernel.Scores

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline

variable (m : (ℓ : Loc nD τ sig) → Buf (Elt F) ℓ) (ρ : Dev nD → PrngReg)

/-! ## The invariant between points -/

/-- Before point `n`: at the start the class's invariant; afterwards the scratch at the running sums the point
    before left, and the generator register at some state. -/
def PhiS (c : Dev nD) : (n : ℕ) → n ≤ cfg0.N → sProp 𝕄
  | 0, _ => ΦA spec0 c
  | n + 1, hn => iprop(iprop(owns (c : Thread nD τ) accM fullShare (accAt m c n hn)) ∗ (∃ r, prngReg c r))

theorem PhiS_zero (c : Dev nD) (n : ℕ) (h : n ≤ cfg0.N) (hz : n = 0) : PhiS m c n h = ΦA spec0 c := by
  subst hz; rfl

theorem PhiS_succ (c : Dev nD) (n : ℕ) (hn : n < cfg0.N) :
    PhiS m c (n + 1) hn = iprop(iprop(owns (c : Thread nD τ) accM fullShare (accAt m c n hn)) ∗ (∃ r, prngReg c r)) := rfl

theorem PhiS_pos (c : Dev nD) (n : ℕ) (h : n ≤ cfg0.N) (hz : n ≠ 0) :
    PhiS m c n h = iprop(iprop(owns (c : Thread nD τ) accM fullShare (accAt m c (n - 1) (by omega))) ∗ (∃ r, prngReg c r)) := by
  cases n with
  | zero => exact absurd rfl hz
  | succ n => rfl

/-! ## The proof data -/

/-- The region's proof data on core `c`: the arrays as the region finds them; after the body each input's buffer at
    its block and the output's at `outAt`; the invariant `PhiS`; the shared table held by halves; nothing owed. -/
def dats (_ : Fin 1) (c : Dev nD) : Dat τ (Elt F) Unit ℕ (UR sig nD τ) ℕ cfg0 c where
  A w := V m c (arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := PhiS m c t.val (Nat.le_of_lt_succ t.isLt)
  q w := match w with
    | ⟨0, _⟩ => fullShare
    | ⟨1, _⟩ => (fullShare : PosShare TreeShare).left
    | ⟨2, _⟩ => (fullShare : PosShare TreeShare).right
    | ⟨3, _⟩ => fullShare
    | ⟨4, _⟩ => fullShare
  owed _ := 0

theorem A_eq (c : Dev nD) (w : Fin cfg0.W) : (dats m 0 c).A w = V m c (arrRef spec0 w) := by
  dsimp only [dats]

theorem halves (c : Dev nD) : Halves (dats m 0 c) := ⟨by dsimp only [dats], by dsimp only [dats], by dsimp only [dats], by dsimp only [dats]⟩

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outAt m c t := by dsimp only [dats]

/-- Each input's current staging buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl)
      (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
      (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
      (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl)
      (fun t => by rw [after3]; unfold Dat.blockOf iblk; rw [A_eq]; try rfl) t d).trans
    (by unfold Dat.fetched Dat.blockOf iblk; rw [A_eq]; try rfl)

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point. The inputs' buffers hold their blocks; j decides the case; the invariant hands the body
    the scratch at what the point before left (at anything before the first point, and the j = 0 case wants no more)
    and takes it back at this point's sums; away from j = 7 the output's buffer goes back as it came, at j = 7 it holds
    `outAt`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  by_cases h0 : t.val % 8 = 0
  · have hF : isFirst (grid0.coords t) := (isFirst_iff t).mpr h0
    have hL : ¬isLast (grid0.coords t) := fun h => by have := (isLast_iff t).mp h; omega
    rw [show (dats m 0 c).leavesExact 0 t = owns (c : Thread nD τ) (ms0 t) fullShare ((dats m 0 c).after 0 t) from by
      unfold Dat.leavesExact; rw [live0 t], after0]
    rw [show (dats m 0 c).leavesExact 1 t = owns (c : Thread nD τ) (ms1 t) fullShare ((dats m 0 c).after 1 t) from by
      unfold Dat.leavesExact; rw [live1 t], after1]
    rw [show (dats m 0 c).leavesExact 2 t = owns (c : Thread nD τ) (ms2 t) fullShare ((dats m 0 c).after 2 t) from by
      unfold Dat.leavesExact; rw [live2 t], after2]
    rw [show (dats m 0 c).leavesExact 3 t = owns (c : Thread nD τ) (ms3 t) fullShare ((dats m 0 c).after 3 t) from by
      unfold Dat.leavesExact; rw [live3 t], after3]
    rw [Dat.leavesExact_idle (dats m 0 c) 4 t (idle4 t hL) (noFlush4 t hL)]
    rw [accAt_first m c t h0]
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩, ⟨%d3, H3⟩, ⟨%d4, H4⟩⟩
      iapply ((runFirst c (grid0.coords t) _ _ _ _ _ _ _ _ _ _ _ _ hF hL (rowsA m c t) (rowsB m c t) (colsB m c t) (maskRows m c t)).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hg]
      · isplitl [HS]
        · unfold owns; iexists _; isplitr
          swap; · iexact HS
          ipureintro; exact read_first c _ _ _ _ _ _ _ _ _ _ _ _ _ _ _ _ _ _ _ _
        iexact Hg
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩⟩
      iapply ((runFirst c (grid0.coords t) _ _ _ _ _ _ _ _ _ _ _ _ hF hL (rowsA m c t) (rowsB m c t) (colsB m c t) (maskRows m c t)).2 _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [HS Hg]
      · isplitl [HS]
        · unfold owns; iexists _; isplitr
          swap; · iexact HS
          ipureintro; exact read_first c _ _ _ _ _ _ _ _ _ _ _ _ _ _ _ _ _ _ _ _
        iexact Hg
      isplitl [Ho]; · iexact Ho
      isplitl [H0]; · iexact H0
      isplitl [H1]; · iexact H1
      isplitl [H2]; · iexact H2
      isplitl [H3]; · iexact H3
      iexists _; iexact H4
  · have hF : ¬isFirst (grid0.coords t) := fun h => h0 ((isFirst_iff t).mp h)
    have hz : t.val ≠ 0 := fun e => h0 (by rw [e])
    by_cases h7 : t.val % 8 = 7
    · have hL : isLast (grid0.coords t) := (isLast_iff t).mpr h7
      rw [show (dats m 0 c).leavesExact 0 t = owns (c : Thread nD τ) (ms0 t) fullShare ((dats m 0 c).after 0 t) from by
        unfold Dat.leavesExact; rw [live0 t], after0]
      rw [show (dats m 0 c).leavesExact 1 t = owns (c : Thread nD τ) (ms1 t) fullShare ((dats m 0 c).after 1 t) from by
        unfold Dat.leavesExact; rw [live1 t], after1]
      rw [show (dats m 0 c).leavesExact 2 t = owns (c : Thread nD τ) (ms2 t) fullShare ((dats m 0 c).after 2 t) from by
        unfold Dat.leavesExact; rw [live2 t], after2]
      rw [show (dats m 0 c).leavesExact 3 t = owns (c : Thread nD τ) (ms3 t) fullShare ((dats m 0 c).after 3 t) from by
        unfold Dat.leavesExact; rw [live3 t], after3]
      rw [show (dats m 0 c).leavesExact 4 t = owns (c : Thread nD τ) (ms4 t) fullShare ((dats m 0 c).after 4 t) from by
        unfold Dat.leavesExact; rw [live4 t hL], after4]
      unfold outAt
      rw [accAt_next m c t h0]
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩⟩
      iapply ((runLast c (grid0.coords t) _ _ _ _ _ _ _ _ _ _ _ _ hF hL (rowsA m c t) (rowsB m c t) (colsB m c t) (maskRows m c t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS Hg]
      · isplitl [HS]
        · unfold owns; iexists _; isplitr
          swap; · iexact HS
          ipureintro; exact read_last_acc c _ _ _ _ _ _ _ _ _ _ _ _ _ _ _ _ _ _ _ _ _
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact read_last_out c _ _ _ _ _ _ _ _ _ _ _ _ _ _ _ _ _ _ _ _ _
    · have hL : ¬isLast (grid0.coords t) := fun h => h7 ((isLast_iff t).mp h)
      rw [show (dats m 0 c).leavesExact 0 t = owns (c : Thread nD τ) (ms0 t) fullShare ((dats m 0 c).after 0 t) from by
        unfold Dat.leavesExact; rw [live0 t], after0]
      rw [show (dats m 0 c).leavesExact 1 t = owns (c : Thread nD τ) (ms1 t) fullShare ((dats m 0 c).after 1 t) from by
        unfold Dat.leavesExact; rw [live1 t], after1]
      rw [show (dats m 0 c).leavesExact 2 t = owns (c : Thread nD τ) (ms2 t) fullShare ((dats m 0 c).after 2 t) from by
        unfold Dat.leavesExact; rw [live2 t], after2]
      rw [show (dats m 0 c).leavesExact 3 t = owns (c : Thread nD τ) (ms3 t) fullShare ((dats m 0 c).after 3 t) from by
        unfold Dat.leavesExact; rw [live3 t], after3]
      rw [Dat.leavesExact_idle (dats m 0 c) 4 t (idle4 t hL) (noFlush4 t hL)]
      rw [accAt_next m c t h0]
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩⟩
      iapply ((runMid c (grid0.coords t) _ _ _ _ _ _ _ _ _ _ _ _ hF hL (rowsA m c t) (rowsB m c t) (colsB m c t) (maskRows m c t) _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hg]
      · isplitl [HS]
        · unfold owns; iexists _; isplitr
          swap; · iexact HS
          ipureintro; exact read_mid c _ _ _ _ _ _ _ _ _ _ _ _ _ _ _ _ _ _ _ _ _
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point, -/
theorem hin (c : Dev nD) : ΦA spec0 c ⊢ (dats m 0 c).Φ 0 := by
  rw [show (dats m 0 c).Φ 0 = PhiS m c 0 (Nat.zero_le _) from rfl, PhiS_zero m c 0 _ rfl]
  try exact Idealize.SL.BI.Entails.refl _

/-- and after the last point the invariant gives it back: the scratch's contents are forgotten. -/
theorem hout (c : Dev nD) : (dats m 0 c).Φ (Fin.last cfg0.N) ⊢ ΦA spec0 c := by
  have hne : (Fin.last cfg0.N).val ≠ 0 := by rw [Fin.val_last]; have : cfg0.N = 128 := N_0; omega
  rw [show (dats m 0 c).Φ (Fin.last cfg0.N) = PhiS m c (Fin.last cfg0.N).val (Nat.le_of_lt_succ (Fin.last cfg0.N).isLt) from rfl,
    PhiS_pos m c _ _ hne, PhiA_eq]
  iintro ⟨HS, Hg⟩
  isplitl [HS]
  · iexists _; iexact HS
  iexact Hg

/-! ## The run and the frame -/

/-- At the compiled mesh, from any memory with zero counters: every weakly fair execution of @main terminates, with
    every window's array at what the proof data compute and every other unscoped buffer as the lines after the
    region leave it. -/
theorem run_main : θ_run defs (onTc (τ := τ) (main (F := F))) (s₀ m ρ) (EndsAt m (dats m)) :=
  run_of m ρ (dats m) (fun c => (body_obligation m c).loose) (halves m) (fun _ _ => rfl) (A_eq m) (hin m) (hout m)
-- ==== Proof.K.Ends.lean ====
/-
  Where the run ends at the argument arrays, and the frame.

  The program's three argument arrays are only ever read: no host line before the region writes one, the region's
  windows are on other arrays, and no host line after it writes one.  So whatever the region leaves in its output
  array, the lines after it leave each argument array holding what the lines before it found there, which is what
  the program was launched with.  The frame follows: every weakly fair execution terminates, and the three argument
  arrays end as launched.
-/
import proofs.«118702_j65704409694815_1_alg».proof.Proof.K.Frame

set_option maxRecDepth 16384

noncomputable section

namespace Cert.Kernel.Scores

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline

variable (m : (ℓ : Loc nD τ sig) → Buf (Elt F) ℓ) (ρ : Dev nD → PrngReg)

/-! ## The argument arrays when the region is entered -/

/-- No line before the region writes the first argument array: the region finds it as launched. -/
theorem V0_arg0 (c : Dev nD) : V0 m c (Proc.devRef .tc main_arg0) = m (c, Proc.devRef .tc main_arg0) := by
  show StableHlo.after (List.flatten preOps) (fun b => m (c, b)) (Proc.devRef .tc main_arg0) = _
  simp only [preOps, hostOps0, hostOps0_1, hostOps0_2, hostOps0_3, hostOps0_4, List.flatten_cons, List.flatten_nil,
    List.append_nil, List.cons_append, List.nil_append]
  after_results_simp

/-- Nor the second, -/
theorem V0_arg1 (c : Dev nD) : V0 m c (Proc.devRef .tc main_arg1) = m (c, Proc.devRef .tc main_arg1) := by
  show StableHlo.after (List.flatten preOps) (fun b => m (c, b)) (Proc.devRef .tc main_arg1) = _
  simp only [preOps, hostOps0, hostOps0_1, hostOps0_2, hostOps0_3, hostOps0_4, List.flatten_cons, List.flatten_nil,
    List.append_nil, List.cons_append, List.nil_append]
  after_results_simp

/-- nor the third. -/
theorem V0_arg2 (c : Dev nD) : V0 m c (Proc.devRef .tc main_arg2) = m (c, Proc.devRef .tc main_arg2) := by
  show StableHlo.after (List.flatten preOps) (fun b => m (c, b)) (Proc.devRef .tc main_arg2) = _
  simp only [preOps, hostOps0, hostOps0_1, hostOps0_2, hostOps0_3, hostOps0_4, List.flatten_cons, List.flatten_nil,
    List.append_nil, List.cons_append, List.nil_append]
  after_results_simp

/-! ## The argument arrays at the end -/

/-- No line after the region writes the first argument array either: whatever the output array holds when the
    region is left, the first argument array ends as launched. -/
theorem endVal_arg0 (c : Dev nD) (out : Buf (Elt F) ((c : Thread nD τ).loc main_v19)) :
    endVal m c out main_arg0 = m ((c : Thread nD τ).loc main_arg0) := by
  show StableHlo.after (List.flatten postOps) (exitVal m c out) (Proc.devRef .tc main_arg0) = _
  simp only [postOps, hostOps1, hostOps1_1, hostOps1_2, hostOps1_3, hostOps1_4, hostOps1_5, List.flatten_cons,
    List.flatten_nil, List.append_nil, List.cons_append, List.nil_append]
  after_results_simp
  rw [exitVal_ne m c out main_arg0 (by decide)]
  exact V0_arg0 m c

/-- So does the second, -/
theorem endVal_arg1 (c : Dev nD) (out : Buf (Elt F) ((c : Thread nD τ).loc main_v19)) :
    endVal m c out main_arg1 = m ((c : Thread nD τ).loc main_arg1) := by
  show StableHlo.after (List.flatten postOps) (exitVal m c out) (Proc.devRef .tc main_arg1) = _
  simp only [postOps, hostOps1, hostOps1_1, hostOps1_2, hostOps1_3, hostOps1_4, hostOps1_5, List.flatten_cons,
    List.flatten_nil, List.append_nil, List.cons_append, List.nil_append]
  after_results_simp
  rw [exitVal_ne m c out main_arg1 (by decide)]
  exact V0_arg1 m c

/-- and the third. -/
theorem endVal_arg2 (c : Dev nD) (out : Buf (Elt F) ((c : Thread nD τ).loc main_v19)) :
    endVal m c out main_arg2 = m ((c : Thread nD τ).loc main_arg2) := by
  show StableHlo.after (List.flatten postOps) (exitVal m c out) (Proc.devRef .tc main_arg2) = _
  simp only [postOps, hostOps1, hostOps1_1, hostOps1_2, hostOps1_3, hostOps1_4, hostOps1_5, List.flatten_cons,
    List.flatten_nil, List.append_nil, List.cons_append, List.nil_append]
  after_results_simp
  rw [exitVal_ne m c out main_arg2 (by decide)]
  exact V0_arg2 m c

/-! ## The buffers that bypass the region -/

/-- The argument arrays and the result are unscoped and are no window's array: they bypass the region. -/
theorem arg0_rest : main_arg0 ∈ restRefs sig spec0 := mem_restRefs_of main_arg0 (by decide) (by decide)
theorem arg1_rest : main_arg1 ∈ restRefs sig spec0 := mem_restRefs_of main_arg1 (by decide) (by decide)
theorem arg2_rest : main_arg2 ∈ restRefs sig spec0 := mem_restRefs_of main_arg2 (by decide) (by decide)
theorem res_rest : main_v42 ∈ restRefs sig spec0 := mem_restRefs_of main_v42 (by decide) (by decide)

/-! ## The frame -/

/-- The frame: every weakly fair execution terminates and the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨((h c).2 main_arg0 arg0_rest).trans (endVal_arg0 m c _),
        ((h c).2 main_arg1 arg1_rest).trans (endVal_arg1 m c _),
        ((h c).2 main_arg2 arg2_rest).trans (endVal_arg2 m c _)⟩)
    (run_main m ρ)

end Cert.Kernel.Scores

end
-- ==== Proof.KI.Shared.lean ====
/-
  The idealized kernel's region: what every module of its frame proof is stated over.

  The program is host lines, ONE pipelined region over a 16 x 8 grid, host lines. At grid point (i, j) the body
  reads rows [512 i, 512 i + 512) of the two normalised tables, rows [1024 j, 1024 j + 1024) of the second table
  again (a second window on the SAME array), the rows' mask column, and keeps a 512 x 1 running sum in a scratch
  buffer: zeroed where j = 0, added to at every point, multiplied by the mask column and stored to the output
  block where j = 7. So a point is in one of three cases, decided by j alone: j = 0, 0 < j < 7, j = 7.
-/
import proofs.«118702_j65704409694815_1_alg».proof.Proof.Gen.KernelIdeal.Launch
import proofs.«118702_j65704409694815_1_alg».proof.Proof.Gen.KernelIdeal.Skeleton
import proofs.«118702_j65704409694815_1_alg».proof.Proof.Gen.KernelIdeal.Points
import Idealize.ShloMosaic.Lib.Pipeline.FrameBody
import Idealize.ShloMosaic.Lib.Pipeline.FrameSuffix
import Idealize.ShloMosaic.Lib.Tactic

set_option maxRecDepth 16384

noncomputable section

namespace Cert.KernelIdeal.Scores

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

/-- The host lines before the region, stretch by stretch: the two normalisations, the casts and the mask column. -/
abbrev preOps : List (List (HloOp τ sig (Elt F))) := [hostOps0, hostOps0_1, hostOps0_2, hostOps0_3, hostOps0_4]
/-- The host lines after it: the masked softmax over the scores, the weighted row sum, its normalisation, the fallback. -/
abbrev postOps : List (List (HloOp τ sig (Elt F))) := [hostOps1, hostOps1_1, hostOps1_2, hostOps1_3, hostOps1_4, hostOps1_5]

/-- Core `c`'s buffer contents when the region is entered: the launch memory after the lines before it. -/
abbrev V0 (c : Dev nD) : Valuation τ sig (Elt F) := StableHlo.after (List.flatten preOps) (fun b => m (c, b))
/-- The same read at a TensorCore reference. -/
abbrev V (c : Dev nD) (b : Ref sig .tc) : Buf (Elt F) ((c : Thread nD τ).loc b) := V0 m c (Proc.devRef .tc b)

theorem preOps_sub : (preOps : List (List (HloOp τ sig (Elt F)))).Forall fun ops => ops.Forall fun op => op.bufs ⊆ StableHlo.tcRefs τ sig :=
  ⟨hostOps0_sub, hostOps0_1_sub, hostOps0_2_sub, hostOps0_3_sub, hostOps0_4_sub⟩

theorem preOps_fresh : (preOps : List (List (HloOp τ sig (Elt F)))).Forall fun ops => ops.Forall fun op => op.fresh = ∅ := by
  simp only [List.Forall]; repeat' constructor

theorem postOps_sub : (postOps : List (List (HloOp τ sig (Elt F)))).Forall fun ops => ops.Forall fun op => op.bufs ⊆ StableHlo.tcRefs τ sig :=
  ⟨hostOps1_sub, hostOps1_1_sub, hostOps1_2_sub, hostOps1_3_sub, hostOps1_4_sub, hostOps1_5_sub⟩

theorem postOps_fresh : (postOps : List (List (HloOp τ sig (Elt F)))).Forall fun ops => ops.Forall fun op => op.fresh = ∅ := by
  simp only [List.Forall]; repeat' constructor

/-- @main is the lines before the region, the region, the lines after it: holding the region boundary and the
    unscoped buffers at the launch contents it reduces to the region, continued by the later lines, at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (postOps.map StableHlo.seq)) :=
  Pipeline.hmain_around cfgs 0 defs₀ 𝒱₀ m main preOps postOps preOps_sub preOps_fresh main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's two conditions, in closed form over the grid -/

/-- "j = 0": the reset's condition, as the body computes it from the point. -/
abbrev isFirst (i : grid0.Coords) : Prop := (Scalar.cmpi .ne (Scalar.extui (Scalar.cmpi .eq (BitVec.ofNat 32 (i 1).val) 0#32)) 0#32) = 1#1
/-- "j = 7": the final store's condition. -/
abbrev isLast (i : grid0.Coords) : Prop := k0_cond2 i = 1#1

/-- The points run j fastest, so j = 0 is t ≡ 0 (mod 8) -/
theorem isFirst_iff : ∀ t : Fin cfg0.N, isFirst (grid0.coords t) ↔ t.val % 8 = 0 :=
  (by decide +kernel : ∀ t : Fin grid0.N, isFirst (grid0.coords t) ↔ t.val % 8 = 0)
/-- and j = 7 is t ≡ 7 (mod 8). -/
theorem isLast_iff : ∀ t : Fin cfg0.N, isLast (grid0.coords t) ↔ t.val % 8 = 7 :=
  (by decide +kernel : ∀ t : Fin grid0.N, isLast (grid0.coords t) ↔ t.val % 8 = 7)

/-! ## Where a window is idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- Away from j = 7 the body stores nothing into the output block, and the pipeline does not write it back. -/
theorem idle4 : ∀ t : Fin cfg0.N, ¬isLast (grid0.coords t) → cfg0.idle 4 (grid0.coords t) = true := by decide +kernel
theorem noFlush4 : ∀ t : Fin cfg0.N, ¬isLast (grid0.coords t) → (cfg0.win 4).flush t = false := by decide +kernel
/-- At j = 7 it stores the whole block. -/
theorem live4 : ∀ t : Fin cfg0.N, isLast (grid0.coords t) → cfg0.idle 4 (grid0.coords t) = false := by decide +kernel

/-! ## The memrefs the body is called with -/

abbrev ms0 (t : Fin cfg0.N) : Memref sig .tc .vmem S512x128 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x128 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x1 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x1 .f32 := win0_4.stage (cfg0.slots t 4)
abbrev hs4 (t : Fin cfg0.N) : (ms4 t).IsWhole := hstage0_4 ((cfg0.slots t 4).cast nbuf0_4)
/-- The running sum's scratch buffer, -/
abbrev accM : Memref sig .tc .vmem S512x1 .f32 := Memref.whole cc0_scratch0
/-- as a view: what it holds is stated through it; -/
abbrev accV : View sig .tc .vmem S512x1 .f32 := accM.view
/-- and one staging buffer of the output window, through which what the final store leaves is stated. -/
abbrev outV : View sig .tc .vmem S512x1 .f32 := (Memref.whole cc0_stg4_0 : Memref sig .tc .vmem S512x1 .f32).view

/-- What a body of this kind may use and need not describe, with the scratch spelt as a memref owned at some contents. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.KernelIdeal.Scores

end
-- ==== Proof.KI.RunFirst.lean ====
/-
  The body where j = 0 (and not 7): the running sum's buffer is zeroed, then this point's partial row sums are
  added into it; nothing is stored into the output block. The pieces the scratch buffer ends with are found by the
  run itself.
-/
import proofs.«118702_j65704409694815_1_alg».proof.Proof.KI.Shared

set_option maxRecDepth 16384

noncomputable section

namespace Cert.KernelIdeal.Scores

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with j = 0: on whole staging memrefs — the four input blocks at their contents, the output's buffer at
    contents `xi4` handed back untouched, the scratch at anything — the body runs to a continuation that holds the
    inputs as they were, the output's buffer as it was, and the scratch with the pieces `LS` written. -/
noncomputable def runFirst (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S1024x128 .bf16) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : isFirst i) (hc1 : ¬isLast i)
    (x0 : Vec F S512x128 .bf16) (x1 : Vec F S512x128 .bf16) (x2 : Vec F S1024x128 .bf16) (x3 : Vec F S512x1 .f32) :
    { LS : List (View.Piece (Elt F) S512x1 .f32) //
      ∀ (xi4 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS)) -∗ K ⟨⟩))
          ⊢ wp frame (wpE (defs₀ (F := F)) Variants.none c none) E (cc0__scores_kernel i arg2 harg2 arg3 harg3 arg4 harg4 arg5 harg5 arg6 harg6 arg7 harg7) K } := by
  refine ⟨?_, fun xi4 E K => ?run⟩
  case run =>
    simp only [cc0__scores_kernel_eq_skeleton]; unfold cc0__scores_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.KernelIdeal.Scores

end
-- ==== Proof.KI.RunMid.lean ====
/-
  The body where 0 < j < 7: this point's partial row sums are added into the running sums the point before left;
  nothing is stored into the output block.
-/
import proofs.«118702_j65704409694815_1_alg».proof.Proof.KI.RunFirst

set_option maxRecDepth 16384

noncomputable section

namespace Cert.KernelIdeal.Scores

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with 0 < j < 7: the inputs at their contents, the output's buffer at `xi4` handed back untouched,
    the scratch at the contents `xs` the point before left; the body runs to a continuation that holds the scratch
    with the pieces `LS` written. -/
noncomputable def runMid (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S1024x128 .bf16) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : ¬isFirst i) (hc1 : ¬isLast i)
    (x0 : Vec F S512x128 .bf16) (x1 : Vec F S512x128 .bf16) (x2 : Vec F S1024x128 .bf16) (x3 : Vec F S512x1 .f32) (xs : Vec F S512x1 .f32) :
    { LS : List (View.Piece (Elt F) S512x1 .f32) //
      ∀ (xi4 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS)) -∗ K ⟨⟩))
          ⊢ wp frame (wpE (defs₀ (F := F)) Variants.none c none) E (cc0__scores_kernel i arg2 harg2 arg3 harg3 arg4 harg4 arg5 harg5 arg6 harg6 arg7 harg7) K } := by
  refine ⟨?_, fun xi4 E K => ?run⟩
  case run =>
    simp only [cc0__scores_kernel_eq_skeleton]; unfold cc0__scores_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.KernelIdeal.Scores

end
-- ==== Proof.KI.RunLast.lean ====
/-
  The body where j = 7: the last partial row sums are added into the running sums, and the sums times the mask
  column are stored into the output block.
-/
import proofs.«118702_j65704409694815_1_alg».proof.Proof.KI.RunMid

set_option maxRecDepth 16384

noncomputable section

namespace Cert.KernelIdeal.Scores

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with j = 7: the inputs at their contents, the output's buffer at anything, the scratch at the
    contents `xs` the point before left; the body runs to a continuation that holds the output's buffer with the
    pieces `L4` written and the scratch with the pieces `LS` written. -/
noncomputable def runLast (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S1024x128 .bf16) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : ¬isFirst i) (hc1 : isLast i)
    (x0 : Vec F S512x128 .bf16) (x1 : Vec F S512x128 .bf16) (x2 : Vec F S1024x128 .bf16) (x3 : Vec F S512x1 .f32) (xs : Vec F S512x1 .f32) :
    Σ' (L4 : List (View.Piece (Elt F) S512x1 .f32)), { LS : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS)) -∗ K ⟨⟩))
          ⊢ wp frame (wpE (defs₀ (F := F)) Variants.none c none) E (cc0__scores_kernel i arg2 harg2 arg3 harg3 arg4 harg4 arg5 harg5 arg6 harg6 arg7 harg7) K } := by
  refine ⟨?_, ?_, fun E K => ?run⟩
  case run =>
    simp only [cc0__scores_kernel_eq_skeleton]; unfold cc0__scores_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2
    obtain rfl := harg5.eq_unread hf3; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

end Cert.KernelIdeal.Scores

end
-- ==== Proof.KI.Pieces.lean ====
/-
  What the pieces the three runs found read back as: the body's own arithmetic.

  In every case the scratch buffer ends holding the step `k0_pay3` of the point's three table blocks, applied to
  zeros where j = 0 (the reset's store lies under the step's, and the step reads the zeros back) and to the contents
  the body was handed otherwise; where j = 7 the output block ends holding that times the mask block (`k0_pay1`).
  Each store is through the whole 512 x 1 rectangle at offset zero, so the last one alone decides what is read.
-/
import proofs.«118702_j65704409694815_1_alg».proof.Proof.KI.RunLast
import Idealize.ShloMosaic.Lib.Ring
import Idealize.ShloMosaic.Lib.Pipeline.Value

set_option maxRecDepth 16384

noncomputable section

namespace Cert.KernelIdeal.Scores

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The stores' and loads' offsets are zero, shape by shape. -/
theorem off512x1 : (![0, 0] : Fin S512x1.rank → ℕ) = fun _ => 0 := by funext a; fin_cases a <;> rfl
theorem off512x128 : (![0, 0] : Fin S512x128.rank → ℕ) = fun _ => 0 := by funext a; fin_cases a <;> rfl
theorem off1024x128 : (![0, 0] : Fin S1024x128.rank → ℕ) = fun _ => 0 := by funext a; fin_cases a <;> rfl

section First
variable (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S1024x128 .bf16) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : isFirst i) (hc1 : ¬isLast i) (x0 : Vec F S512x128 .bf16) (x1 : Vec F S512x128 .bf16) (x2 : Vec F S1024x128 .bf16) (x3 : Vec F S512x1 .f32)

/-- Where j = 0 the scratch's pieces tile it. -/
theorem cover_first (y : S512x1.Idx) : ∃ pc ∈ (runFirst (F := F) c i arg2 harg2 arg3 harg3 arg4 harg4 arg5 harg5 arg6 harg6 arg7 harg7 hc0 hc1 x0 x1 x2 x3).1, y ∈ pc.1.set :=
  View.cover_of_tiledL (runFirst (F := F) c i arg2 harg2 arg3 harg3 arg4 harg4 arg5 harg5 arg6 harg6 arg7 harg7 hc0 hc1 x0 x1 x2 x3).1 S512x1.size (by sl_kernel_rfl) y

/-- Where j = 0 the scratch ends at the step applied to zeros. -/
theorem read_first (f : arg7.view.ty.Contents (Elt F)) :
    arg7.view.read (Elt F) (arg7.view.writes (Elt F) f (runFirst (F := F) c i arg2 harg2 arg3 harg3 arg4 harg4 arg5 harg5 arg6 harg6 arg7 harg7 hc0 hc1 x0 x1 x2 x3).1)
      = k0_pay3 i x0 x1 x2 (k0_pay2 (F := F)) := by
  rw [View.read_writes_eq_canon _ _ _ (cover_first c i arg2 harg2 arg3 harg3 arg4 harg4 arg5 harg5 arg6 harg6 arg7 harg7 hc0 hc1 x0 x1 x2 x3)]
  unfold runFirst
  dsimp only
  sl_unfold_words
  refine (View.canon_cons_unit_zero (S := S512x1) off512x1 _ _ _).trans ?_
  simp only [View.readAt_eq_ld, Memref.IsWhole.read_unread, View.readCov_unit_zero (S := S512x1) _ off512x1,
    View.ld_unit_zero (S := S512x128) off512x128, View.ld_unit_zero (S := S1024x128) off1024x128]

end First

section Mid
variable (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S1024x128 .bf16) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : ¬isFirst i) (hc1 : ¬isLast i) (x0 : Vec F S512x128 .bf16) (x1 : Vec F S512x128 .bf16) (x2 : Vec F S1024x128 .bf16) (x3 : Vec F S512x1 .f32) (xs : Vec F S512x1 .f32)

theorem cover_mid (y : S512x1.Idx) : ∃ pc ∈ (runMid (F := F) c i arg2 harg2 arg3 harg3 arg4 harg4 arg5 harg5 arg6 harg6 arg7 harg7 hc0 hc1 x0 x1 x2 x3 xs).1, y ∈ pc.1.set :=
  View.cover_of_tiledL (runMid (F := F) c i arg2 harg2 arg3 harg3 arg4 harg4 arg5 harg5 arg6 harg6 arg7 harg7 hc0 hc1 x0 x1 x2 x3 xs).1 S512x1.size (by sl_kernel_rfl) y

/-- Where 0 < j < 7 the scratch ends at the step applied to what it was handed. -/
theorem read_mid (f : arg7.view.ty.Contents (Elt F)) :
    arg7.view.read (Elt F) (arg7.view.writes (Elt F) f (runMid (F := F) c i arg2 harg2 arg3 harg3 arg4 harg4 arg5 harg5 arg6 harg6 arg7 harg7 hc0 hc1 x0 x1 x2 x3 xs).1)
      = k0_pay3 i x0 x1 x2 xs := by
  rw [View.read_writes_eq_canon _ _ _ (cover_mid c i arg2 harg2 arg3 harg3 arg4 harg4 arg5 harg5 arg6 harg6 arg7 harg7 hc0 hc1 x0 x1 x2 x3 xs)]
  unfold runMid
  dsimp only
  sl_unfold_words
  refine (View.canon_unit_zero (S := S512x1) off512x1 _ _).trans ?_
  simp only [View.readAt_eq_ld, Memref.IsWhole.read_unread, View.readCov_unit_zero (S := S512x1) _ off512x1,
    View.ld_unit_zero (S := S512x1) off512x1, View.ld_unit_zero (S := S512x128) off512x128, View.ld_unit_zero (S := S1024x128) off1024x128]

end Mid

section Last
variable (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S1024x128 .bf16) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : ¬isFirst i) (hc1 : isLast i) (x0 : Vec F S512x128 .bf16) (x1 : Vec F S512x128 .bf16) (x2 : Vec F S1024x128 .bf16) (x3 : Vec F S512x1 .f32) (xs : Vec F S512x1 .f32)

theorem cover_last_acc (y : S512x1.Idx) : ∃ pc ∈ (runLast (F := F) c i arg2 harg2 arg3 harg3 arg4 harg4 arg5 harg5 arg6 harg6 arg7 harg7 hc0 hc1 x0 x1 x2 x3 xs).2.1, y ∈ pc.1.set :=
  View.cover_of_tiledL (runLast (F := F) c i arg2 harg2 arg3 harg3 arg4 harg4 arg5 harg5 arg6 harg6 arg7 harg7 hc0 hc1 x0 x1 x2 x3 xs).2.1 S512x1.size (by sl_kernel_rfl) y

theorem cover_last_out (y : S512x1.Idx) : ∃ pc ∈ (runLast (F := F) c i arg2 harg2 arg3 harg3 arg4 harg4 arg5 harg5 arg6 harg6 arg7 harg7 hc0 hc1 x0 x1 x2 x3 xs).1, y ∈ pc.1.set :=
  View.cover_of_tiledL (runLast (F := F) c i arg2 harg2 arg3 harg3 arg4 harg4 arg5 harg5 arg6 harg6 arg7 harg7 hc0 hc1 x0 x1 x2 x3 xs).1 S512x1.size (by sl_kernel_rfl) y

/-- Where j = 7 the scratch ends at the step applied to what it was handed, -/
theorem read_last_acc (f : arg7.view.ty.Contents (Elt F)) :
    arg7.view.read (Elt F) (arg7.view.writes (Elt F) f (runLast (F := F) c i arg2 harg2 arg3 harg3 arg4 harg4 arg5 harg5 arg6 harg6 arg7 harg7 hc0 hc1 x0 x1 x2 x3 xs).2.1)
      = k0_pay3 i x0 x1 x2 xs := by
  rw [View.read_writes_eq_canon _ _ _ (cover_last_acc c i arg2 harg2 arg3 harg3 arg4 harg4 arg5 harg5 arg6 harg6 arg7 harg7 hc0 hc1 x0 x1 x2 x3 xs)]
  unfold runLast
  dsimp only
  sl_unfold_words
  refine (View.canon_unit_zero (S := S512x1) off512x1 _ _).trans ?_
  simp only [View.readAt_eq_ld, Memref.IsWhole.read_unread, View.readCov_unit_zero (S := S512x1) _ off512x1,
    View.ld_unit_zero (S := S512x1) off512x1, View.ld_unit_zero (S := S512x128) off512x128, View.ld_unit_zero (S := S1024x128) off1024x128]

/-- and the output block at that times the mask block. -/
theorem read_last_out (f : arg6.view.ty.Contents (Elt F)) :
    arg6.view.read (Elt F) (arg6.view.writes (Elt F) f (runLast (F := F) c i arg2 harg2 arg3 harg3 arg4 harg4 arg5 harg5 arg6 harg6 arg7 harg7 hc0 hc1 x0 x1 x2 x3 xs).1)
      = k0_pay1 (k0_pay3 i x0 x1 x2 xs) x3 := by
  rw [View.read_writes_eq_canon _ _ _ (cover_last_out c i arg2 harg2 arg3 harg3 arg4 harg4 arg5 harg5 arg6 harg6 arg7 harg7 hc0 hc1 x0 x1 x2 x3 xs)]
  unfold runLast
  dsimp only
  sl_unfold_words
  refine (View.canon_unit_zero (S := S512x1) off512x1 _ _).trans ?_
  simp only [View.readAt_eq_ld, Memref.IsWhole.read_unread, View.readCov_unit_zero (S := S512x1) _ off512x1,
    View.ld_unit_zero (S := S512x1) off512x1, View.ld_unit_zero (S := S512x128) off512x128, View.ld_unit_zero (S := S1024x128) off1024x128]

end Last

end Cert.KernelIdeal.Scores

end
-- ==== Proof.KI.Data.lean ====
/-
  What the region's buffers hold, point by point, in terms of the body's own arithmetic.

  At point t = 8 i + j the body finds four input blocks: rows [512 i, 512 i + 512) of the first normalised table
  (`rowsA`) and of the second (`rowsB`), rows [1024 j, 1024 j + 1024) of the second table again (`colsB`), and the
  mask column's rows [512 i, 512 i + 512) (`maskRows`). The scratch buffer after the point (`accAt`) is the step
  `k0_pay3` — the point's 512 partial row sums added to what it is given — applied to zeros (`k0_pay2`) where j = 0
  and to what the point before left otherwise; the output block (`outAt`) is that times the mask column (`k0_pay1`).
-/
import proofs.«118702_j65704409694815_1_alg».proof.Proof.KI.Shared

set_option maxRecDepth 16384

noncomputable section

namespace Cert.KernelIdeal.Scores

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The first normalised table (the question averaged with each document, unit rows) as the region finds it, -/
abbrev tableA (c : Dev nD) : Vec F S8192x128 .bf16 := V m c main_v15
/-- the second (the documents, unit rows), -/
abbrev tableB (c : Dev nD) : Vec F S8192x128 .bf16 := V m c main_v16
/-- and the mask as a column of zeros and ones. -/
abbrev maskCol (c : Dev nD) : Vec F S8192x1 .f32 := V m c main_v18

/-- Rows [512 i, 512 i + 512) of the first normalised table, at point `t = 8 i + j`. -/
abbrev rowsA (c : Dev nD) (t : Fin cfg0.N) : Vec F S512x128 .bf16 := iblk m c 0 t
/-- The same rows of the second normalised table. -/
abbrev rowsB (c : Dev nD) (t : Fin cfg0.N) : Vec F S512x128 .bf16 := iblk m c 1 t
/-- Rows [1024 j, 1024 j + 1024) of the second normalised table. -/
abbrev colsB (c : Dev nD) (t : Fin cfg0.N) : Vec F S1024x128 .bf16 := iblk m c 2 t
/-- Rows [512 i, 512 i + 512) of the mask column. -/
abbrev maskRows (c : Dev nD) (t : Fin cfg0.N) : Vec F S512x1 .f32 := iblk m c 3 t

/-- The running sums after point `n`: started from zeros where j = 0, else continued from the point before. -/
def accAt (c : Dev nD) : (n : ℕ) → n < cfg0.N → Vec F S512x1 .f32
  | 0, hn => k0_pay3 (grid0.coords ⟨0, hn⟩) (rowsA m c ⟨0, hn⟩) (rowsB m c ⟨0, hn⟩) (colsB m c ⟨0, hn⟩) (k0_pay2 (F := F))
  | n + 1, hn =>
    if (n + 1) % 8 = 0 then
      k0_pay3 (grid0.coords ⟨n + 1, hn⟩) (rowsA m c ⟨n + 1, hn⟩) (rowsB m c ⟨n + 1, hn⟩) (colsB m c ⟨n + 1, hn⟩) (k0_pay2 (F := F))
    else
      k0_pay3 (grid0.coords ⟨n + 1, hn⟩) (rowsA m c ⟨n + 1, hn⟩) (rowsB m c ⟨n + 1, hn⟩) (colsB m c ⟨n + 1, hn⟩) (accAt c n (Nat.lt_of_succ_lt hn))

/-- At a point with j = 0 the sums start from zeros. -/
theorem accAt_first (c : Dev nD) (t : Fin cfg0.N) (h0 : t.val % 8 = 0) :
    accAt m c t.val t.isLt = k0_pay3 (grid0.coords t) (rowsA m c t) (rowsB m c t) (colsB m c t) (k0_pay2 (F := F)) := by
  obtain ⟨n, hn⟩ := t
  cases n with
  | zero => rfl
  | succ n => exact if_pos h0

/-- At any other point they continue from the point before. -/
theorem accAt_next (c : Dev nD) (t : Fin cfg0.N) (h0 : ¬t.val % 8 = 0) :
    accAt m c t.val t.isLt = k0_pay3 (grid0.coords t) (rowsA m c t) (rowsB m c t) (colsB m c t)
      (accAt m c (t.val - 1) (Nat.lt_of_le_of_lt (Nat.sub_le _ _) t.isLt)) := by
  obtain ⟨n, hn⟩ := t
  cases n with
  | zero => exact absurd (Nat.zero_mod _) h0
  | succ n => exact if_neg h0

/-- What the final store puts in the output block at point `t` (it is only stored where j = 7): the running sums
    times the mask column. -/
def outAt (c : Dev nD) (t : Fin cfg0.N) : Vec F S512x1 .f32 := k0_pay1 (accAt m c t.val t.isLt) (maskRows m c t)

end Cert.KernelIdeal.Scores

end
-- ==== Proof.KI.Launch.lean ====
/-
  The launch of the one region, for any proof data of it: five windows on four arrays.

  The second normalised table is handed to the kernel through TWO windows (its rows [512 i, 512 i + 512) and its
  rows [1024 j, 1024 j + 1024)), so the windows' arrays are not distinct buffers. The launch deals each distinct
  buffer once, whole; the region wants one points-to per window. The shared table's full share is therefore split
  in two halves, one per window, at entry; at exit both halves still hold the entry contents (an input is never
  written back), so they join again and the host lines after the region run over all the unscoped buffers, as the
  lines before it did.
-/
import proofs.«118702_j65704409694815_1_alg».proof.Proof.KI.Shared

set_option maxRecDepth 16384

noncomputable section

namespace Cert.KernelIdeal.Scores

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline

variable (m : (ℓ : Loc nD τ sig) → Buf (Elt F) ℓ) (ρ : Dev nD → PrngReg)

/-! ## Four buffers behind five windows -/

/-- The distinct buffers behind the windows' arrays. -/
theorem arrImage : Finset.univ.image (arrRef spec0) = ([main_v15, main_v16, main_v18, main_v19] : List (Ref sig .tc)).toFinset := by decide

/-- Five propositions of which the middle pair is one proposition split in two: joined, they are four. -/
theorem join_pair (A B₁ B₂ B C D : sProp 𝕄) (hB : B ⊣⊢ iprop(B₁ ∗ B₂)) :
    (iprop(A ∗ B₁ ∗ B₂ ∗ C ∗ D) : sProp 𝕄) = iprop(A ∗ B ∗ C ∗ D) := by
  have h₁ : (iprop(A ∗ B₁ ∗ B₂ ∗ C ∗ D) : sProp 𝕄) ⊢ iprop(A ∗ B ∗ C ∗ D) := by
    iintro ⟨HA, H1, H2, HC, HD⟩
    isplitl [HA]; · iexact HA
    isplitl [H1 H2]
    · iapply hB.2
      isplitl [H1]; · iexact H1
      iexact H2
    isplitl [HC]; · iexact HC
    iexact HD
  have h₂ : (iprop(A ∗ B ∗ C ∗ D) : sProp 𝕄) ⊢ iprop(A ∗ B₁ ∗ B₂ ∗ C ∗ D) := by
    iintro ⟨HA, Hm, HC, HD⟩
    ihave Hm' := hB.1 $$ Hm
    icases Hm' with ⟨H1, H2⟩
    isplitl [HA]; · iexact HA
    isplitl [H1]; · iexact H1
    isplitl [H2]; · iexact H2
    isplitl [HC]; · iexact HC
    iexact HD
  exact equiv_iff.mp ⟨h₁, h₂⟩

section Arrays

variable {c : Dev nD} (dat : Dat τ (Elt F) Unit ℕ (UR sig nD τ) ℕ cfg0 c)

/-- How proof data hold the input arrays for this launch: outright, except the second table, half by each of the
    two windows that read it. -/
structure Halves : Prop where
  q0 : dat.q 0 = fullShare
  q1 : dat.q 1 = (fullShare : PosShare TreeShare).left
  q2 : dat.q 2 = (fullShare : PosShare TreeShare).right
  q3 : dat.q 3 = fullShare

variable {dat}

theorem Halves.share0 (h : Halves dat) : dat.share 0 = fullShare := by
  unfold Dat.share; rw [if_neg (by decide)]; exact h.q0
theorem Halves.share1 (h : Halves dat) : dat.share 1 = (fullShare : PosShare TreeShare).left := by
  unfold Dat.share; rw [if_neg (by decide)]; exact h.q1
theorem Halves.share2 (h : Halves dat) : dat.share 2 = (fullShare : PosShare TreeShare).right := by
  unfold Dat.share; rw [if_neg (by decide)]; exact h.q2
theorem Halves.share3 (h : Halves dat) : dat.share 3 = fullShare := by
  unfold Dat.share; rw [if_neg (by decide)]; exact h.q3
theorem share4 : dat.share 4 = fullShare := by
  unfold Dat.share; rw [if_pos (by decide)]

set_option maxHeartbeats 1000000 in
/-- The five windows' points-tos, at contents that agree on the shared table, are the four buffers' whole: the two
    halves of the shared table join (and split) along the share. -/
theorem Halves.arrays_eq (h : Halves dat) (Vx : (b : Ref sig .tc) → Buf (Elt F) ((c : Thread nD τ).loc b))
    (G : (w : Fin cfg0.W) → Buf (Elt F) ((cfg0.win w).arr.view.loc (c : Thread nD τ)))
    (hG : ∀ w, G w = Vx (arrRef spec0 w)) :
    (dat.arrays G : sProp 𝕄) = arrBufs spec0 c Vx := by
  obtain rfl : G = fun w => Vx (arrRef spec0 w) := funext hG
  unfold Dat.arrays arrBufs
  rw [bigSep_W0, Idealize.SL.BI.bigSep_eq_bigSepL_of_eq _ arrImage (by decide)]
  simp only [Idealize.SL.BI.bigSepL_cons_cons, Idealize.SL.BI.bigSepL_singleton]
  rw [(arr_whole0 0).set_eq_univ, (arr_whole0 1).set_eq_univ, (arr_whole0 3).set_eq_univ, (arr_whole0 4).set_eq_univ]
  rw [h.share0, h.share1, h.share2, h.share3, share4]
  exact join_pair _ _ _ _ _ _ (pointsTo_share (PosShare.mem_left_op_right fullShare))

end Arrays

/-! ## The buffers when the region is left -/

/-- Core `c`'s unscoped buffers when the region is left: the output array at `out`, every other buffer as the
    region found it. -/
def exitVal (c : Dev nD) (out : Buf (Elt F) ((c : Thread nD τ).loc main_v19)) : Valuation τ sig (Elt F) := fun b =>
  if h : Proc.devRef .tc main_v19 = b then cast (congrArg (fun b' : DevRef τ sig => b'.ty.Contents (Elt F)) h) out
  else V0 m c b

theorem exitVal_out (c : Dev nD) (out : Buf (Elt F) ((c : Thread nD τ).loc main_v19)) :
    exitVal m c out (Proc.devRef .tc main_v19) = out := by
  unfold exitVal; rw [dif_pos rfl]; rfl

theorem exitVal_ne (c : Dev nD) (out : Buf (Elt F) ((c : Thread nD τ).loc main_v19)) (b : Ref sig .tc) (hb : main_v19 ≠ b) :
    exitVal m c out (Proc.devRef .tc b) = V0 m c (Proc.devRef .tc b) := by
  unfold exitVal; rw [dif_neg]; intro e; exact hb (Proc.devRef_injective _ e)

/-- The buffers after the host lines that follow the region. -/
abbrev endVal (c : Dev nD) (out : Buf (Elt F) ((c : Thread nD τ).loc main_v19)) (b : Ref sig .tc) : Buf (Elt F) ((c : Thread nD τ).loc b) :=
  StableHlo.after postOps.flatten (exitVal m c out) (Proc.devRef .tc b)

/-- The lines after the region stay within the unscoped buffers, -/
theorem postOps_within : ∀ ops ∈ (postOps : List (List (HloOp τ sig (Elt F)))), ∀ op ∈ ops, op.bufs ⊆ ucRefs τ sig := by
  intro ops hops op hop
  exact Pipeline.sub_ucRefs op ((List.forall_iff_forall_mem.mp ((List.forall_iff_forall_mem.mp postOps_sub) ops hops)) op hop)
/-- allocate nothing, -/
theorem postOps_noFresh : ∀ ops ∈ (postOps : List (List (HloOp τ sig (Elt F)))), ∀ op ∈ ops, op.fresh = ∅ := by
  intro ops hops op hop
  exact (List.forall_iff_forall_mem.mp ((List.forall_iff_forall_mem.mp postOps_fresh) ops hops)) op hop
/-- and write none of the windows' arrays: each writes only its own result buffer. -/
theorem postOps_keep : ∀ op ∈ (postOps : List (List (HloOp τ sig (Elt F)))).flatten, ∀ w, Proc.devRef .tc (arrRef spec0 w) ∉ op.writes := by
  intro op hop
  simp only [postOps, hostOps1, hostOps1_1, hostOps1_2, hostOps1_3, hostOps1_4, hostOps1_5, List.flatten_cons, List.flatten_nil, List.append_nil,
    List.cons_append, List.nil_append, List.mem_cons, List.mem_nil_iff, _root_.or_false] at hop
  rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals intro (w : Fin 5); fin_cases w <;> simp only [StableHlo.nullary_writes, StableHlo.unary_writes, StableHlo.binary_writes, StableHlo.ternary_writes, StableHlo.reshape_writes, StableHlo.TRef.nullary, StableHlo.TRef.unary, StableHlo.TRef.binary, StableHlo.TRef.ternary, Finset.mem_singleton] <;> exact StableHlo.devRef_ne_of_ne (by decide)

/-! ## The run -/

/-- The output array when the region is left: what the proof data compute for window 4 after every write-back. -/
abbrev outArr {c : Dev nD} (dat : Dat τ (Elt F) Unit ℕ (UR sig nD τ) ℕ cfg0 c) : Buf (Elt F) ((c : Thread nD τ).loc main_v19) :=
  dat.arrAt (4 : Fin 5) cfg0.N

/-- What the run ends in: every window's array at what the proof data compute for it, every other unscoped buffer at
    what the lines after the region leave, from the region's exit. -/
def EndsAt (dats : (p : Fin 1) → (c : Dev nD) → Dat τ (Elt F) Unit ℕ (UR sig nD τ) ℕ (cfgs p) c) (r : PUnit × MemSt nD τ sig (Elt F)) : Prop :=
  ∀ c : Dev nD, (∀ w, r.2.mem (((cfgs 0).spec w).arr.view.loc (c : Thread nD τ)) = (dats 0 c).arrAt w (cfgs 0).N)
    ∧ ∀ b ∈ restRefs sig spec0, r.2.mem ((c : Thread nD τ).loc b) = endVal m c (outArr (dats 0 c)) b

set_option maxHeartbeats 1000000 in
set_option backward.isDefEq.respectTransparency.types false in
/-- For any proof data of the region that hold the shared table by halves, owe nothing, start from the arrays as
    the region finds them and keep the class's invariant at entry and exit: from any memory with zero counters every
    weakly fair execution of @main terminates, in `EndsAt`. -/
theorem run_of (dats : (p : Fin 1) → (c : Dev nD) → Dat τ (Elt F) Unit ℕ (UR sig nD τ) ℕ (cfgs p) c)
    (hbody : ∀ c, Pipeline.BodyObligationLoose (dats 0 c) (defs₀ (F := F)) Variants.none () Set.univ)
    (hq : ∀ c, Halves (dats 0 c)) (howed : ∀ c t, (dats 0 c).owed t = 0)
    (hA : ∀ c w, (dats 0 c).A w = V m c (arrRef spec0 w))
    (hin : ∀ c, ΦA spec0 c ⊢ (dats 0 c).Φ 0) (hout : ∀ c, (dats 0 c).Φ (Fin.last cfg0.N) ⊢ ΦA spec0 c) :
    θ_run defs (onTc (τ := τ) (main (F := F))) (s₀ m ρ) (EndsAt m dats) := by
  classical
  -- at exit every window's array holds what the exit valuation says: an input its entry contents, the output the last write-back
  have hexit : ∀ c w, (dats 0 c).arrAt w cfg0.N = exitVal m c (outArr (dats 0 c)) (Proc.devRef .tc (arrRef spec0 w)) := by
    intro c
    have h5 : ∀ w : Fin 5, (dats 0 c).arrAt w cfg0.N = exitVal m c (outArr (dats 0 c)) (Proc.devRef .tc (arrRef spec0 w)) := fun w =>
      match w with
      | ⟨0, _⟩ => ((dats 0 c).arrAt_in 0 rfl _).trans ((hA c 0).trans (exitVal_ne m c _ main_v15 (by decide)).symm)
      | ⟨1, _⟩ => ((dats 0 c).arrAt_in 1 rfl _).trans ((hA c 1).trans (exitVal_ne m c _ main_v16 (by decide)).symm)
      | ⟨2, _⟩ => ((dats 0 c).arrAt_in 2 rfl _).trans ((hA c 2).trans (exitVal_ne m c _ main_v16 (by decide)).symm)
      | ⟨3, _⟩ => ((dats 0 c).arrAt_in 3 rfl _).trans ((hA c 3).trans (exitVal_ne m c _ main_v18 (by decide)).symm)
      | ⟨4, _⟩ => (exitVal_out m c _).symm
    exact h5
  -- and the lines after the region leave them there
  have hend : ∀ c w, (dats 0 c).arrAt w cfg0.N = endVal m c (outArr (dats 0 c)) (arrRef spec0 w) := by
    intro c w
    rw [hexit c w]
    exact (StableHlo.after_of_forall_not_mem _ _ fun op hop => postOps_keep op hop w).symm
  exact Pipeline.θ_run_region_pf_tail (fun q => (cfgs q).toPCfg (Val := Elt F)) (fun q => (cfgs q).toPCfg_adm) dats () cellOf_inj 0 winFacts₀0
    (Pipeline.OwnSemFacts.none spec0) (Pipeline.PreFacts.none _) emb₁ defs₀ Variants.none m ρ main
    (fun _ => Pipeline.chain (postOps.map StableHlo.seq)) hbody block_pos0 arr_whole0 stage_whole0 howed
    (G := fun _ => iprop(emp)) (u₀ := initOf (cells (pin (fun q => (cfgs q).toPCfg (Val := Elt F)) fun q => (cfgs q).toPCfg_adm) cellOf_inj) (launchToks (pin (fun q => (cfgs q).toPCfg (Val := Elt F)) fun q => (cfgs q).toPCfg_adm) cellOf_inj))
    (hu₀ := by
      iintro Hu; imodintro
      isplitl [Hu]
      · iapply (show (ownU _ : sProp 𝕄) ⊢ BI.own (emb₁ (initOf (cells (pin (fun q => (cfgs q).toPCfg (Val := Elt F)) fun q => (cfgs q).toPCfg_adm) cellOf_inj) (launchToks (pin (fun q => (cfgs q).toPCfg (Val := Elt F)) fun q => (cfgs q).toPCfg_adm) cellOf_inj))) from .rfl)
        iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => Entails.of_eq ((hq c).arrays_eq (V m c) _ fun w => (rfl : (dats 0 c).arrAt w 0 = (dats 0 c).A w).trans (hA c w)).symm)
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) Pipeline.Prefetch.none spec0 c (V m c))
    (Z' := fun c => unscopedRestP (Ix := Unit) (Name := ℕ) (U := UR sig nD τ) (Lvl := ℕ) Pipeline.Prefetch.none spec0 c (endVal m c (outArr (dats 0 c))))
    (hX := fun c => by
      iintro ⟨HU, -, -, -, Hp, -⟩; imodintro
      isplitl [Hp]; · iexists _; iexact Hp
      iexact HU)
    (hin := fun c => (show _ ⊢ ΦA spec0 c by
      unfold ΦA; iintro ⟨Hp, -, Hr⟩
      isplitl [Hr] <;> iassumption).trans (hin c))
    (hout := fun c => (hout c).trans (by
      rw [Pipeline.ownSems0_none]; unfold ΦA
      iintro ⟨Hr, Hp⟩
      isplitl [Hp]; · iexact Hp
      isplitr; · iempintro
      iexact Hr))
    (htail := fun c Q' => by
      have hjoin : (arrBufs spec0 c (endVal m c (outArr (dats 0 c))) : sProp 𝕄)
          = arrBufs spec0 c (fun b => exitVal m c (outArr (dats 0 c)) (Proc.devRef .tc b)) :=
        ((hq c).arrays_eq (endVal m c (outArr (dats 0 c))) _ (hend c)).symm.trans
          ((hq c).arrays_eq (fun b => exitVal m c (outArr (dats 0 c)) (Proc.devRef .tc b)) _ (hexit c))
      rw [(hq c).arrays_eq (fun b => exitVal m c (outArr (dats 0 c)) (Proc.devRef .tc b)) _ (hexit c),
        Pipeline.unscopedRestP_none, Pipeline.unscopedRestP_none]
      iintro ⟨Hk, Hb, HA, HZ⟩
      -- the four buffers and the rest are all the unscoped buffers, at the exit valuation
      ihave HU := (show iprop(arrBufs spec0 c (fun b => exitVal m c (outArr (dats 0 c)) (Proc.devRef .tc b)) ∗ unscopedRest spec0 c (V m c))
          ⊢ (StableHlo.held (c : Thread nD τ) (ucRefs τ sig) (exitVal m c (outArr (dats 0 c))) : sProp 𝕄) from by
        rw [← Pipeline.unscopedBufs_held, Pipeline.unscopedBufs_split₀ cfgs 0 winFacts₀0.arr_unscoped]
        refine sep_mono .rfl (Entails.of_eq ?_)
        unfold unscopedRest
        exact bigSep_congr fun b hb => by
          beta_reduce
          rw [exitVal_ne m c _ b fun e => (Finset.mem_sdiff.mp hb).2 (Finset.mem_image.mpr ⟨4, Finset.mem_univ _, e⟩)]) $$ [HA HZ]
      · isplitl [HA] <;> iassumption
      rw [← List.append_nil (postOps.map StableHlo.seq)]
      iapply (Pipeline.wp_seqs_then (fun q => (cfgs q).toPCfg (Val := Elt F)) defs₀ Variants.none c (ucRefs τ sig) [] postOps postOps_within postOps_noFresh
        (exitVal m c (outArr (dats 0 c)))) $$ [Hb HU]
      · isplitl [Hb] <;> iassumption
      iintro Hb
      rw [Pipeline.chain_nil, wp_pure]
      imodintro
      iapply Hk
      icases Hb with ⟨-, H⟩
      iapply (show (StableHlo.held (c : Thread nD τ) (ucRefs τ sig) (StableHlo.after postOps.flatten (exitVal m c (outArr (dats 0 c)))) : sProp 𝕄)
          ⊢ iprop(arrBufs spec0 c (fun b => exitVal m c (outArr (dats 0 c)) (Proc.devRef .tc b)) ∗ unscopedRest spec0 c (endVal m c (outArr (dats 0 c)))) from by
        rw [← hjoin, ← Pipeline.unscopedBufs_held, Pipeline.unscopedBufs_split₀ cfgs 0 winFacts₀0.arr_unscoped])
      iexact H)
    (QY := fun c s => ∀ b ∈ Pipeline.restRefsP sig Pipeline.Prefetch.none spec0, s.mem ((c : Thread nD τ).loc b) = endVal m c (outArr (dats 0 c)) b)
    (hY := fun c s' => by
      iintro ⟨-, HU, HSI⟩
      unfold unscopedRestP
      imodintro
      iapply (pointsTo_read_all (Pipeline.restRefsP sig Pipeline.Prefetch.none spec0) (fun b => (c : Thread nD τ).loc b) (endVal m c (outArr (dats 0 c))) s')
      isplitl [HU] <;> iassumption)
    (hQ := fun s h c => ⟨(h c).1, Pipeline.rest_of_restP Pipeline.Prefetch.none spec0 (fun k => k.elim0) c (endVal m c (outArr (dats 0 c))) s
      (fun k => k.elim0) (fun k => k.elim0) (h c).2.2⟩)

end Cert.KernelIdeal.Scores

end
-- ==== Proof.KI.Frame.lean ====
/-
  The region's proof data, the body obligation, the run and the frame.

  Before point 0 the region's invariant is the class's (the scratch at anything); before any later point it holds the
  scratch at the running sums the point before left (`accAt`). After the body each input window's buffer holds its
  block, and the output window's holds `outAt` (consulted only where j = 7, the one point of a row block that
  stores it and writes it back). The second table is read through two windows, so it is held half by each.
-/
import proofs.«118702_j65704409694815_1_alg».proof.Proof.KI.Pieces
import proofs.«118702_j65704409694815_1_alg».proof.Proof.KI.Data
import proofs.«118702_j65704409694815_1_alg».proof.Proof.KI.Launch

set_option maxRecDepth 16384

noncomputable section

namespace Cert.KernelIdeal.Scores

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline

variable (m : (ℓ : Loc nD τ sig) → Buf (Elt F) ℓ) (ρ : Dev nD → PrngReg)

/-! ## The invariant between points -/

/-- Before point `n`: at the start the class's invariant; afterwards the scratch at the running sums the point
    before left, and the generator register at some state. -/
def PhiS (c : Dev nD) : (n : ℕ) → n ≤ cfg0.N → sProp 𝕄
  | 0, _ => ΦA spec0 c
  | n + 1, hn => iprop(iprop(owns (c : Thread nD τ) accM fullShare (accAt m c n hn)) ∗ (∃ r, prngReg c r))

theorem PhiS_zero (c : Dev nD) (n : ℕ) (h : n ≤ cfg0.N) (hz : n = 0) : PhiS m c n h = ΦA spec0 c := by
  subst hz; rfl

theorem PhiS_succ (c : Dev nD) (n : ℕ) (hn : n < cfg0.N) :
    PhiS m c (n + 1) hn = iprop(iprop(owns (c : Thread nD τ) accM fullShare (accAt m c n hn)) ∗ (∃ r, prngReg c r)) := rfl

theorem PhiS_pos (c : Dev nD) (n : ℕ) (h : n ≤ cfg0.N) (hz : n ≠ 0) :
    PhiS m c n h = iprop(iprop(owns (c : Thread nD τ) accM fullShare (accAt m c (n - 1) (by omega))) ∗ (∃ r, prngReg c r)) := by
  cases n with
  | zero => exact absurd rfl hz
  | succ n => rfl

/-! ## The proof data -/

/-- The region's proof data on core `c`: the arrays as the region finds them; after the body each input's buffer at
    its block and the output's at `outAt`; the invariant `PhiS`; the shared table held by halves; nothing owed. -/
def dats (_ : Fin 1) (c : Dev nD) : Dat τ (Elt F) Unit ℕ (UR sig nD τ) ℕ cfg0 c where
  A w := V m c (arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := PhiS m c t.val (Nat.le_of_lt_succ t.isLt)
  q w := match w with
    | ⟨0, _⟩ => fullShare
    | ⟨1, _⟩ => (fullShare : PosShare TreeShare).left
    | ⟨2, _⟩ => (fullShare : PosShare TreeShare).right
    | ⟨3, _⟩ => fullShare
    | ⟨4, _⟩ => fullShare
  owed _ := 0

theorem A_eq (c : Dev nD) (w : Fin cfg0.W) : (dats m 0 c).A w = V m c (arrRef spec0 w) := by
  dsimp only [dats]

theorem halves (c : Dev nD) : Halves (dats m 0 c) := ⟨by dsimp only [dats], by dsimp only [dats], by dsimp only [dats], by dsimp only [dats]⟩

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outAt m c t := by dsimp only [dats]

/-- Each input's current staging buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl)
      (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
      (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
      (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl)
      (fun t => by rw [after3]; unfold Dat.blockOf iblk; rw [A_eq]; try rfl) t d).trans
    (by unfold Dat.fetched Dat.blockOf iblk; rw [A_eq]; try rfl)

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point. The inputs' buffers hold their blocks; j decides the case; the invariant hands the body
    the scratch at what the point before left (at anything before the first point, and the j = 0 case wants no more)
    and takes it back at this point's sums; away from j = 7 the output's buffer goes back as it came, at j = 7 it holds
    `outAt`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  by_cases h0 : t.val % 8 = 0
  · have hF : isFirst (grid0.coords t) := (isFirst_iff t).mpr h0
    have hL : ¬isLast (grid0.coords t) := fun h => by have := (isLast_iff t).mp h; omega
    rw [show (dats m 0 c).leavesExact 0 t = owns (c : Thread nD τ) (ms0 t) fullShare ((dats m 0 c).after 0 t) from by
      unfold Dat.leavesExact; rw [live0 t], after0]
    rw [show (dats m 0 c).leavesExact 1 t = owns (c : Thread nD τ) (ms1 t) fullShare ((dats m 0 c).after 1 t) from by
      unfold Dat.leavesExact; rw [live1 t], after1]
    rw [show (dats m 0 c).leavesExact 2 t = owns (c : Thread nD τ) (ms2 t) fullShare ((dats m 0 c).after 2 t) from by
      unfold Dat.leavesExact; rw [live2 t], after2]
    rw [show (dats m 0 c).leavesExact 3 t = owns (c : Thread nD τ) (ms3 t) fullShare ((dats m 0 c).after 3 t) from by
      unfold Dat.leavesExact; rw [live3 t], after3]
    rw [Dat.leavesExact_idle (dats m 0 c) 4 t (idle4 t hL) (noFlush4 t hL)]
    rw [accAt_first m c t h0]
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩, ⟨%d3, H3⟩, ⟨%d4, H4⟩⟩
      iapply ((runFirst c (grid0.coords t) _ _ _ _ _ _ _ _ _ _ _ _ hF hL (rowsA m c t) (rowsB m c t) (colsB m c t) (maskRows m c t)).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hg]
      · isplitl [HS]
        · unfold owns; iexists _; isplitr
          swap; · iexact HS
          ipureintro; exact read_first c _ _ _ _ _ _ _ _ _ _ _ _ _ _ _ _ _ _ _ _
        iexact Hg
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩⟩
      iapply ((runFirst c (grid0.coords t) _ _ _ _ _ _ _ _ _ _ _ _ hF hL (rowsA m c t) (rowsB m c t) (colsB m c t) (maskRows m c t)).2 _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [HS Hg]
      · isplitl [HS]
        · unfold owns; iexists _; isplitr
          swap; · iexact HS
          ipureintro; exact read_first c _ _ _ _ _ _ _ _ _ _ _ _ _ _ _ _ _ _ _ _
        iexact Hg
      isplitl [Ho]; · iexact Ho
      isplitl [H0]; · iexact H0
      isplitl [H1]; · iexact H1
      isplitl [H2]; · iexact H2
      isplitl [H3]; · iexact H3
      iexists _; iexact H4
  · have hF : ¬isFirst (grid0.coords t) := fun h => h0 ((isFirst_iff t).mp h)
    have hz : t.val ≠ 0 := fun e => h0 (by rw [e])
    by_cases h7 : t.val % 8 = 7
    · have hL : isLast (grid0.coords t) := (isLast_iff t).mpr h7
      rw [show (dats m 0 c).leavesExact 0 t = owns (c : Thread nD τ) (ms0 t) fullShare ((dats m 0 c).after 0 t) from by
        unfold Dat.leavesExact; rw [live0 t], after0]
      rw [show (dats m 0 c).leavesExact 1 t = owns (c : Thread nD τ) (ms1 t) fullShare ((dats m 0 c).after 1 t) from by
        unfold Dat.leavesExact; rw [live1 t], after1]
      rw [show (dats m 0 c).leavesExact 2 t = owns (c : Thread nD τ) (ms2 t) fullShare ((dats m 0 c).after 2 t) from by
        unfold Dat.leavesExact; rw [live2 t], after2]
      rw [show (dats m 0 c).leavesExact 3 t = owns (c : Thread nD τ) (ms3 t) fullShare ((dats m 0 c).after 3 t) from by
        unfold Dat.leavesExact; rw [live3 t], after3]
      rw [show (dats m 0 c).leavesExact 4 t = owns (c : Thread nD τ) (ms4 t) fullShare ((dats m 0 c).after 4 t) from by
        unfold Dat.leavesExact; rw [live4 t hL], after4]
      unfold outAt
      rw [accAt_next m c t h0]
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩⟩
      iapply ((runLast c (grid0.coords t) _ _ _ _ _ _ _ _ _ _ _ _ hF hL (rowsA m c t) (rowsB m c t) (colsB m c t) (maskRows m c t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS Hg]
      · isplitl [HS]
        · unfold owns; iexists _; isplitr
          swap; · iexact HS
          ipureintro; exact read_last_acc c _ _ _ _ _ _ _ _ _ _ _ _ _ _ _ _ _ _ _ _ _
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact read_last_out c _ _ _ _ _ _ _ _ _ _ _ _ _ _ _ _ _ _ _ _ _
    · have hL : ¬isLast (grid0.coords t) := fun h => h7 ((isLast_iff t).mp h)
      rw [show (dats m 0 c).leavesExact 0 t = owns (c : Thread nD τ) (ms0 t) fullShare ((dats m 0 c).after 0 t) from by
        unfold Dat.leavesExact; rw [live0 t], after0]
      rw [show (dats m 0 c).leavesExact 1 t = owns (c : Thread nD τ) (ms1 t) fullShare ((dats m 0 c).after 1 t) from by
        unfold Dat.leavesExact; rw [live1 t], after1]
      rw [show (dats m 0 c).leavesExact 2 t = owns (c : Thread nD τ) (ms2 t) fullShare ((dats m 0 c).after 2 t) from by
        unfold Dat.leavesExact; rw [live2 t], after2]
      rw [show (dats m 0 c).leavesExact 3 t = owns (c : Thread nD τ) (ms3 t) fullShare ((dats m 0 c).after 3 t) from by
        unfold Dat.leavesExact; rw [live3 t], after3]
      rw [Dat.leavesExact_idle (dats m 0 c) 4 t (idle4 t hL) (noFlush4 t hL)]
      rw [accAt_next m c t h0]
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩⟩
      iapply ((runMid c (grid0.coords t) _ _ _ _ _ _ _ _ _ _ _ _ hF hL (rowsA m c t) (rowsB m c t) (colsB m c t) (maskRows m c t) _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hg]
      · isplitl [HS]
        · unfold owns; iexists _; isplitr
          swap; · iexact HS
          ipureintro; exact read_mid c _ _ _ _ _ _ _ _ _ _ _ _ _ _ _ _ _ _ _ _ _
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point, -/
theorem hin (c : Dev nD) : ΦA spec0 c ⊢ (dats m 0 c).Φ 0 := by
  rw [show (dats m 0 c).Φ 0 = PhiS m c 0 (Nat.zero_le _) from rfl, PhiS_zero m c 0 _ rfl]
  try exact Idealize.SL.BI.Entails.refl _

/-- and after the last point the invariant gives it back: the scratch's contents are forgotten. -/
theorem hout (c : Dev nD) : (dats m 0 c).Φ (Fin.last cfg0.N) ⊢ ΦA spec0 c := by
  have hne : (Fin.last cfg0.N).val ≠ 0 := by rw [Fin.val_last]; have : cfg0.N = 128 := N_0; omega
  rw [show (dats m 0 c).Φ (Fin.last cfg0.N) = PhiS m c (Fin.last cfg0.N).val (Nat.le_of_lt_succ (Fin.last cfg0.N).isLt) from rfl,
    PhiS_pos m c _ _ hne, PhiA_eq]
  iintro ⟨HS, Hg⟩
  isplitl [HS]
  · iexists _; iexact HS
  iexact Hg

/-! ## The run and the frame -/

/-- At the compiled mesh, from any memory with zero counters: every weakly fair execution of @main terminates, with
    every window's array at what the proof data compute and every other unscoped buffer as the lines after the
    region leave it. -/
theorem run_main : θ_run defs (onTc (τ := τ) (main (F := F))) (s₀ m ρ) (EndsAt m (dats m)) :=
  run_of m ρ (dats m) (fun c => (body_obligation m c).loose) (halves m) (fun _ _ => rfl) (A_eq m) (hin m) (hout m)
-- ==== Proof.KI.Ends.lean ====
/-
  Where the run ends at the argument arrays, and the frame.

  The program's three argument arrays are only ever read: no host line before the region writes one, the region's
  windows are on other arrays, and no host line after it writes one.  So whatever the region leaves in its output
  array, the lines after it leave each argument array holding what the lines before it found there, which is what
  the program was launched with.  The frame follows: every weakly fair execution terminates, and the three argument
  arrays end as launched.
-/
import proofs.«118702_j65704409694815_1_alg».proof.Proof.KI.Frame

set_option maxRecDepth 16384

noncomputable section

namespace Cert.KernelIdeal.Scores

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline

variable (m : (ℓ : Loc nD τ sig) → Buf (Elt F) ℓ) (ρ : Dev nD → PrngReg)

/-! ## The argument arrays when the region is entered -/

/-- No line before the region writes the first argument array: the region finds it as launched. -/
theorem V0_arg0 (c : Dev nD) : V0 m c (Proc.devRef .tc main_arg0) = m (c, Proc.devRef .tc main_arg0) := by
  show StableHlo.after (List.flatten preOps) (fun b => m (c, b)) (Proc.devRef .tc main_arg0) = _
  simp only [preOps, hostOps0, hostOps0_1, hostOps0_2, hostOps0_3, hostOps0_4, List.flatten_cons, List.flatten_nil,
    List.append_nil, List.cons_append, List.nil_append]
  after_results_simp

/-- Nor the second, -/
theorem V0_arg1 (c : Dev nD) : V0 m c (Proc.devRef .tc main_arg1) = m (c, Proc.devRef .tc main_arg1) := by
  show StableHlo.after (List.flatten preOps) (fun b => m (c, b)) (Proc.devRef .tc main_arg1) = _
  simp only [preOps, hostOps0, hostOps0_1, hostOps0_2, hostOps0_3, hostOps0_4, List.flatten_cons, List.flatten_nil,
    List.append_nil, List.cons_append, List.nil_append]
  after_results_simp

/-- nor the third. -/
theorem V0_arg2 (c : Dev nD) : V0 m c (Proc.devRef .tc main_arg2) = m (c, Proc.devRef .tc main_arg2) := by
  show StableHlo.after (List.flatten preOps) (fun b => m (c, b)) (Proc.devRef .tc main_arg2) = _
  simp only [preOps, hostOps0, hostOps0_1, hostOps0_2, hostOps0_3, hostOps0_4, List.flatten_cons, List.flatten_nil,
    List.append_nil, List.cons_append, List.nil_append]
  after_results_simp

/-! ## The argument arrays at the end -/

/-- No line after the region writes the first argument array either: whatever the output array holds when the
    region is left, the first argument array ends as launched. -/
theorem endVal_arg0 (c : Dev nD) (out : Buf (Elt F) ((c : Thread nD τ).loc main_v19)) :
    endVal m c out main_arg0 = m ((c : Thread nD τ).loc main_arg0) := by
  show StableHlo.after (List.flatten postOps) (exitVal m c out) (Proc.devRef .tc main_arg0) = _
  simp only [postOps, hostOps1, hostOps1_1, hostOps1_2, hostOps1_3, hostOps1_4, hostOps1_5, List.flatten_cons,
    List.flatten_nil, List.append_nil, List.cons_append, List.nil_append]
  after_results_simp
  rw [exitVal_ne m c out main_arg0 (by decide)]
  exact V0_arg0 m c

/-- So does the second, -/
theorem endVal_arg1 (c : Dev nD) (out : Buf (Elt F) ((c : Thread nD τ).loc main_v19)) :
    endVal m c out main_arg1 = m ((c : Thread nD τ).loc main_arg1) := by
  show StableHlo.after (List.flatten postOps) (exitVal m c out) (Proc.devRef .tc main_arg1) = _
  simp only [postOps, hostOps1, hostOps1_1, hostOps1_2, hostOps1_3, hostOps1_4, hostOps1_5, List.flatten_cons,
    List.flatten_nil, List.append_nil, List.cons_append, List.nil_append]
  after_results_simp
  rw [exitVal_ne m c out main_arg1 (by decide)]
  exact V0_arg1 m c

/-- and the third. -/
theorem endVal_arg2 (c : Dev nD) (out : Buf (Elt F) ((c : Thread nD τ).loc main_v19)) :
    endVal m c out main_arg2 = m ((c : Thread nD τ).loc main_arg2) := by
  show StableHlo.after (List.flatten postOps) (exitVal m c out) (Proc.devRef .tc main_arg2) = _
  simp only [postOps, hostOps1, hostOps1_1, hostOps1_2, hostOps1_3, hostOps1_4, hostOps1_5, List.flatten_cons,
    List.flatten_nil, List.append_nil, List.cons_append, List.nil_append]
  after_results_simp
  rw [exitVal_ne m c out main_arg2 (by decide)]
  exact V0_arg2 m c

/-! ## The buffers that bypass the region -/

/-- The argument arrays and the result are unscoped and are no window's array: they bypass the region. -/
theorem arg0_rest : main_arg0 ∈ restRefs sig spec0 := mem_restRefs_of main_arg0 (by decide) (by decide)
theorem arg1_rest : main_arg1 ∈ restRefs sig spec0 := mem_restRefs_of main_arg1 (by decide) (by decide)
theorem arg2_rest : main_arg2 ∈ restRefs sig spec0 := mem_restRefs_of main_arg2 (by decide) (by decide)
theorem res_rest : main_v42 ∈ restRefs sig spec0 := mem_restRefs_of main_v42 (by decide) (by decide)

/-! ## The frame -/

/-- The frame: every weakly fair execution terminates and the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨((h c).2 main_arg0 arg0_rest).trans (endVal_arg0 m c _),
        ((h c).2 main_arg1 arg1_rest).trans (endVal_arg1 m c _),
        ((h c).2 main_arg2 arg2_rest).trans (endVal_arg2 m c _)⟩)
    (run_main m ρ)

end Cert.KernelIdeal.Scores

end
-- ==== Proof.LibPlainDot.lean ====
/-
  A plain matrix product read at an entry.

  For dimension numbers that contract the left operand's second axis with the right operand's first axis, with no
  batch axes — an M×K array times a K×N array — the contraction's sum at the result entry (p, q) is the textbook
  `∑ i : Fin K, lhs (p, i) * rhs (i, q)`.  The statement is for ANY such record (its well-formedness proof is
  irrelevant), so it serves a kernel's `tpu.matmul` and a host `dot_general` at every size alike.
-/
import Idealize.ShloMosaic.Lib.ValueIdx
import Idealize.ShloMosaic.PureOps.Ideal.Laws

noncomputable section

open scoped BigOperators

namespace PlainDot

open Idealize.ShloMosaic Idealize.ShloMosaic.ValueIdx

variable {M K N : Nat}

/-- The dimension numbers of a plain product: contract axis 1 of the left operand with axis 0 of the right one;
    the left operand's axis 0 and the right operand's axis 1 are the result's axes; nothing is batched. -/
structure IsPlain (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![M, K]⟩ ⟨2, ![K, N]⟩ ⟨2, ![M, N]⟩}

/-- The left operand's row coordinate is the result's row. -/
theorem lhs_row (h : IsPlain d) (j : (⟨2, ![M, N]⟩ : Shape).Idx) (k : d.contr.Idx) :
    (d.lhsIdx j k 0 : ℕ) = j 0 := by
  obtain ⟨lc, rc, ln, rn, lb, rb, wf⟩ := d
  obtain ⟨h1, h2, h3, h4, h5, h6⟩ := h
  simp only at h1 h2 h3 h4 h5 h6
  subst h1 h2 h3 h4 h5 h6
  simp [DotDims.lhsIdx]; rfl

/-- The right operand's column coordinate is the result's column. -/
theorem rhs_col (h : IsPlain d) (j : (⟨2, ![M, N]⟩ : Shape).Idx) (k : d.contr.Idx) :
    (d.rhsIdx j k 1 : ℕ) = j 1 := by
  obtain ⟨lc, rc, ln, rn, lb, rb, wf⟩ := d
  obtain ⟨h1, h2, h3, h4, h5, h6⟩ := h
  simp only at h1 h2 h3 h4 h5 h6
  subst h1 h2 h3 h4 h5 h6
  simp [DotDims.rhsIdx]; rfl

theorem contr_rank (h : IsPlain d) : d.contr.rank = 1 := by
  rw [d.rank_contr, h.lc]; rfl

theorem contr_size (h : IsPlain d) : d.contr.size ⟨0, by rw [contr_rank h]; exact Nat.one_pos⟩ = K := by
  obtain ⟨lc, rc, ln, rn, lb, rb, wf⟩ := d
  obtain ⟨h1, h2, h3, h4, h5, h6⟩ := h
  simp only at h1 h2 h3 h4 h5 h6
  subst h1 h2 h3 h4 h5 h6
  rfl

/-- THE SUM: over the one contracted axis, entry by entry. -/
theorem sum_eq (h : IsPlain d) (lhs : (⟨2, ![M, K]⟩ : Shape).Idx → EReal) (rhs : (⟨2, ![K, N]⟩ : Shape).Idx → EReal)
    (p : Fin M) (q : Fin N) :
    ∑ k : d.contr.Idx, lhs (d.lhsIdx (ix2 p q) k) * rhs (d.rhsIdx (ix2 p q) k) = ∑ i : Fin K, lhs (ix2 p i) * rhs (ix2 i q) := by
  rw [← Equiv.sum_comp (contrEquiv1 d K (contr_rank h) (contr_size h)).symm]
  refine Finset.sum_congr rfl fun i _ => ?_
  have hk := contrEquiv1_symm_val d K (contr_rank h) (contr_size h) i
  have el : d.lhsIdx (ix2 p q) ((contrEquiv1 d K (contr_rank h) (contr_size h)).symm i) = ix2 p i := by
    funext a; refine Fin.ext ?_
    match a with
    | ⟨0, _⟩ => exact lhs_row h _ _
    | ⟨1, _⟩ => exact (d.lhsIdx_val_of_single h.lc _ _).trans hk
  have er : d.rhsIdx (ix2 p q) ((contrEquiv1 d K (contr_rank h) (contr_size h)).symm i) = ix2 i q := by
    funext a; refine Fin.ext ?_
    match a with
    | ⟨0, _⟩ => exact (d.rhsIdx_val_of_single h.rc _ _).trans hk
    | ⟨1, _⟩ => exact rhs_col h _ _
  rw [el, er]

/-- A kernel's matrix product into a zero accumulator, at the exact instance, read at an entry. -/
theorem matmul_zero_apply (h : IsPlain d) {φ₁ φ₂ : FTy} (prec : Option ContractPrecision)
    (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ i : Fin K, lhs (ix2 p i) * rhs (ix2 i q) :=
  (Ideal.matmul_constant_zero_apply d prec lhs rhs (ix2 p q)).trans (sum_eq h lhs rhs p q)

/-- The host's `dot_general`, at the exact instance, read at an entry: the same sum. -/
theorem dotGeneral_apply (h : IsPlain d) {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ i : Fin K, lhs (ix2 p i) * rhs (ix2 i q) :=
  (Ideal.dotGeneral_apply d prec sched lhs rhs (ix2 p q)).trans (sum_eq h lhs rhs p q)

end PlainDot

end
-- ==== Proof.LibRowSum.lean ====
/-
  A sum along the rows of a two-dimensional array, read at a row.

  Reducing an [m, n] array over its second axis leaves an [m] array; at row p the kernel's vector reduction from
  the zero accumulator is the plain sum of the row's n entries.  Stated for any extents.
-/
import Idealize.ShloMosaic.Lib.ValueIdx
import Idealize.ShloMosaic.PureOps.Ideal.Laws

noncomputable section

open scoped BigOperators

namespace RowSum

open Idealize.ShloMosaic Idealize.ShloMosaic.ValueIdx

variable {m n : Nat}

/-- The reduced index p with column k put back is (p, k). -/
theorem lift_ix2 (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- The kernel's sum over the second axis from the zero word, at row p: the sum of the row. -/
theorem multiReduction_apply {φ : FTy} (src : FVec Ideal ⟨2, ![m, n]⟩ φ) (acc : BitVec φ.bits)
    (h : (⟨2, ![m, n]⟩ : Shape).Reduces [1] (⟨1, ![m]⟩ : Shape)) (hφ : FKind.Formats φ)
    (hacc : acc = FKind.add.neutral φ hφ) (p : Fin m) :
    multiReduction .add [1] (⟨1, ![m]⟩ : Shape) src acc h hφ hacc (ix1 p) = ∑ k : Fin n, src (ix2 p k) := by
  refine (Ideal.multiReduction_add_single src acc h hφ hacc (ix1 p)).trans ?_
  exact Finset.sum_congr rfl fun k _ => congrArg src (lift_ix2 h p k)

end RowSum

end
-- ==== Proof.LibKeepdims.lean ====
/-
  The two layout steps of a row reduction that keeps its dimension, read at an index.

  A reduction of an [a, b] array along its rows gives an [a] array; kept as a column it is cast to [a, 1] and then
  broadcast back to [a, b].  At entry (p, q) of the broadcast one reads the column's entry (p, 0), and there the cast
  reads the vector's entry p: every entry of row p sees the row's own reduced value.  Stated for any element type and
  any extents.
-/
import Idealize.ShloMosaic.Lib.Pipeline.Value
import Idealize.ShloMosaic.Lib.ValueIdx

noncomputable section

namespace KeepdimsLayout

open Idealize.ShloMosaic Idealize.ShloMosaic.ValueIdx

/-- An [a] array cast to [a, 1] reads, at (p, u), the operand at p, whatever the unit coordinate u. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An [a, 1] array broadcast to [a, b] reads, at (p, q), the operand's one column at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end KeepdimsLayout

end
-- ==== Proof.LibRowLayout.lean ====
/-
  A column turned into a row and spread over a matrix, read at an index.

  An [a, 1] column transposed is a [1, a] row whose entry (0, q) is the column's entry (q, 0); a [1, b] row
  broadcast to [a, b] has at (p, q) the row's entry (0, q): every entry of column q sees that column's own value.
  Stated for any element type and any extents.
-/
import Idealize.ShloMosaic.Lib.Pipeline.Value
import Idealize.ShloMosaic.Lib.ValueIdx

noncomputable section

namespace RowLayout

open Idealize.ShloMosaic Idealize.ShloMosaic.ValueIdx

/-- An [a, 1] column transposed to a [1, a] row reads, at (u, q), the column's entry (q, u). -/
theorem transpose_a1_1a_apply {α : Type} {a : ℕ} (x : (⟨2, ![a, 1]⟩ : Shape).Idx → α)
    (h : (⟨2, ![a, 1]⟩ : Shape).Transposes [1, 0] ⟨2, ![1, a]⟩) (u : Fin 1) (q : Fin a) :
    transpose ⟨2, ![1, a]⟩ [1, 0] x h (ix2 u q) = x (ix2 q u) := by
  refine transpose_apply [1, 0] x h (ix2 u q) (ix2 q u) fun b => ?_
  match b with
  | ⟨0, _⟩ => rfl
  | ⟨1, _⟩ => rfl

/-- A [1, b] row broadcast to [a, b] reads, at (p, q), the row's entry (0, q). -/
theorem broadcastTo_1b_ab_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

end RowLayout

end
-- ==== Proof.ScorePayload.lean ====
/-
  The three pure payloads of the scores kernel's body, read at an index, at the exact instance.

  At a grid point i = (i₀, i₁) the body holds 512 rows of a table A (x0), the same 512 rows of a table B (x1) and
  1024 other rows of B (x2).  It forms the two 512 × 1024 arrays of row products  A_p · B_k  and  B_p · B_k,
  takes  (A_p · B_k) * (1 - B_p · B_k)  entry by entry, puts 0 where the global row number 512 i₀ + p equals the global
  column number 1024 i₁ + k, sums every row over k and adds the result to a running column of sums.  The other two
  payloads are the column of zeros the running sums start from and the entrywise product of two columns.
-/
import proofs.«118702_j65704409694815_1_alg».proof.Proof.Gen.KernelIdeal.Skeleton
import proofs.«118702_j65704409694815_1_alg».proof.Proof.LibPlainDot
import proofs.«118702_j65704409694815_1_alg».proof.Proof.LibRowSum
import proofs.«118702_j65704409694815_1_alg».proof.Proof.LibKeepdims
import proofs.«118702_j65704409694815_1_alg».proof.Proof.LibRowLayout
import Idealize.ShloMosaic.Lib.IdealHost
import Idealize.ShloMosaic.Lib.Pipeline.Value
import Idealize.ShloMosaic.Lib.ValueIdx
import Idealize.ShloMosaic.PureOps.Ideal.Laws

noncomputable section

open scoped BigOperators

namespace Cert.KernelIdeal.ScoresValue

open Cert.KernelIdeal Cert.KernelIdeal.Gen Idealize.ShloMosaic Idealize.ShloMosaic.ValueIdx

/-! ## The two small payloads -/

/-- The column the running sums start from is zero everywhere. -/
theorem pay2_apply (y : S512x1.Idx) : k0_pay2 (F := Ideal) y = (0 : EReal) := by
  unfold k0_pay2
  refine (congrFun (shapeCast_self _ _) y).trans ?_
  exact Ideal.ofBits_zero_f32

/-- The product of two columns, entry by entry. -/
theorem pay1_apply (a b : Vec Ideal S512x1 .f32) (y : S512x1.Idx) :
    k0_pay1 (F := Ideal) a b y = (a y : EReal) * b y := by
  unfold k0_pay1
  exact congrArg (fun t : S512x1.Idx → EReal => (a y : EReal) * t y) (shapeCast_self b _)

/-! ## The row products -/

/-- The kernel's dimension numbers are those of a plain matrix product. -/
theorem dot_plain : PlainDot.IsPlain dot_S512x128_S128x1024_S512x1024_1_0_0_1_n_n :=
  ⟨rfl, rfl, rfl, rfl, rfl, rfl⟩

/-- A [1024, 128] array transposed reads, at (d, k), the array's entry (k, d). -/
theorem transpose_apply_dk {α : Type} (w : S1024x128.Idx → α) (h : S1024x128.Transposes [1, 0] S128x1024)
    (d : Fin 128) (k : Fin 1024) : transpose S128x1024 [1, 0] w h (ix2 d k) = w (ix2 k d) := by
  refine transpose_apply [1, 0] w h (ix2 d k) (ix2 k d) fun b => ?_
  match b with
  | ⟨0, _⟩ => rfl
  | ⟨1, _⟩ => rfl

/-- Entry (p, k) of the product of a 512 × 128 block with the transpose of a 1024 × 128 block, accumulated from zero:
    the product of row p of the first with row k of the second. -/
theorem gram_apply (x : FVec Ideal S512x128 .bf16) (w : FVec Ideal S1024x128 .bf16)
    (h1 : S512x128.ShapeCasts S512x128) (h2 : S1024x128.ShapeCasts S1024x128)
    (ht : S1024x128.Transposes [1, 0] S128x1024) (p : Fin 512) (k : Fin 1024) :
    matmul dot_S512x128_S128x1024_S512x1024_1_0_0_1_n_n none (shapeCast S512x128 x h1)
        (transpose S128x1024 [1, 0] (shapeCast S1024x128 w h2) ht) (constant S512x1024 .f32 0x00000000#32) (ix2 p k)
      = ∑ d : Fin 128, (x (ix2 p d) : EReal) * w (ix2 k d) := by
  refine (PlainDot.matmul_zero_apply dot_plain none _ _ p k).trans ?_
  refine Finset.sum_congr rfl fun d _ => ?_
  rw [shapeCast_self x h1, shapeCast_self w h2, transpose_apply_dk w ht d k]

/-! ## The test for the diagonal -/

/-- Thirty-two-bit words: for a block row below 16, a block column below 8, a row below 512 and a column below 1024
    neither side of the comparison wraps, so the words are equal exactly when the numbers are. -/
theorem diag_word (a b p k : Nat) (ha : a < 16) (hb : b < 8) (hp : p < 512) (hk : k < 1024) :
    IntOp.cmpi .eq (IntOp.addi (Scalar.muli (BitVec.ofNat 32 a) 512#32) (BitVec.ofNat 32 p))
        (IntOp.addi (Scalar.muli (BitVec.ofNat 32 b) 1024#32) (BitVec.ofNat 32 k))
      = if 512 * a + p = 1024 * b + k then 1#1 else 0#1 := by
  have e1 : IntOp.addi (Scalar.muli (BitVec.ofNat 32 a) 512#32) (BitVec.ofNat 32 p) = BitVec.ofNat 32 (512 * a + p) := by
    show BitVec.ofNat 32 a * 512#32 + BitVec.ofNat 32 p = _
    apply BitVec.eq_of_toNat_eq
    simp only [BitVec.toNat_add, BitVec.toNat_mul, BitVec.toNat_ofNat]
    omega
  have e2 : IntOp.addi (Scalar.muli (BitVec.ofNat 32 b) 1024#32) (BitVec.ofNat 32 k) = BitVec.ofNat 32 (1024 * b + k) := by
    show BitVec.ofNat 32 b * 1024#32 + BitVec.ofNat 32 k = _
    apply BitVec.eq_of_toNat_eq
    simp only [BitVec.toNat_add, BitVec.toNat_mul, BitVec.toNat_ofNat]
    omega
  rw [e1, e2]
  show BitVec.ofBool (BitVec.ofNat 32 (512 * a + p) == BitVec.ofNat 32 (1024 * b + k)) = _
  by_cases h : 512 * a + p = 1024 * b + k
  · rw [if_pos h, h, beq_self_eq_true]; rfl
  · rw [if_neg h]
    have hne : BitVec.ofNat 32 (512 * a + p) ≠ BitVec.ofNat 32 (1024 * b + k) := by
      intro hh
      have := congrArg BitVec.toNat hh
      simp only [BitVec.toNat_ofNat] at this
      omega
    rw [beq_eq_false_iff_ne.mpr hne]; rfl

/-- The column of global row numbers spread over the block: at (p, k) the word of the block's base plus p. -/
theorem rowNumber_apply (c : BitVec 32) (hi : S512x1.Iotas .tc 32 [0]) (hb : S512x1.Broadcasts S512x1024)
    (p : Fin 512) (k : Fin 1024) :
    broadcastTo S512x1024 (addi (broadcast S512x1 c) (iota .tc S512x1 32 [0] hi)) hb (ix2 p k)
      = IntOp.addi c (BitVec.ofNat 32 p.val) := by
  refine (KeepdimsLayout.broadcastTo_a1_ab_apply _ hb p k).trans ?_
  exact congrArg (IntOp.addi c) (iota_single_apply .tc S512x1 32 0 hi (ix2 p (0 : Fin 1)))

/-- The row of global column numbers spread over the block: at (p, k) the word of the block's base plus k. -/
theorem colNumber_apply (c : BitVec 32) (hi : S1x1024.Iotas .tc 32 [1]) (hb : S1x1024.Broadcasts S512x1024)
    (p : Fin 512) (k : Fin 1024) :
    broadcastTo S512x1024 (addi (broadcast S1x1024 c) (iota .tc S1x1024 32 [1] hi)) hb (ix2 p k)
      = IntOp.addi c (BitVec.ofNat 32 k.val) := by
  refine (RowLayout.broadcastTo_1b_ab_apply _ hb p k).trans ?_
  exact congrArg (IntOp.addi c) (iota_single_apply .tc S1x1024 32 1 hi (ix2 (0 : Fin 1) k))

/-- THE TEST at entry (p, k) of the block at grid point i: the one-bit word is 1 exactly when the global row number
    512 i₀ + p is the global column number 1024 i₁ + k. -/
theorem diag_apply (i : grid0.Coords) (hi0 : S512x1.Iotas .tc 32 [0]) (hb0 : S512x1.Broadcasts S512x1024)
    (hi1 : S1x1024.Iotas .tc 32 [1]) (hb1 : S1x1024.Broadcasts S512x1024) (p : Fin 512) (k : Fin 1024) :
    cmpi .eq
        (broadcastTo S512x1024 (addi (broadcast S512x1 (Scalar.muli (BitVec.ofNat 32 (i 0).val) 512#32))
          (iota .tc S512x1 32 [0] hi0)) hb0)
        (broadcastTo S512x1024 (addi (broadcast S1x1024 (Scalar.muli (BitVec.ofNat 32 (i 1).val) 1024#32))
          (iota .tc S1x1024 32 [1] hi1)) hb1) (ix2 p k)
      = if 512 * (i 0).val + p.val = 1024 * (i 1).val + k.val then 1#1 else 0#1 := by
  refine (congrArg₂ (IntOp.cmpi .eq) (rowNumber_apply _ hi0 hb0 p k) (colNumber_apply _ hi1 hb1 p k)).trans ?_
  exact diag_word _ _ _ _ (i 0).isLt (i 1).isLt p.isLt k.isLt

/-- A select on a decided one-bit word is the `if`. -/
theorem select_ite {α : Type} (c : Prop) [Decidable c] (A B : α) :
    Scalar.select (if c then 1#1 else 0#1) A B = if c then A else B := by
  split
  · exact select_one A B
  · exact select_zero A B

/-! ## The gain at an entry -/

/-- Entry (p, k) of the product of the two arrays of row products, the second taken from one:
    (A_p · B_k) * (1 - B_p · B_k). -/
theorem gain_apply (x0 x1 : FVec Ideal S512x128 .bf16) (x2 : FVec Ideal S1024x128 .bf16)
    (h1 : S512x128.ShapeCasts S512x128) (h2 : S1024x128.ShapeCasts S1024x128)
    (ht : S1024x128.Transposes [1, 0] S128x1024) (p : Fin 512) (k : Fin 1024) :
    mulf
        (matmul dot_S512x128_S128x1024_S512x1024_1_0_0_1_n_n none (shapeCast S512x128 x0 h1)
          (transpose S128x1024 [1, 0] (shapeCast S1024x128 x2 h2) ht) (constant S512x1024 .f32 0x00000000#32))
        (subf (broadcast S512x1024 (FloatOps.ofBits (F := Ideal) .f32 0x3F800000#32))
          (matmul dot_S512x128_S128x1024_S512x1024_1_0_0_1_n_n none (shapeCast S512x128 x1 h1)
            (transpose S128x1024 [1, 0] (shapeCast S1024x128 x2 h2) ht) (constant S512x1024 .f32 0x00000000#32)))
        (ix2 p k)
      = (∑ d : Fin 128, (x0 (ix2 p d) : EReal) * x2 (ix2 k d))
          * (1 - ∑ d : Fin 128, (x1 (ix2 p d) : EReal) * x2 (ix2 k d)) := by
  refine (mulf_apply _ _ _).trans ?_
  refine congrArg₂ (fun a b : EReal => a * b) (gram_apply x0 x2 h1 h2 ht p k) ?_
  refine (subf_apply _ _ _).trans ?_
  exact congrArg₂ (fun a b : EReal => a - b) Ideal.ofBits_one_f32 (gram_apply x1 x2 h1 h2 ht p k)

/-! ## The block's contribution to the running sums -/

/-- Row p of the third payload at grid point i: the running sum plus, over the block's 1024 columns, the gain of the
    pair (row 512 i₀ + p, row 1024 i₁ + k), nothing where the two are the same row. -/
theorem pay3_row (i : grid0.Coords) (x0 x1 : Vec Ideal S512x128 .bf16) (x2 : Vec Ideal S1024x128 .bf16)
    (xs : Vec Ideal S512x1 .f32) (p : Fin 512) :
    k0_pay3 (F := Ideal) i x0 x1 x2 xs (ix2 p 0)
      = (xs (ix2 p 0) : EReal) + ∑ k : Fin 1024,
          (if 512 * (i 0).val + p.val = 1024 * (i 1).val + k.val then (0 : EReal)
            else (∑ d : Fin 128, (x0 (ix2 p d) : EReal) * x2 (ix2 k d))
              * (1 - ∑ d : Fin 128, (x1 (ix2 p d) : EReal) * x2 (ix2 k d))) := by
  unfold k0_pay3
  dsimp only
  refine (congrFun (shapeCast_self _ _) (ix2 p 0)).trans ?_
  refine (addf_apply _ _ _).trans ?_
  refine congrArg (fun t : EReal => (xs (ix2 p 0) : EReal) + t) ?_
  refine (KeepdimsLayout.shapeCast_a_a1_apply _ _ p 0).trans ?_
  refine (RowSum.multiReduction_apply _ _ _ _ _ p).trans ?_
  refine Finset.sum_congr rfl fun k _ => ?_
  refine (select_apply _ _ _ _).trans ?_
  refine (congrArg (fun c : BitVec 1 => Scalar.select c _ _) (diag_apply i _ _ _ _ p k)).trans ?_
  refine (select_ite _ _ _).trans ?_
  refine if_congr Iff.rfl ?_ ?_
  · exact Ideal.ofBits_zero_f32
  · exact gain_apply x0 x1 x2 _ _ _ p k

end Cert.KernelIdeal.ScoresValue

end
-- ==== Proof.ScoreSpec.lean ====
/-
  The scores both programs compute, as one function of two tables and a mask, on the extended reals.

  For tables A, B of 8192 rows of 128 entries, `gain A B R J` is the product of row R of A against row J of B
  (the "information gain" of the pair) times one minus the product of rows R and J of B (its "diversity gain"),
  with the pair (R, R) left out; `score A B M R` is the sum of the gains of row R against every row, times the
  mask's entry M R. The kernel reaches it block by block with an accumulator and an explicit test for the diagonal;
  the reference multiplies the full gain matrix by one minus the identity matrix and sums rows. The two ways of
  leaving out the diagonal agree on every extended real, since x * 1 = x and x * 0 = 0 there; the two ways of
  summing agree because a finite sum does not depend on how it is grouped.
-/
import Idealize.ShloMosaic.PureOps.Ideal
import Mathlib.Algebra.BigOperators.Fin
import Mathlib.Algebra.BigOperators.Ring.Finset

noncomputable section

namespace Cert.ScoreSpec

open Idealize.ShloMosaic

/-- The gain of the pair (R, J): (row R of A · row J of B) * (1 - row R of B · row J of B); nothing for R = J. -/
def gain (A B : Fin 8192 → Fin 128 → EReal) (R J : Fin 8192) : EReal :=
  if R = J then 0 else (∑ d : Fin 128, A R d * B J d) * (1 - ∑ d : Fin 128, B R d * B J d)

/-- Row R's score: its gains against every row, summed, times the mask's entry. -/
def score (A B : Fin 8192 → Fin 128 → EReal) (M : Fin 8192 → EReal) (R : Fin 8192) : EReal :=
  (∑ J : Fin 8192, gain A B R J) * M R

end Cert.ScoreSpec

end
-- ==== Proof.ScoreBlocks.lean ====
/-
  The input blocks of the region, read at an index as entries of the arrays they are cut from.

  The grid is 16 × 8 and runs its second axis fastest: point t = 8 i + j has coordinates (i, j) = (t / 8, t % 8).
  At that point the row blocks of the two tables and of the mask column are rows [512 i, 512 i + 512) of their
  arrays, and the column block is rows [1024 j, 1024 j + 1024) of the second table: entry (p, d) of a row block is
  entry (512 i + p, d) of its array, entry (k, d) of the column block is entry (1024 j + k, d).
-/
import proofs.«118702_j65704409694815_1_alg».proof.Proof.KI.Data
import Idealize.ShloMosaic.Lib.ValueIdx

set_option maxRecDepth 16384

noncomputable section

namespace Cert.KernelIdeal.ScoresValue

open Cert.KernelIdeal Cert.KernelIdeal.Gen Cert.KernelIdeal.Scores Idealize.ShloMosaic Idealize.ShloMosaic.ValueIdx

/-! ## The rows behind a point's blocks -/

/-- The global row behind row p of the row block of point t = 8 i + j: 512 i + p. -/
def rowOf (t : Fin cfg0.N) (p : Fin 512) : Fin 8192 :=
  ⟨512 * (t.val / 8) + p.val, by have h : t.val < 128 := lt_of_lt_of_eq t.isLt N_0; omega⟩

/-- The global row behind row k of the column block of point t = 8 i + j: 1024 j + k. -/
def colOf (t : Fin cfg0.N) (k : Fin 1024) : Fin 8192 := ⟨1024 * (t.val % 8) + k.val, by omega⟩

/-- The first coordinate of point t is t / 8, -/
theorem coords_row (t : Fin cfg0.N) : (grid0.coords t 0).val = t.val / 8 :=
  (by decide +kernel : ∀ t : Fin grid0.N, (grid0.coords t 0).val = t.val / 8) t

/-- and the second is t % 8. -/
theorem coords_col (t : Fin cfg0.N) : (grid0.coords t 1).val = t.val % 8 :=
  (by decide +kernel : ∀ t : Fin grid0.N, (grid0.coords t 1).val = t.val % 8) t

/-! ## The windows' block numbers, decided over the grid -/

/-- The first table's row block at point t is block t / 8 of 16 along the rows, the one block along the columns. -/
theorem blockA : ∀ t : Fin cfg0.N, win0_0.index t (0 : Fin 2) = t.val / 8 ∧ win0_0.index t (1 : Fin 2) = 0 :=
  (by decide +kernel : ∀ t : Fin grid0.N, win0_0.index t (0 : Fin 2) = t.val / 8 ∧ win0_0.index t (1 : Fin 2) = 0)

/-- The second table's row block likewise. -/
theorem blockB : ∀ t : Fin cfg0.N, win0_1.index t (0 : Fin 2) = t.val / 8 ∧ win0_1.index t (1 : Fin 2) = 0 :=
  (by decide +kernel : ∀ t : Fin grid0.N, win0_1.index t (0 : Fin 2) = t.val / 8 ∧ win0_1.index t (1 : Fin 2) = 0)

/-- The second table's column block is block t % 8 of 8 along the rows. -/
theorem blockC : ∀ t : Fin cfg0.N, win0_2.index t (0 : Fin 2) = t.val % 8 ∧ win0_2.index t (1 : Fin 2) = 0 :=
  (by decide +kernel : ∀ t : Fin grid0.N, win0_2.index t (0 : Fin 2) = t.val % 8 ∧ win0_2.index t (1 : Fin 2) = 0)

/-- The mask column's block is block t / 8 of 16. -/
theorem blockM : ∀ t : Fin cfg0.N, win0_3.index t (0 : Fin 2) = t.val / 8 ∧ win0_3.index t (1 : Fin 2) = 0 :=
  (by decide +kernel : ∀ t : Fin grid0.N, win0_3.index t (0 : Fin 2) = t.val / 8 ∧ win0_3.index t (1 : Fin 2) = 0)

/-! ## The blocks at an index -/

variable {F : FTy → Type} [FloatOps F] (m : (ℓ : Loc nD τ sig) → Buf (Elt F) ℓ)

/-- Entry (p, d) of the first table's row block at point t is entry (512 (t / 8) + p, d) of the table. -/
theorem rowsA_apply (c : Dev nD) (t : Fin cfg0.N) (p : Fin 512) (d : Fin 128) :
    rowsA m c t (ix2 p d) = tableA m c (ix2 (rowOf t p) d) := by
  obtain ⟨e0, e1⟩ := blockA t
  unfold rowsA iblk
  rw [View.read_apply]
  show tableA m c _ = tableA m c _
  refine congrArg (tableA m c) ?_
  funext a
  apply Fin.ext
  match a with
  | ⟨0, _⟩ => show win0_0.index t (0 : Fin 2) * 512 + 1 * p.val = 512 * (t.val / 8) + p.val; rw [e0]; omega
  | ⟨1, _⟩ => show win0_0.index t (1 : Fin 2) * 128 + 1 * d.val = d.val; rw [e1]; omega

/-- Entry (p, d) of the second table's row block at point t is entry (512 (t / 8) + p, d) of the table. -/
theorem rowsB_apply (c : Dev nD) (t : Fin cfg0.N) (p : Fin 512) (d : Fin 128) :
    rowsB m c t (ix2 p d) = tableB m c (ix2 (rowOf t p) d) := by
  obtain ⟨e0, e1⟩ := blockB t
  unfold rowsB iblk
  rw [View.read_apply]
  show tableB m c _ = tableB m c _
  refine congrArg (tableB m c) ?_
  funext a
  apply Fin.ext
  match a with
  | ⟨0, _⟩ => show win0_1.index t (0 : Fin 2) * 512 + 1 * p.val = 512 * (t.val / 8) + p.val; rw [e0]; omega
  | ⟨1, _⟩ => show win0_1.index t (1 : Fin 2) * 128 + 1 * d.val = d.val; rw [e1]; omega

/-- Entry (k, d) of the second table's column block at point t is entry (1024 (t % 8) + k, d) of the table. -/
theorem colsB_apply (c : Dev nD) (t : Fin cfg0.N) (k : Fin 1024) (d : Fin 128) :
    colsB m c t (ix2 k d) = tableB m c (ix2 (colOf t k) d) := by
  obtain ⟨e0, e1⟩ := blockC t
  unfold colsB iblk
  rw [View.read_apply]
  show tableB m c _ = tableB m c _
  refine congrArg (tableB m c) ?_
  funext a
  apply Fin.ext
  match a with
  | ⟨0, _⟩ => show win0_2.index t (0 : Fin 2) * 1024 + 1 * k.val = 1024 * (t.val % 8) + k.val; rw [e0]; omega
  | ⟨1, _⟩ => show win0_2.index t (1 : Fin 2) * 128 + 1 * d.val = d.val; rw [e1]; omega

/-- Entry p of the mask column's block at point t is entry 512 (t / 8) + p of the column. -/
theorem maskRows_apply (c : Dev nD) (t : Fin cfg0.N) (p : Fin 512) :
    maskRows m c t (ix2 p 0) = maskCol m c (ix2 (rowOf t p) 0) := by
  obtain ⟨e0, e1⟩ := blockM t
  unfold maskRows iblk
  rw [View.read_apply]
  show maskCol m c _ = maskCol m c _
  refine congrArg (maskCol m c) ?_
  funext a
  apply Fin.ext
  match a with
  | ⟨0, _⟩ => show win0_3.index t (0 : Fin 2) * 512 + 1 * p.val = 512 * (t.val / 8) + p.val; rw [e0]; omega
  | ⟨1, _⟩ => show win0_3.index t (1 : Fin 2) * 1 + 1 * 0 = 0; rw [e1]

end Cert.KernelIdeal.ScoresValue

end
-- ==== Proof.ScoreAcc.lean ====
/-
  The kernel's running sums in closed form, by induction over the grid points.

  Within one block of 512 rows (t / 8 fixed) the points j = 0, ..., 7 add, one after the other, the gains of row
  512 (t / 8) + p against the 1024 rows 1024 j + k of the second table; at j = 0 the sums start from zeros.  The
  kernel's test for the diagonal, 512 (t / 8) + p = 1024 (t % 8) + k, says that the two rows are the same row, which
  is where the specification's gain is 0.  So after point t the running sum of row p is the sum of the gains of its
  row against all rows below 1024 (t % 8 + 1), and at t % 8 = 7 against all 8192 rows; the output block is that times
  the mask column's entry, which is the specification's score.  All sums are finite sums on the extended reals, an
  additive commutative monoid: regrouping them needs no finiteness of the values.
-/
import proofs.«118702_j65704409694815_1_alg».proof.Proof.KI.Data
import proofs.«118702_j65704409694815_1_alg».proof.Proof.ScorePayload
import proofs.«118702_j65704409694815_1_alg».proof.Proof.ScoreSpec
import proofs.«118702_j65704409694815_1_alg».proof.Proof.ScoreBlocks
import Mathlib.Algebra.BigOperators.Fin
import Mathlib.Algebra.BigOperators.Group.Finset.Basic

noncomputable section

open scoped BigOperators

namespace Cert.KernelIdeal.ScoresValue

open Cert.KernelIdeal Cert.KernelIdeal.Gen Cert.KernelIdeal.Scores Idealize.ShloMosaic Idealize.ShloMosaic.ValueIdx Cert.ScoreSpec

/-! ## A sum over the rows below a bound, one block of 1024 rows at a time -/

/-- The rows below 1024 (j + 1) are the rows below 1024 j together with the 1024 rows 1024 j + k, each once: a sum
    over the former is the sum over the latter two.  No finiteness of the values is used: the sums live in any
    additive commutative monoid. -/
theorem sum_lt_step {M : Type*} [AddCommMonoid M] (f : Fin 8192 → M) (j : ℕ) (hj : j < 8) (col : Fin 1024 → Fin 8192)
    (hcol : ∀ k, (col k).val = 1024 * j + k.val) :
    ∑ J ∈ Finset.univ.filter (fun J : Fin 8192 => J.val < 1024 * (j + 1)), f J
      = ∑ J ∈ Finset.univ.filter (fun J : Fin 8192 => J.val < 1024 * j), f J + ∑ k : Fin 1024, f (col k) := by
  have himg : Finset.univ.filter (fun J : Fin 8192 => J.val < 1024 * (j + 1))
      = Finset.univ.filter (fun J : Fin 8192 => J.val < 1024 * j) ∪ Finset.univ.image col := by
    ext J
    simp only [Finset.mem_filter, Finset.mem_univ, true_and, Finset.mem_union, Finset.mem_image]
    constructor
    · intro h
      by_cases h' : J.val < 1024 * j
      · exact Or.inl h'
      · refine Or.inr ⟨⟨J.val - 1024 * j, by omega⟩, Fin.ext ?_⟩
        rw [hcol]; show 1024 * j + (J.val - 1024 * j) = J.val; omega
    · rintro (h | ⟨k, rfl⟩)
      · omega
      · rw [hcol]; have := k.isLt; omega
  have hdisj : Disjoint (Finset.univ.filter (fun J : Fin 8192 => J.val < 1024 * j)) (Finset.univ.image col) := by
    rw [Finset.disjoint_left]
    intro J hJ hJ'
    simp only [Finset.mem_filter, Finset.mem_univ, true_and] at hJ
    simp only [Finset.mem_image, Finset.mem_univ, true_and] at hJ'
    obtain ⟨k, rfl⟩ := hJ'
    rw [hcol] at hJ; omega
  have hinj : Function.Injective col := fun a b h => Fin.ext (by
    have := congrArg Fin.val h
    rw [hcol, hcol] at this; omega)
  rw [himg, Finset.sum_union hdisj, Finset.sum_image (fun a _ b _ h => hinj h)]

/-- No row is below 0. -/
theorem sum_lt_zero {M : Type*} [AddCommMonoid M] (f : Fin 8192 → M) :
    ∑ J ∈ Finset.univ.filter (fun J : Fin 8192 => J.val < 1024 * 0), f J = 0 := by
  rw [Finset.filter_eq_empty_iff.mpr (fun J _ => by omega), Finset.sum_empty]

/-- Every row is below 8192 = 1024 * 8. -/
theorem sum_lt_all {M : Type*} [AddCommMonoid M] (f : Fin 8192 → M) :
    ∑ J ∈ Finset.univ.filter (fun J : Fin 8192 => J.val < 1024 * (7 + 1)), f J = ∑ J : Fin 8192, f J := by
  rw [Finset.filter_true_of_mem (fun J _ => by have := J.isLt; omega)]

/-! ## The tables as plain functions, and one point's step -/

variable (m : (ℓ : Loc nD τ sig) → Buf (Elt Ideal) ℓ)

/-- The two tables and the mask column as plain functions of a row (and an entry). -/
def tblA (c : Dev nD) : Fin 8192 → Fin 128 → EReal := fun r d => tableA m c (ix2 r d)
def tblB (c : Dev nD) : Fin 8192 → Fin 128 → EReal := fun r d => tableB m c (ix2 r d)
def mcol (c : Dev nD) : Fin 8192 → EReal := fun r => maskCol m c (ix2 r 0)

/-- The global column behind column k of point t's block, as a number. -/
theorem colOf_val (t : Fin cfg0.N) (k : Fin 1024) : (colOf t k).val = 1024 * (t.val % 8) + k.val := rfl

/-- The global row behind row p of point t's block, as a number. -/
theorem rowOf_val (t : Fin cfg0.N) (p : Fin 512) : (rowOf t p).val = 512 * (t.val / 8) + p.val := rfl

/-- ONE POINT'S STEP at row p: what the point is given plus the gains of the row behind p against the 1024 rows
    behind the point's column block.  The kernel's test for the diagonal compares the two global row numbers, so it
    holds exactly where the specification's gain is 0. -/
theorem pay3_step (c : Dev nD) (t : Fin cfg0.N) (xs : Vec Ideal S512x1 .f32) (p : Fin 512) :
    k0_pay3 (F := Ideal) (grid0.coords t) (rowsA m c t) (rowsB m c t) (colsB m c t) xs (ix2 p 0)
      = (xs (ix2 p 0) : EReal) + ∑ k : Fin 1024, gain (tblA m c) (tblB m c) (rowOf t p) (colOf t k) := by
  refine (pay3_row (grid0.coords t) (rowsA m c t) (rowsB m c t) (colsB m c t) xs p).trans ?_
  refine congrArg (fun s : EReal => (xs (ix2 p 0) : EReal) + s) ?_
  refine Finset.sum_congr rfl fun k _ => ?_
  unfold gain
  refine if_congr ?_ rfl ?_
  · rw [coords_row, coords_col]
    exact (Fin.ext_iff (a := rowOf t p) (b := colOf t k)).symm
  · simp only [rowsA_apply, rowsB_apply, colsB_apply]
    rfl

/-! ## The running sums after a point -/

/-- THE RUNNING SUMS AFTER POINT t, at row p: the gains of the row behind p against every row below
    1024 (t % 8 + 1).  By induction on the point's number: at t % 8 = 0 the sums start from zeros, elsewhere the point
    before (same t / 8, t % 8 one less) left the gains against the rows below 1024 (t % 8). -/
theorem accAt_row_aux (c : Dev nD) (n : ℕ) : ∀ (hn : n < cfg0.N) (p : Fin 512),
    accAt m c n hn (ix2 p 0)
      = ∑ J ∈ Finset.univ.filter (fun J : Fin 8192 => J.val < 1024 * (n % 8 + 1)),
          gain (tblA m c) (tblB m c) (rowOf ⟨n, hn⟩ p) J := by
  induction n using Nat.strong_induction_on with
  | _ n ih =>
    intro hn p
    have h128 : n < 128 := lt_of_lt_of_eq hn N_0
    have hj : n % 8 < 8 := Nat.mod_lt _ (by decide)
    by_cases h0 : n % 8 = 0
    · rw [accAt_first m c ⟨n, hn⟩ h0, pay3_step m c ⟨n, hn⟩ _ p, pay2_apply, zero_add,
        sum_lt_step _ (n % 8) hj (colOf ⟨n, hn⟩) (colOf_val ⟨n, hn⟩), h0, sum_lt_zero, zero_add]
    · have hlt : n - 1 < cfg0.N := Nat.lt_of_le_of_lt (Nat.sub_le _ _) hn
      have hrow : rowOf ⟨n - 1, hlt⟩ p = rowOf ⟨n, hn⟩ p := Fin.ext (by
        show 512 * ((n - 1) / 8) + p.val = 512 * (n / 8) + p.val
        omega)
      have hmod : (n - 1) % 8 + 1 = n % 8 := by omega
      rw [accAt_next m c ⟨n, hn⟩ h0, pay3_step m c ⟨n, hn⟩ _ p,
        sum_lt_step _ (n % 8) hj (colOf ⟨n, hn⟩) (colOf_val ⟨n, hn⟩)]
      refine congrArg (fun s : EReal => s + ∑ k : Fin 1024, gain (tblA m c) (tblB m c) (rowOf ⟨n, hn⟩ p) (colOf ⟨n, hn⟩ k)) ?_
      refine (ih (n - 1) (by omega) hlt p).trans ?_
      rw [hrow, hmod]

/-- The same, stated at a grid point. -/
theorem accAt_row (c : Dev nD) (t : Fin cfg0.N) (p : Fin 512) :
    accAt m c t.val t.isLt (ix2 p 0)
      = ∑ J ∈ Finset.univ.filter (fun J : Fin 8192 => J.val < 1024 * (t.val % 8 + 1)),
          gain (tblA m c) (tblB m c) (rowOf t p) J :=
  accAt_row_aux m c t.val t.isLt p

/-! ## The output block -/

/-- THE OUTPUT BLOCK at a point with t % 8 = 7, at row p: the running sums, now over all 8192 rows, times the mask
    column's entry: the specification's score of the row behind p. -/
theorem outAt_row (c : Dev nD) (t : Fin cfg0.N) (h7 : t.val % 8 = 7) (p : Fin 512) :
    outAt m c t (ix2 p 0) = score (tblA m c) (tblB m c) (mcol m c) (rowOf t p) := by
  unfold outAt score
  rw [pay1_apply, accAt_row m c t p, h7, sum_lt_all, maskRows_apply]
  rfl

end Cert.KernelIdeal.ScoresValue

end
-- ==== Proof.HostSides.lean ====
/-
  The host lines the kernel's program and the reference share, carried as one function, and the tables the kernel's
  region finds, identified with the reference's stages.

  Both programs normalise the same two tables before anything else and, once the 8192 scores are there, end with the
  same lines: the scores masked with minus infinity, their softmax, the documents' weighted sum, its unit vector, and
  the question itself where the mask is off everywhere.  The lines after the scores are named here as ONE function
  `tailOf` of the scores and the three arguments; the kernel's program's result is `tailOf` at the region's output
  column read as a vector, the reference's result is `tailOf` at the reference's scores, so the two results are equal
  as soon as the scores are: nothing ever looks inside the softmax.  Before the region the kernel's program computes
  the reference's two unit-vector tables, narrows them to bf16, converts the mask to a float and reads it as a column;
  at the ideal instance narrowing changes no value, so entry by entry the tables are the reference's.
-/
import proofs.«118702_j65704409694815_1_alg».proof.Proof.KI.Launch
import proofs.«118702_j65704409694815_1_alg».proof.Proof.KI.Data
import proofs.«118702_j65704409694815_1_alg».proof.Proof.RefReadP
import proofs.«118702_j65704409694815_1_alg».proof.Proof.ScoreAcc

noncomputable section

namespace Cert.KernelIdeal.ScoresValue

open Cert.KernelIdeal Cert.KernelIdeal.Gen Cert.KernelIdeal.Scores Idealize.ShloMosaic Idealize.ShloMosaic.ValueIdx
open Idealize.ShloMosaic.TcCoe

variable {F : FTy → Type} [FloatOps F]

/-! ## The host lines after the scores, as one function -/

/-- The scores with minus infinity where the mask is off. -/
def maskedScores (s : FVec F S8192 .f32) (x2 : IVec S8192 1) : FVec F S8192 .f32 :=
  select x2 s (broadcastInDim S8192 ![] bcast_S_S8192 (id (constant (F := F) S_ .f32 0xFF800000#32)))

/-- The exponentials of the masked scores less their maximum (the maximum taken from minus infinity), -/
def expShifted (v : FVec F S8192 .f32) : FVec F S8192 .f32 :=
  Host.exp (subf v (broadcastInDim S8192 ![0] bcast_S1_S8192_0 (broadcastInDim S1 ![] bcast_S_S1
    (maximumf (constant (F := F) S_ .f32 0xFF800000#32)
      (Host.reduce FloatOps.maximumf v (constant (F := F) S_ .f32 0xFF800000#32) reducesTo_S8192_S_d0 h_S_)))))

/-- divided by their sum: the softmax weights. -/
def weights (e : FVec F S8192 .f32) : FVec F S8192 .f32 :=
  Host.divf e (broadcastInDim S8192 ![0] bcast_S1_S8192_0 (broadcastInDim S1 ![] bcast_S_S1
    (Host.reduceAdd e (constant (F := F) S_ .f32 0x00000000#32) reducesTo_S8192_S_d0 h_S_)))

/-- The documents' rows weighted and summed over the rows. -/
def weightedSum (w : FVec F S8192 .f32) (x1 : FVec F S8192x128 .f32) : FVec F S128 .f32 :=
  Host.reduceAdd (mulf x1 (broadcastInDim S8192x128 ![0, 1] bcast_S8192x1_S8192x128_0_1
      (broadcastInDim S8192x1 ![0] bcast_S8192_S8192x1_0 w)))
    (constant (F := F) S_ .f32 0x00000000#32) reducesTo_S8192x128_S128_d0 h_S_

/-- A vector divided by its norm, the norm kept from below by the word of 1e-12. -/
def unitOf (a : FVec F S128 .f32) : FVec F S128 .f32 :=
  Host.divf a (broadcastInDim S128 ![0] bcast_S1_S128_0
    (maximumf (Host.sqrt (broadcastInDim S1 ![] bcast_S_S1
        (Host.reduceAdd (mulf a a) (constant (F := F) S_ .f32 0x00000000#32) reducesTo_S128_S_d0 h_S_)))
      (broadcastInDim S1 ![] bcast_S_S1 (constant (F := F) S_ .f32 0x2B8CBCCC#32))))

/-- THE HOST LINES AFTER THE SCORES as one function of the scores and the three arguments: the masked softmax of the
    scores, the documents' weighted sum made a unit vector, and the question itself where the mask is off everywhere. -/
def tailOf (s : FVec F S8192 .f32) (x0 : FVec F S128 .f32) (x1 : FVec F S8192x128 .f32) (x2 : IVec S8192 1) :
    FVec F S128 .f32 :=
  select (broadcastInDim S128 ![] bcast_S_S128
      (Host.reduce IntOp.ori x2 (constantI S_ 1 0#1) reducesTo_S8192_S_d0 h_S_))
    (unitOf (weightedSum (weights (expShifted (maskedScores s x2))) x1)) x0

/-! ## The reference ends in the same function of its scores -/

open Cert.ReferenceIdeal.ReadP in
/-- The reference's result is the shared tail at the reference's scores: its lines after the scores are, one for one,
    the kernel's program's. -/
theorem ref_result (x0 : FVec F S128 .f32) (x1 : FVec F S8192x128 .f32) (x2 : IVec S8192 1) :
    Cert.ReferenceIdeal.ReadP.val_main_v55 (F := F) x0 x1 x2
      = tailOf (Cert.ReferenceIdeal.ReadP.val_main_v33 (F := F) x0 x1 x2) x0 x1 x2 := by
  unfold val_main_v55 val_main_v54 val_main_c_11 val_main_v53 val_main_v52 val_main_v51 val_main_v50 val_main_cst_10
    val_main_v49 val_main_call3_v2 val_main_call3_v1 val_main_call3_cst val_main_call3_v0 val_main_v48 val_main_cst_9
    val_main_v47 val_main_v46 val_main_v45 val_main_v44 val_main_v43 val_main_v42 val_main_v41 val_main_cst_8
    val_main_v40 val_main_v39 val_main_v38 val_main_v37 val_main_v36 val_main_cst_7 val_main_v35 val_main_cst_6
    val_main_v34 val_main_call2_v1 val_main_call2_v0 val_main_cst_5
  generalize val_main_v33 (F := F) x0 x1 x2 = s
  unfold tailOf unitOf weightedSum weights expShifted maskedScores
  rfl

/-! ## The kernel's program: the arguments are never written, and its result is the shared tail -/

variable (m : (ℓ : Loc nD τ sig) → Buf (Elt F) ℓ)

/-- No host line before the region writes the first argument, -/
theorem V0_arg0 (c : Dev nD) : V0 m c (Proc.devRef .tc main_arg0) = m ((c : Thread nD τ).loc main_arg0) := by
  show StableHlo.after (List.flatten preOps) (fun b => m (c, b)) (Proc.devRef .tc main_arg0) = _
  simp only [preOps, hostOps0, hostOps0_1, hostOps0_2, hostOps0_3, hostOps0_4, List.flatten_cons, List.flatten_nil,
    List.append_nil, List.cons_append, List.nil_append]
  after_results_simp <;> rfl

/-- nor the second, -/
theorem V0_arg1 (c : Dev nD) : V0 m c (Proc.devRef .tc main_arg1) = m ((c : Thread nD τ).loc main_arg1) := by
  show StableHlo.after (List.flatten preOps) (fun b => m (c, b)) (Proc.devRef .tc main_arg1) = _
  simp only [preOps, hostOps0, hostOps0_1, hostOps0_2, hostOps0_3, hostOps0_4, List.flatten_cons, List.flatten_nil,
    List.append_nil, List.cons_append, List.nil_append]
  after_results_simp <;> rfl

/-- nor the third. -/
theorem V0_arg2 (c : Dev nD) : V0 m c (Proc.devRef .tc main_arg2) = m ((c : Thread nD τ).loc main_arg2) := by
  show StableHlo.after (List.flatten preOps) (fun b => m (c, b)) (Proc.devRef .tc main_arg2) = _
  simp only [preOps, hostOps0, hostOps0_1, hostOps0_2, hostOps0_3, hostOps0_4, List.flatten_cons, List.flatten_nil,
    List.append_nil, List.cons_append, List.nil_append]
  after_results_simp <;> rfl

/-- The kernel's program's result, from the region's exit with the output array at `out`: the shared tail at the
    output column read as a vector. -/
theorem end_result (c : Dev nD) (out : Buf (Elt F) ((c : Thread nD τ).loc main_v19)) :
    endVal m c out main_v42
      = tailOf (shapeCast S8192 out shapeCasts_S8192x1_S8192) (m ((c : Thread nD τ).loc main_arg0))
          (m ((c : Thread nD τ).loc main_arg1)) (m ((c : Thread nD τ).loc main_arg2)) := by
  show StableHlo.after (List.flatten postOps) (exitVal m c out) (Proc.devRef .tc main_v42) = _
  simp only [postOps, hostOps1, hostOps1_1, hostOps1_2, hostOps1_3, hostOps1_4, hostOps1_5, List.flatten_cons,
    List.flatten_nil, List.append_nil, List.cons_append, List.nil_append]
  after_results_simp
  simp only [StableHlo.TRef.ofBuf, StableHlo.TRef.toBuf, cast_eq]
  rw [exitVal_out m c out, exitVal_ne m c out main_arg0 (by decide), exitVal_ne m c out main_arg1 (by decide),
    exitVal_ne m c out main_arg2 (by decide), V0_arg0, V0_arg1, V0_arg2]
  rfl

/-! ## The tables the region finds are the reference's stages -/

open Cert.ReferenceIdeal.ReadP in
/-- The first table the region finds is the reference's combined unit vectors, narrowed to bf16. -/
theorem tableA_eq (c : Dev nD) :
    tableA m c = truncf .bf16 (Cert.ReferenceIdeal.ReadP.val_main_v9 (F := F) (m ((c : Thread nD τ).loc main_arg0))
      (m ((c : Thread nD τ).loc main_arg1))) bitsLt_bf16_f32 := by
  show StableHlo.after (List.flatten preOps) (fun b => m (c, b)) (Proc.devRef .tc main_v15) = _
  simp only [preOps, hostOps0, hostOps0_1, hostOps0_2, hostOps0_3, hostOps0_4, List.flatten_cons, List.flatten_nil,
    List.append_nil, List.cons_append, List.nil_append]
  after_results_simp
  simp only [StableHlo.TRef.ofBuf, StableHlo.TRef.toBuf, cast_eq]
  unfold val_main_v9 val_main_v8 val_main_v7 val_main_v6 val_main_cst_0 val_main_v5 val_main_call0_v2 val_main_call0_v1
    val_main_call0_cst val_main_call0_v0 val_main_v4 val_main_v3 val_main_cst val_main_v2 val_main_v1 val_main_v0
  rfl

open Cert.ReferenceIdeal.ReadP in
/-- The second is the reference's unit documents, narrowed to bf16. -/
theorem tableB_eq (c : Dev nD) :
    tableB m c = truncf .bf16 (Cert.ReferenceIdeal.ReadP.val_main_v14 (F := F) (m ((c : Thread nD τ).loc main_arg1)))
      bitsLt_bf16_f32 := by
  show StableHlo.after (List.flatten preOps) (fun b => m (c, b)) (Proc.devRef .tc main_v16) = _
  simp only [preOps, hostOps0, hostOps0_1, hostOps0_2, hostOps0_3, hostOps0_4, List.flatten_cons, List.flatten_nil,
    List.append_nil, List.cons_append, List.nil_append]
  after_results_simp
  simp only [StableHlo.TRef.ofBuf, StableHlo.TRef.toBuf, cast_eq]
  unfold val_main_v14 val_main_v13 val_main_v12 val_main_v11 val_main_cst_1 val_main_v10 val_main_call1_v2
    val_main_call1_v1 val_main_call1_cst val_main_call1_v0
  rfl

open Cert.ReferenceIdeal.ReadP in
/-- The mask column is the reference's converted mask, read as a column. -/
theorem maskCol_eq (c : Dev nD) :
    maskCol m c = shapeCast S8192x1 (Cert.ReferenceIdeal.ReadP.val_main_v32 (F := F) (m ((c : Thread nD τ).loc main_arg2)))
      shapeCasts_S8192_S8192x1 := by
  show StableHlo.after (List.flatten preOps) (fun b => m (c, b)) (Proc.devRef .tc main_v18) = _
  simp only [preOps, hostOps0, hostOps0_1, hostOps0_2, hostOps0_3, hostOps0_4, List.flatten_cons, List.flatten_nil,
    List.append_nil, List.cons_append, List.nil_append]
  after_results_simp
  unfold val_main_v32
  rfl

/-! ## At the ideal instance, entry by entry -/

section AtIdeal

variable (m : (ℓ : Loc nD τ sig) → Buf (Elt Ideal) ℓ)

/-- Narrowing to bf16 changes no extended real: the first table's entries are the reference's combined unit vectors'. -/
theorem tblA_eq (c : Dev nD) :
    tblA m c = fun r d => Cert.ReferenceIdeal.ReadP.val_main_v9 (F := Ideal) (m ((c : Thread nD τ).loc main_arg0))
      (m ((c : Thread nD τ).loc main_arg1)) (ix2 r d) := by
  funext r d
  unfold tblA
  rw [tableA_eq]
  exact truncf_apply _ _ _

/-- Likewise the second table's are the reference's unit documents'. -/
theorem tblB_eq (c : Dev nD) :
    tblB m c = fun r d => Cert.ReferenceIdeal.ReadP.val_main_v14 (F := Ideal) (m ((c : Thread nD τ).loc main_arg1)) (ix2 r d) := by
  funext r d
  unfold tblB
  rw [tableB_eq]
  exact truncf_apply _ _ _

/-- The mask column's entry at row r is the reference's converted mask's entry r. -/
theorem mcol_eq (c : Dev nD) :
    mcol m c = fun r => Cert.ReferenceIdeal.ReadP.val_main_v32 (F := Ideal) (m ((c : Thread nD τ).loc main_arg2)) (ix1 r) := by
  funext r
  unfold mcol
  rw [maskCol_eq]
  exact KeepdimsLayout.shapeCast_a_a1_apply _ _ r 0

end AtIdeal

end Cert.KernelIdeal.ScoresValue

end
-- ==== Proof.ScoreFinal.lean ====
/-
  The region's output array after every write-back, read at a row: the closed-form score.

  The output column is written back block by block, and only at the last point of each grid row (j = 7), where
  the running sums hold the whole row sums and the body has multiplied them by the mask column.  The block written
  at point t = 8 i + 7 is rows [512 i, 512 i + 512) of the 8192 × 1 array, so the sixteen written blocks tile the
  array: row R lies in the block of point 8 (R / 512) + 7.  Hence the array ends holding, at every row R, the score
  of row R.
-/
import proofs.«118702_j65704409694815_1_alg».proof.Proof.ScoreAcc
import proofs.«118702_j65704409694815_1_alg».proof.Proof.Gen.KernelIdeal.Points
import Idealize.ShloMosaic.Lib.Pipeline.Value
import Idealize.ShloMosaic.Lib.ValueIdx

set_option maxRecDepth 16384

noncomputable section

namespace Cert.KernelIdeal.ScoresValue

open Cert.KernelIdeal Cert.KernelIdeal.Gen Cert.KernelIdeal.Scores Cert.ScoreSpec Idealize.ShloMosaic Idealize.ShloMosaic.ValueIdx
open Idealize.ShloMosaic.Pipeline (Dat)

/-! ## The output window's blocks -/

/-- The output column's block at point t is block t / 8 of 16 along the rows, the one block along the column. -/
theorem blockOut : ∀ t : Fin cfg0.N, win0_4.index t (0 : Fin 2) = t.val / 8 ∧ win0_4.index t (1 : Fin 2) = 0 :=
  (by decide +kernel : ∀ t : Fin grid0.N, win0_4.index t (0 : Fin 2) = t.val / 8 ∧ win0_4.index t (1 : Fin 2) = 0)

/-- An index of the output array is in point t's block iff each coordinate is in the block's range on its axis. -/
theorem mem_blockOut (t : Fin cfg0.N) (i : S8192x1.Idx) :
    i ∈ ((cfg0.win 4).blk t).view.set
      ↔ ∀ a : Fin 2, win0_4.index t a * S512x1.size a ≤ (i a).val
          ∧ (i a).val < win0_4.index t a * S512x1.size a + S512x1.size a := by
  show i ∈ ((View.whole main_v19).slice (win0_4.rect t)).set ↔ _
  rw [View.set_slice_whole, Rect.mem_set_unit]
  exact Iff.rfl

/-- Every row of the output array lies in a block that is written back: row R in the block of the last point of
    grid row R / 512, the point 8 (R / 512) + 7. -/
theorem coveredOut (i : S8192x1.Idx) :
    ∃ t : Fin cfg0.N, (cfg0.win 4).flush t = true ∧ i ∈ ((cfg0.win 4).blk t).view.set := by
  have hi0 : (i 0).val < 8192 := idx2_lt0 i
  have hi1 : (i 1).val < 1 := idx2_lt1 i
  obtain ⟨t, ht⟩ : ∃ t : Fin cfg0.N, t.val = 8 * ((i 0).val / 512) + 7 :=
    ⟨⟨8 * ((i 0).val / 512) + 7, lt_of_lt_of_eq (by omega : 8 * ((i 0).val / 512) + 7 < 128) N_0.symm⟩, rfl⟩
  obtain ⟨e0, e1⟩ := blockOut t
  refine ⟨t, (flush0_4 t).mpr (by omega), ?_⟩
  rw [mem_blockOut]
  intro a
  match a with
  | ⟨0, _⟩ =>
    show win0_4.index t (0 : Fin 2) * 512 ≤ (i 0).val ∧ (i 0).val < win0_4.index t (0 : Fin 2) * 512 + 512
    rw [e0, ht]; omega
  | ⟨1, _⟩ =>
    show win0_4.index t (1 : Fin 2) * 1 ≤ (i 1).val ∧ (i 1).val < win0_4.index t (1 : Fin 2) * 1 + 1
    rw [e1]; omega

/-! ## The output array -/

variable (m : (ℓ : Loc nD τ sig) → Buf (Elt Ideal) ℓ)

/-- The column of scores: at row R of the 8192 × 1 array, the score of row R. -/
def scoreCol (c : Dev nD) : Vec Ideal S8192x1 .f32 :=
  fun y => score (tblA m c) (tblB m c) (mcol m c) ⟨(y 0).val, idx2_lt0 y⟩

/-- WHAT A WRITING POINT WRITES BACK is its block of the column of scores: the point is the last of its grid row,
    where the running sums are complete and the body has multiplied them by the mask column. -/
theorem flushedOut_eq {c : Dev nD} (dat : Dat τ (Elt Ideal) Unit ℕ (UR sig nD τ) ℕ cfg0 c)
    (hafter : ∀ t, dat.after (4 : Fin 5) t = outAt m c t) (t : Fin cfg0.N) (hf : (cfg0.win 4).flush t = true) :
    dat.flushed 4 t = ((cfg0.win 4).blk t).view.read (Elt Ideal) (scoreCol m c) := by
  have h7 : t.val % 8 = 7 := (flush0_4 t).mp hf
  obtain ⟨e0, e1⟩ := blockOut t
  show dat.after (4 : Fin 5) t = _
  rw [hafter t]
  funext y
  obtain ⟨p, u, rfl⟩ : ∃ (p : Fin 512) (u : Fin 1), y = ix2 p u := ⟨y 0, y 1, eq_ix2 y⟩
  obtain rfl : u = 0 := Subsingleton.elim _ _
  rw [outAt_row m c t h7 p, View.read_apply]
  show score (tblA m c) (tblB m c) (mcol m c) (rowOf t p) = score (tblA m c) (tblB m c) (mcol m c) _
  refine congrArg (score (tblA m c) (tblB m c) (mcol m c)) (Fin.ext ?_)
  show 512 * (t.val / 8) + p.val = win0_4.index t (0 : Fin 2) * 512 + 1 * p.val
  rw [e0]; omega

/-- THE OUTPUT ARRAY after every write-back, at row R: the score of row R. -/
theorem final_scores {c : Dev nD} (dat : Dat τ (Elt Ideal) Unit ℕ (UR sig nD τ) ℕ cfg0 c)
    (hafter : ∀ t, dat.after (4 : Fin 5) t = outAt m c t) (R : Fin 8192) :
    (dat.arrAt (4 : Fin 5) cfg0.N : Vec Ideal S8192x1 .f32) (ix2 R 0)
      = score (tblA m c) (tblB m c) (mcol m c) R := by
  have h := dat.arrAt_eq_of_cover (4 : Fin 5) (scoreCol m c) (fun t hf => flushedOut_eq m dat hafter t hf) coveredOut
  exact (congrFun h (ix2 R 0)).trans rfl

end Cert.KernelIdeal.ScoresValue

end
-- ==== Proof.RefScores.lean ====
/-
  The reference's scores, read at a row, as the closed form of the score specification.

  The reference builds the full 8192 x 8192 gain matrix: at (R, J) it is the product of row R of the combined
  unit vectors against row J of the unit documents, times one minus the product of rows R and J of the unit
  documents, times one minus the identity matrix's entry.  The identity matrix is the comparison "row number =
  column number" of two 32-bit words, converted to a float: both numbers are below 8192 < 2^32, so the words are
  equal exactly when the numbers are, and the converted bit is 1 on the diagonal and 0 off it.  On the extended
  reals x * (1 - 1) = x * 0 = 0 and x * (1 - 0) = x * 1 = x hold for every x, so the entry is the specification's
  gain of the pair (R, J).  The row sum starts from the constant 0, and 0 + s = s; the result is multiplied by the
  mask's entry.  The two unit-vector tables and the converted mask are carried as they are: nothing below looks
  inside them.
-/
import proofs.«118702_j65704409694815_1_alg».proof.Proof.RefReadP
import proofs.«118702_j65704409694815_1_alg».proof.Proof.ScoreSpec
import Idealize.ShloMosaic.Lib.IdealHost

noncomputable section

open scoped BigOperators

namespace Cert.ReferenceIdeal.ScoresValue

open Cert.ReferenceIdeal Cert.ReferenceIdeal.ReadP Idealize.ShloMosaic Idealize.ShloMosaic.ValueIdx Cert.ScoreSpec

/-! ## Words and extended reals -/

/-- The comparison of two row numbers below 8192 as 32-bit words (the first with the word 0 added), converted to a
    float: one on the diagonal, zero off it. -/
theorem diag_word (R J : Fin 8192) :
    FloatOps.uitofp (F := Ideal) .f32
        (IntOp.cmpi .eq (IntOp.addi (BitVec.ofNat 32 R.val) 0#32) (BitVec.ofNat 32 J.val))
      = if R = J then (1 : EReal) else 0 := by
  have hadd : IntOp.addi (BitVec.ofNat 32 R.val) 0#32 = BitVec.ofNat 32 R.val := by
    unfold IntOp.addi; exact BitVec.add_zero _
  rw [hadd]
  show (((IntOp.cmpi .eq (BitVec.ofNat 32 R.val) (BitVec.ofNat 32 J.val)).toNat : ℝ) : EReal) = _
  by_cases h : R = J
  · subst h
    rw [if_pos rfl]
    have : IntOp.cmpi .eq (BitVec.ofNat 32 R.val) (BitVec.ofNat 32 R.val) = 1#1 := by
      unfold IntOp.cmpi; simp
    rw [this]; simp
  · rw [if_neg h]
    have hne : BitVec.ofNat 32 R.val ≠ BitVec.ofNat 32 J.val := by
      intro e
      have := congrArg BitVec.toNat e
      simp only [BitVec.toNat_ofNat] at this
      have hR := R.isLt; have hJ := J.isLt
      exact h (Fin.ext (by omega))
    have : IntOp.cmpi .eq (BitVec.ofNat 32 R.val) (BitVec.ofNat 32 J.val) = 0#1 := by
      unfold IntOp.cmpi
      show BitVec.ofBool (BitVec.ofNat 32 R.val == BitVec.ofNat 32 J.val) = 0#1
      rw [beq_eq_false_iff_ne.mpr hne]; rfl
    rw [this]; simp

/-- One minus one is zero on the extended reals: real arithmetic under the coercion. -/
theorem one_sub_one : (1 : EReal) - 1 = 0 := by
  rw [show (1 : EReal) = ((1 : ℝ) : EReal) from rfl, ← EReal.coe_sub]; simp

/-- Multiplying by one minus the identity's entry keeps x off the diagonal and gives 0 on it, for EVERY extended
    real x: x * 0 = 0 and x * 1 = x have no exception there. -/
theorem mask_mul (x : EReal) (R J : Fin 8192) :
    x * (1 - (if R = J then (1 : EReal) else 0)) = if R = J then 0 else x := by
  by_cases h : R = J
  · rw [if_pos h, if_pos h, one_sub_one, mul_zero]
  · rw [if_neg h, if_neg h, sub_zero, mul_one]

/-! ## The composed index functions at coordinates -/

/-- The left operand of either product is read at (row, k). -/
theorem lidx16_ix (R J : Fin 8192) (k : Fin 128) : lidx_main_v16 (ix2 R J) k = ix2 R k :=
  funext fun a => Fin.ext (by match a with | ⟨0, _⟩ => rfl | ⟨1, _⟩ => rfl)

theorem lidx18_ix (R J : Fin 8192) (k : Fin 128) : lidx_main_v18 (ix2 R J) k = ix2 R k :=
  funext fun a => Fin.ext (by match a with | ⟨0, _⟩ => rfl | ⟨1, _⟩ => rfl)

/-- The right operand, a transpose, is read at (column, k) of the array it transposes. -/
theorem ridx16_ix (R J : Fin 8192) (k : Fin 128) : idx_main_v15 (ridx_main_v16 (ix2 R J) k) = ix2 J k :=
  funext fun a => Fin.ext (by match a with | ⟨0, _⟩ => rfl | ⟨1, _⟩ => rfl)

theorem ridx18_ix (R J : Fin 8192) (k : Fin 128) : idx_main_v17 (ridx_main_v18 (ix2 R J) k) = ix2 J k :=
  funext fun a => Fin.ext (by match a with | ⟨0, _⟩ => rfl | ⟨1, _⟩ => rfl)

/-- The row sum reads its operand at (row, k). -/
theorem idx31_ix (R : Fin 8192) (k : Fin 8192) : idx_main_v31 (ix1 R) k = ix2 R k :=
  funext fun a => Fin.ext (by match a with | ⟨0, _⟩ => rfl | ⟨1, _⟩ => rfl)

/-! ## The stages at an entry -/

/-- The information gain at (R, J): row R of the combined unit vectors against row J of the unit documents. -/
theorem v16_entry (x0 : (⟨S128, .f32⟩ : BufTy).Contents (Elt Ideal)) (x1 : (⟨S8192x128, .f32⟩ : BufTy).Contents (Elt Ideal))
    (R J : Fin 8192) :
    val_main_v16 (F := Ideal) x0 x1 (ix2 R J)
      = ∑ d : Fin 128, val_main_v9 (F := Ideal) x0 x1 (ix2 R d) * val_main_v14 (F := Ideal) x1 (ix2 J d) := by
  rw [val_main_v16_apply]
  refine Finset.sum_congr rfl fun k _ => ?_
  rw [val_main_v15_apply, lidx16_ix, ridx16_ix]

/-- The product of rows R and J of the unit documents. -/
theorem v18_entry (x1 : (⟨S8192x128, .f32⟩ : BufTy).Contents (Elt Ideal)) (R J : Fin 8192) :
    val_main_v18 (F := Ideal) x1 (ix2 R J)
      = ∑ d : Fin 128, val_main_v14 (F := Ideal) x1 (ix2 R d) * val_main_v14 (F := Ideal) x1 (ix2 J d) := by
  rw [val_main_v18_apply]
  refine Finset.sum_congr rfl fun k _ => ?_
  rw [val_main_v17_apply, lidx18_ix, ridx18_ix]

/-- The identity matrix's entry: one on the diagonal, zero off it. -/
theorem v27_entry (R J : Fin 8192) : val_main_v27 (F := Ideal) (ix2 R J) = if R = J then (1 : EReal) else 0 := by
  rw [val_main_v27_apply, val_main_v26_apply, val_main_v25_apply, val_main_v22_apply, val_main_v23_apply,
    val_main_v24_apply, val_main_c_apply]
  exact diag_word R J

/-- One minus the identity matrix's entry. -/
theorem v29_entry (R J : Fin 8192) :
    val_main_v29 (F := Ideal) (ix2 R J) = 1 - (if R = J then (1 : EReal) else 0) := by
  rw [val_main_v29_apply, val_main_v28_apply, val_main_cst_3_apply, v27_entry, Ideal.subf_def, Ideal.ofBits_def,
    Ideal.ofBits_one_f32]

/-- The diversity gain at (R, J): one minus the product of rows R and J of the unit documents. -/
theorem v20_entry (x1 : (⟨S8192x128, .f32⟩ : BufTy).Contents (Elt Ideal)) (R J : Fin 8192) :
    val_main_v20 (F := Ideal) x1 (ix2 R J)
      = 1 - ∑ d : Fin 128, val_main_v14 (F := Ideal) x1 (ix2 R d) * val_main_v14 (F := Ideal) x1 (ix2 J d) := by
  rw [val_main_v20_apply, val_main_v19_apply, val_main_cst_2_apply, v18_entry, Ideal.subf_def, Ideal.ofBits_def,
    Ideal.ofBits_one_f32]

/-- THE GAIN MATRIX AT AN ENTRY: the masked product of the two gains at (R, J) is the specification's gain of the
    pair. -/
theorem v30_entry (x0 : (⟨S128, .f32⟩ : BufTy).Contents (Elt Ideal)) (x1 : (⟨S8192x128, .f32⟩ : BufTy).Contents (Elt Ideal))
    (R J : Fin 8192) :
    val_main_v30 (F := Ideal) x0 x1 (ix2 R J)
      = gain (fun r d => val_main_v9 (F := Ideal) x0 x1 (ix2 r d)) (fun r d => val_main_v14 (F := Ideal) x1 (ix2 r d)) R J := by
  rw [val_main_v30_apply, val_main_v21_apply, v16_entry, v20_entry, v29_entry, Ideal.mulf_def, Ideal.mulf_def]
  exact mask_mul _ R J

/-! ## The scores -/

/-- THE REFERENCE'S SCORE OF ROW R: the row sum of the gain matrix from the constant 0, times the converted mask's
    entry, is the specification's score. -/
theorem ref_scores (x0 : (⟨S128, .f32⟩ : BufTy).Contents (Elt Ideal)) (x1 : (⟨S8192x128, .f32⟩ : BufTy).Contents (Elt Ideal))
    (x2 : (⟨S8192, .i1⟩ : BufTy).Contents (Elt Ideal)) (R : Fin 8192) :
    val_main_v33 (F := Ideal) x0 x1 x2 (ix1 R)
      = score (fun r d => val_main_v9 (F := Ideal) x0 x1 (ix2 r d)) (fun r d => val_main_v14 (F := Ideal) x1 (ix2 r d))
          (fun r => val_main_v32 (F := Ideal) x2 (ix1 r)) R := by
  rw [val_main_v33_apply, val_main_v31_apply, val_main_cst_4_apply, Ideal.mulf_def, Ideal.ofBits_def,
    Ideal.ofBits_zero_f32, zero_add]
  unfold score
  refine congrArg (· * val_main_v32 (F := Ideal) x2 (ix1 R)) ?_
  refine Finset.sum_congr rfl fun k _ => ?_
  rw [idx31_ix, v30_entry]

end Cert.ReferenceIdeal.ScoresValue

end
-- ==== Proof.ScoresAgree.lean ====
/-
  The kernel's output column, read as a vector, is the reference's scores.

  After every write-back the region's output array holds, at row R, the specification's score of row R over the two
  tables and the mask column the region found.  Entry by entry those are the reference's two unit-vector tables and
  its converted mask, and the reference's own scores are the same specification's score over them.  Reading the
  8192 x 1 column as a vector of 8192 entries moves entry (R, 0) to entry R.  So the two vectors agree at every R.
-/
import proofs.«118702_j65704409694815_1_alg».proof.Proof.HostSides
import proofs.«118702_j65704409694815_1_alg».proof.Proof.ScoreFinal
import proofs.«118702_j65704409694815_1_alg».proof.Proof.RefScores
import proofs.«118702_j65704409694815_1_alg».proof.Proof.KI.Launch
import Idealize.ShloMosaic.Lib.Pipeline.Value
import Idealize.ShloMosaic.Lib.ValueIdx

noncomputable section

namespace Cert.KernelIdeal.ScoresValue

open Cert.KernelIdeal Cert.KernelIdeal.Gen Cert.KernelIdeal.Scores Cert.ScoreSpec Idealize.ShloMosaic Idealize.ShloMosaic.ValueIdx
open Idealize.ShloMosaic.TcCoe
open Idealize.ShloMosaic.Pipeline (Dat)

/-- An [a, 1] array read as an [a] array holds, at p, the column's entry (p, 0): the two indices have the same
    row-major position. -/
theorem shapeCast_a1_a_apply {α : Type} {a : ℕ} (x : (⟨2, ![a, 1]⟩ : Shape).Idx → α)
    (h : (⟨2, ![a, 1]⟩ : Shape).ShapeCasts ⟨1, ![a]⟩) (p : Fin a) :
    shapeCast ⟨1, ![a]⟩ x h (ix1 p) = x (ix2 p (0 : Fin 1)) :=
  shapeCast_apply x h _ _ (by
    rw [Shape.rowMajor_val_two, Shape.rowMajor_val_one]
    show p.val * 1 + 0 = p.val
    rw [Nat.mul_one, Nat.add_zero])

variable (m : (ℓ : Loc nD τ sig) → Buf (Elt Ideal) ℓ)

/-- THE KERNEL'S OUTPUT COLUMN, READ AS A VECTOR, IS THE REFERENCE'S SCORES: at row R both are the specification's
    score of row R over the same two tables and the same mask. -/
theorem scores_agree {c : Dev nD} (dat : Dat τ (Elt Ideal) Unit ℕ (UR sig nD τ) ℕ cfg0 c)
    (hafter : ∀ t, dat.after (4 : Fin 5) t = outAt m c t) :
    shapeCast S8192 (outArr dat) shapeCasts_S8192x1_S8192
      = Cert.ReferenceIdeal.ReadP.val_main_v33 (F := Ideal) (m ((c : Thread nD τ).loc main_arg0))
          (m ((c : Thread nD τ).loc main_arg1)) (m ((c : Thread nD τ).loc main_arg2)) := by
  funext j
  obtain ⟨R, rfl⟩ : ∃ R : Fin 8192, j = ix1 R := ⟨j 0, eq_ix1 j⟩
  refine (shapeCast_a1_a_apply (outArr dat) shapeCasts_S8192x1_S8192 R).trans ?_
  refine (final_scores m dat hafter R).trans ?_
  rw [tblA_eq, tblB_eq, mcol_eq]
  exact (Cert.ReferenceIdeal.ScoresValue.ref_scores _ _ _ R).symm

end Cert.KernelIdeal.ScoresValue

end
-- ==== Proof.lean ====
/-
  The claim: the pipelined kernel and its idealization run, leave their arguments unchanged, and at the ideal
  instance the idealized kernel and the idealized reference return the same vector.

  Both programs normalise the averaged table and the document table row by row, and both finish with the same
  lines: a softmax of the masked scores, the weighted sum of the documents, its normalisation, the fallback to the
  question when the mask is empty. They differ only in how row R's score is reached. The reference forms the full
  8192 x 8192 gain matrix, multiplies it entrywise by one minus the identity matrix, sums each row and multiplies by
  the mask. The kernel walks a 16 x 8 grid: at point (i, j) it takes rows [512 i, 512 i + 512) against rows
  [1024 j, 1024 j + 1024), replaces the entries on the global diagonal by zero, sums each row and adds the 512 partial
  sums into a running column that it zeroes at j = 0 and, at j = 7, multiplies by the mask and stores. On the
  extended reals x * (1 - 1) = 0 and x * (1 - 0) = x for every x, and a finite sum may be regrouped freely, so both
  reach `score` of the same two tables and mask (Proof/ScoreSpec.lean); the shared closing lines are carried as one
  function of the scores and the arguments and are never opened.

  The frames: the reference is host lines only, and its run is read back line by line. The kernel's program is host
  lines, one region, host lines; the region's second table is read through two windows, so the launch deals the
  table's buffer once and the region holds it by halves (Proof/KI/Launch.lean), and the body is run once per case of
  j (first, middle, last point of a row block). The word-level program is the same text in another namespace.
  Nothing was rewritten by the ideal pass, so the idealization is the program's own text read at the ideal instance.
-/
import proofs.«118702_j65704409694815_1_alg».proof.Defs
import proofs.«118702_j65704409694815_1_alg».proof.Proof.Gen.Kernel
import proofs.«118702_j65704409694815_1_alg».proof.Proof.Gen.KernelIdeal
import proofs.«118702_j65704409694815_1_alg».proof.Proof.Gen.ReferenceIdeal
import proofs.«118702_j65704409694815_1_alg».proof.Proof.Gen.Pre_finite_inputs
import proofs.«118702_j65704409694815_1_alg».proof.Proof.K.Ends
import proofs.«118702_j65704409694815_1_alg».proof.Proof.KI.Ends
import proofs.«118702_j65704409694815_1_alg».proof.Proof.ScoresAgree
import proofs.«118702_j65704409694815_1_alg».proof.Proof.RefReadP
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Scores.frame m ρ

/-- So does its idealization. -/
theorem frame_kernelIdeal : Cert.frame_KernelIdeal := fun m ρ _ => Cert.KernelIdeal.Scores.frame m ρ

/-- The reference is host lines only: its run, with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- At the ideal instance both programs end at the shared closing lines applied to the reference's scores: the kernel's
    output array, as a vector, is those scores, and the reference's result is its last stage. -/
theorem algebraic : Cert.algebraic_KernelIdeal_ReferenceIdeal := by
  intro m ρ m' ρ' _ hagree
  refine ⟨fun c => Cert.KernelIdeal.ScoresValue.tailOf (F := Ideal)
      (Cert.ReferenceIdeal.ReadP.val_main_v33 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)))
      (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)), ?_, ?_⟩
  · refine (θ_run Cert.KernelIdeal.defs _ _).mono (fun _ h c => ⟨?_, ?_, ?_, ?_⟩) (Cert.KernelIdeal.Scores.run_main (F := Ideal) m ρ)
    · exact ((h c).2 _ Cert.KernelIdeal.Scores.res_rest).trans ((Cert.KernelIdeal.ScoresValue.end_result m c _).trans
        (congrArg (fun s => Cert.KernelIdeal.ScoresValue.tailOf (F := Ideal) s _ _ _)
          (Cert.KernelIdeal.ScoresValue.scores_agree m (Cert.KernelIdeal.Scores.dats m 0 c) (Cert.KernelIdeal.Scores.after4 m c))))
    · exact ((h c).2 _ Cert.KernelIdeal.Scores.arg0_rest).trans (Cert.KernelIdeal.Scores.endVal_arg0 m c _)
    · exact ((h c).2 _ Cert.KernelIdeal.Scores.arg1_rest).trans (Cert.KernelIdeal.Scores.endVal_arg1 m c _)
    · exact ((h c).2 _ Cert.KernelIdeal.Scores.arg2_rest).trans (Cert.KernelIdeal.Scores.endVal_arg2 m c _)
  · refine (θ_run Cert.ReferenceIdeal.defs _ _).mono (fun _ h c => ⟨?_, (h c).2⟩) (Cert.ReferenceIdeal.ValueP.run (F := Ideal) m' ρ')
    refine (h c).1.trans ((Cert.ReferenceIdeal.ReadP.val_main_v55_eq m' c).trans ((Cert.KernelIdeal.ScoresValue.ref_result (F := Ideal) _ _ _).trans ?_))
    rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
